-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x5000 : Shape := ⟨2, ![40000, 5000]⟩
abbrev S5000x64 : Shape := ⟨2, ![5000, 64]⟩
abbrev S64 : Shape := ⟨1, ![64]⟩
abbrev S5064x64 : Shape := ⟨2, ![5064, 64]⟩
abbrev S2x80000 : Shape := ⟨2, ![2, 80000]⟩
abbrev S40000 : Shape := ⟨1, ![40000]⟩
abbrev S128 : Shape := ⟨1, ![128]⟩
abbrev S_ : Shape := ⟨0, ![]⟩

class Facts : Prop where
  bcast_S_S40000x5000 : S_.BroadcastsInDim S40000x5000 (![] : Fin 0 → Fin S40000x5000.rank)
  reducesTo_S40000x5000_S_d0_1 : S40000x5000.ReducesTo [0, 1] S_
  h_S_ : 0 < S_.numel
  bcast_S_S5000x64 : S_.BroadcastsInDim S5000x64 (![] : Fin 0 → Fin S5000x64.rank)
  reducesTo_S5000x64_S_d0_1 : S5000x64.ReducesTo [0, 1] S_
  bcast_S_S64 : S_.BroadcastsInDim S64 (![] : Fin 0 → Fin S64.rank)
  reducesTo_S64_S_d0 : S64.ReducesTo [0] S_
  bcast_S_S5064x64 : S_.BroadcastsInDim S5064x64 (![] : Fin 0 → Fin S5064x64.rank)
  reducesTo_S5064x64_S_d0_1 : S5064x64.ReducesTo [0, 1] S_

variable [Facts]

def fn_part1 {F : FTy → Type} [FloatOps F] (main_arg4 : FVec F S64 .f32) (main_v13 : IVec S_ 1) (main_v16 : IVec S5064x64 1) : IVec S_ 1 :=
  let main_c_5 : IVec S_ 1 := constantI S_ 1 1#1
  let main_v17 : IVec S_ 1 := (fun x v => Host.reduce IntOp.andi x v reducesTo_S5064x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S40000x5000 .f32) (main_arg1 : FVec F S5000x64 .f32) (main_arg2 : FVec F S64 .f32) (main_arg3 : FVec F S5064x64 .f32) (main_arg4 : FVec F S64 .f32) (main_arg5 : IVec S2x80000 32) (main_arg6 : IVec S40000 32) (main_arg7 : IVec S128 32) : IVec S_ 1 :=
  let main_v0 : FVec F S40000x5000 .f32 := Host.absf main_arg0
  let main_cst : FVec F S_ .f32 := constant S_ .f32 0x7F800000#32
  let main_v1 : FVec F S40000x5000 .f32 := broadcastInDim S40000x5000 ![] bcast_S_S40000x5000 main_cst
  let main_v2 : IVec S40000x5000 1 := cmpf .olt main_v0 main_v1
  let main_c : IVec S_ 1 := constantI S_ 1 1#1
  let main_v3 : IVec S_ 1 := (fun x v => Host.reduce IntOp.andi x v reducesTo_S40000x5000_S_d0_1 h_S_) main_v2 main_c
  let main_v4 : FVec F S5000x64 .f32 := Host.absf main_arg1
  let main_cst_0 : FVec F S_ .f32 := constant S_ .f32 0x7F800000#32
  let main_v5 : FVec F S5000x64 .f32 := broadcastInDim S5000x64 ![] bcast_S_S5000x64 main_cst_0
  let main_v6 : IVec S5000x64 1 := cmpf .olt main_v4 main_v5
  let main_c_1 : IVec S_ 1 := constantI S_ 1 1#1
  let main_v7 : IVec S_ 1 := (fun x v => Host.reduce IntOp.andi x v reducesTo_S5000x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S5064x64 .f32 := Host.absf main_arg3
  let main_cst_4 : FVec F S_ .f32 := constant S_ .f32 0x7F800000#32
  let main_v15 : FVec F S5064x64 .f32 := broadcastInDim S5064x64 ![] bcast_S_S5064x64 main_cst_4
  let main_v16 : IVec S5064x64 1 := cmpf .olt main_v14 main_v15
  fn_part1 (F := F) main_arg4 main_v13 main_v16
-- ==== Kernel.lean ====
abbrev S40000x5000 : Shape := ⟨2, ![40000, 5000]⟩
abbrev S5000x64 : Shape := ⟨2, ![5000, 64]⟩
abbrev S64 : Shape := ⟨1, ![64]⟩
abbrev S5064x64 : Shape := ⟨2, ![5064, 64]⟩
abbrev S2x80000 : Shape := ⟨2, ![2, 80000]⟩
abbrev S40000 : Shape := ⟨1, ![40000]⟩
abbrev S128 : Shape := ⟨1, ![128]⟩
abbrev S1x80000 : Shape := ⟨2, ![1, 80000]⟩
abbrev S80000 : Shape := ⟨1, ![80000]⟩
abbrev S120000 : Shape := ⟨1, ![120000]⟩
abbrev S_ : Shape := ⟨0, ![]⟩
abbrev S120000x1 : Shape := ⟨2, ![120000, 1]⟩
abbrev S40000x64 : Shape := ⟨2, ![40000, 64]⟩
abbrev S400x5000 : Shape := ⟨2, ![400, 5000]⟩
abbrev S400x64 : Shape := ⟨2, ![400, 64]⟩
abbrev S120000x64 : Shape := ⟨2, ![120000, 64]⟩
abbrev S1x64 : Shape := ⟨2, ![1, 64]⟩
abbrev S128x1 : Shape := ⟨2, ![128, 1]⟩
abbrev S128x5000 : Shape := ⟨2, ![128, 5000]⟩
abbrev S128x64 : Shape := ⟨2, ![128, 64]⟩
abbrev S40000x1 : Shape := ⟨2, ![40000, 1]⟩
abbrev S64x64 : Shape := ⟨2, ![64, 64]⟩
abbrev S40000x128 : Shape := ⟨2, ![40000, 128]⟩
abbrev S128x128 : Shape := ⟨2, ![128, 128]⟩
abbrev S4000x128 : Shape := ⟨2, ![4000, 128]⟩
abbrev S4000x1 : Shape := ⟨2, ![4000, 1]⟩
abbrev S1x128 : Shape := ⟨2, ![1, 128]⟩

abbrev nBuf : Space → Nat
  | .hbm => 153
  | .vmem => 10
  | .smem => 0
  | _ => 0

abbrev hbmTy0_0 (i : Nat) : BufTy := match i % 128 with
  | 0 => ⟨S40000x5000, .f32⟩
  | 1 => ⟨S5000x64, .f32⟩
  | 2 => ⟨S64, .f32⟩
  | 3 => ⟨S5064x64, .f32⟩
  | 4 => ⟨S64, .f32⟩
  | 5 => ⟨S2x80000, .i32⟩
  | 6 => ⟨S40000, .i32⟩
  | 7 => ⟨S128, .i32⟩
  | 8 => ⟨S40000, .i32⟩
  | 9 => ⟨S1x80000, .i32⟩
  | 10 => ⟨S80000, .i32⟩
  | 11 => ⟨S120000, .i32⟩
  | 12 => ⟨S1x80000, .i32⟩
  | 13 => ⟨S80000, .i32⟩
  | 14 => ⟨S120000, .i32⟩
  | 15 => ⟨S_, .f32⟩
  | 16 => ⟨S120000, .f32⟩
  | 17 => ⟨S_, .f32⟩
  | 18 => ⟨S40000, .f32⟩
  | 19 => ⟨S120000x1, .i32⟩
  | 20 => ⟨S40000, .f32⟩
  | 21 => ⟨S_, .f32⟩
  | 22 => ⟨S40000, .f32⟩
  | 23 => ⟨S40000, .i1⟩
  | 24 => ⟨S40000, .f32⟩
  | 25 => ⟨S_, .f32⟩
  | 26 => ⟨S_, .f32⟩
  | 27 => ⟨S40000, .f32⟩
  | 28 => ⟨S40000, .f32⟩
  | 29 => ⟨S_, .i32⟩
  | 30 => ⟨S120000, .i32⟩
  | 31 => ⟨S120000, .i1⟩
  | 32 => ⟨S_, .i32⟩
  | 33 => ⟨S120000, .i32⟩
  | 34 => ⟨S120000, .i32⟩
  | 35 => ⟨S120000, .i32⟩
  | 36 => ⟨S120000x1, .i32⟩
  | 37 => ⟨S120000, .f32⟩
  | 38 => ⟨S_, .i32⟩
  | 39 => ⟨S120000, .i32⟩
  | 40 => ⟨S120000, .i1⟩
  | 41 => ⟨S_, .i32⟩
  | 42 => ⟨S120000, .i32⟩
  | 43 => ⟨S120000, .i32⟩
  | 44 => ⟨S120000, .i32⟩
  | 45 => ⟨S120000x1, .i32⟩
  | 46 => ⟨S120000, .f32⟩
  | 47 => ⟨S120000, .f32⟩
  | 48 => ⟨S5000x64, .bf16⟩
  | 49 => ⟨S40000x64, .f32⟩
  | 50 => ⟨S_, .i32⟩
  | 51 => ⟨S120000, .i32⟩
  | 52 => ⟨S120000, .i1⟩
  | 53 => ⟨S_, .i32⟩
  | 54 => ⟨S120000, .i32⟩
  | 55 => ⟨S120000, .i32⟩
  | 56 => ⟨S120000, .i32⟩
  | 57 => ⟨S120000x1, .i32⟩
  | 58 => ⟨S120000x64, .f32⟩
  | 59 => ⟨S120000x1, .f32⟩
  | 60 => ⟨S120000x64, .f32⟩
  | 61 => ⟨S120000x64, .f32⟩
  | 62 => ⟨S_, .f32⟩
  | 63 => ⟨S40000x64, .f32⟩
  | 64 => ⟨S120000x1, .i32⟩
  | 65 => ⟨S40000x64, .f32⟩
  | 66 => ⟨S1x64, .f32⟩
  | 67 => ⟨S40000x64, .f32⟩
  | 68 => ⟨S40000x64, .f32⟩
  | 69 => ⟨S_, .f32⟩
  | 70 => ⟨S40000x64, .f32⟩
  | 71 => ⟨S40000x64, .f32⟩
  | 72 => ⟨S_, .i32⟩
  | 73 => ⟨S128, .i32⟩
  | 74 => ⟨S128, .i1⟩
  | 75 => ⟨S_, .i32⟩
  | 76 => ⟨S128, .i32⟩
  | 77 => ⟨S128, .i32⟩
  | 78 => ⟨S128, .i32⟩
  | 79 => ⟨S128x1, .i32⟩
  | 80 => ⟨S128x5000, .f32⟩
  | 81 => ⟨S_, .f32⟩
  | 82 => ⟨S128x5000, .f32⟩
  | 83 => ⟨S128x5000, .f32⟩
  | 84 => ⟨S5000x64, .f32⟩
  | 85 => ⟨S128x64, .f32⟩
  | 86 => ⟨S_, .i32⟩
  | 87 => ⟨S40000, .i32⟩
  | 88 => ⟨S40000, .i1⟩
  | 89 => ⟨S_, .i32⟩
  | 90 => ⟨S40000, .i32⟩
  | 91 => ⟨S40000, .i32⟩
  | 92 => ⟨S40000, .i32⟩
  | 93 => ⟨S40000x1, .i32⟩
  | 94 => ⟨S40000x64, .f32⟩
  | 95 => ⟨S64x64, .f32⟩
  | 96 => ⟨S40000x64, .f32⟩
  | 97 => ⟨S40000x64, .f32⟩
  | 98 => ⟨S_, .i32⟩
  | 99 => ⟨S120000, .i32⟩
  | 100 => ⟨S120000, .i1⟩
  | 101 => ⟨S_, .i32⟩
  | 102 => ⟨S120000, .i32⟩
  | 103 => ⟨S120000, .i32⟩
  | 104 => ⟨S120000, .i32⟩
  | 105 => ⟨S120000x1, .i32⟩
  | 106 => ⟨S120000x64, .f32⟩
  | 107 => ⟨S120000x1, .f32⟩
  | 108 => ⟨S120000x64, .f32⟩
  | 109 => ⟨S120000x64, .f32⟩
  | 110 => ⟨S_, .f32⟩
  | 111 => ⟨S40000x64, .f32⟩
  | 112 => ⟨S120000x1, .i32⟩
  | 113 => ⟨S40000x64, .f32⟩
  | 114 => ⟨S1x64, .f32⟩
  | 115 => ⟨S40000x64, .f32⟩
  | 116 => ⟨S40000x64, .f32⟩
  | 117 => ⟨S_, .f32⟩
  | 118 => ⟨S40000x64, .f32⟩
  | 119 => ⟨S40000x64, .f32⟩
  | 120 => ⟨S_, .i32⟩
  | 121 => ⟨S128, .i32⟩
  | 122 => ⟨S128, .i1⟩
  | 123 => ⟨S_, .i32⟩
  | 124 => ⟨S128, .i32⟩
  | 125 => ⟨S128, .i32⟩
  | 126 => ⟨S128, .i32⟩
  | 127 => ⟨S128x1, .i32⟩
  | _ => ⟨S40000x5000, .f32⟩

abbrev hbmTy0_1 (i : Nat) : BufTy := match i % 128 with
  | 0 => ⟨S128x64, .f32⟩
  | 1 => ⟨S_, .i32⟩
  | 2 => ⟨S40000, .i32⟩
  | 3 => ⟨S40000, .i1⟩
  | 4 => ⟨S_, .i32⟩
  | 5 => ⟨S40000, .i32⟩
  | 6 => ⟨S40000, .i32⟩
  | 7 => ⟨S40000, .i32⟩
  | 8 => ⟨S40000x1, .i32⟩
  | 9 => ⟨S40000x64, .f32⟩
  | 10 => ⟨S40000x128, .f32⟩
  | 11 => ⟨S40000x1, .i32⟩
  | 12 => ⟨S128x128, .f32⟩
  | 13 => ⟨S_, .f32⟩
  | 14 => ⟨S40000, .f32⟩
  | 15 => ⟨S_, .f32⟩
  | 16 => ⟨S128, .f32⟩
  | 17 => ⟨S40000x1, .i32⟩
  | 18 => ⟨S128, .f32⟩
  | 19 => ⟨S_, .f32⟩
  | 20 => ⟨S128, .f32⟩
  | 21 => ⟨S128, .f32⟩
  | 22 => ⟨S128x1, .f32⟩
  | 23 => ⟨S128x128, .f32⟩
  | 24 => ⟨S128x128, .f32⟩
  | _ => ⟨S40000x5000, .f32⟩

abbrev hbmTy (i : Nat) : BufTy := match i / 128 with
  | 0 => hbmTy0_0 i
  | 1 => hbmTy0_1 i
  | _ => ⟨S40000x5000, .f32⟩

abbrev bufTy : (tb : Table) → Fin (tcTables nBuf tb) → BufTy
  | .hbm, ⟨i, _⟩ => hbmTy i
  | .local _ .vmem, ⟨0, _⟩ => ⟨S400x5000, .f32⟩
  | .local _ .vmem, ⟨1, _⟩ => ⟨S400x5000, .f32⟩
  | .local _ .vmem, ⟨2, _⟩ => ⟨S5000x64, .bf16⟩
  | .local _ .vmem, ⟨3, _⟩ => ⟨S400x64, .f32⟩
  | .local _ .vmem, ⟨4, _⟩ => ⟨S400x64, .f32⟩
  | .local _ .vmem, ⟨5, _⟩ => ⟨S4000x128, .f32⟩
  | .local _ .vmem, ⟨6, _⟩ => ⟨S4000x128, .f32⟩
  | .local _ .vmem, ⟨7, _⟩ => ⟨S4000x1, .i32⟩
  | .local _ .vmem, ⟨8, _⟩ => ⟨S4000x1, .i32⟩
  | .local _ .vmem, ⟨9, _⟩ => ⟨S128x128, .f32⟩
  | _, _ => ⟨S40000x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call2_cst : Ref sig .tc := ⟨.hbm, 81, rfl⟩
abbrev main_call2_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_18 : Ref sig .tc := ⟨.hbm, 129, rfl⟩
abbrev main_v93 : Ref sig .tc := ⟨.hbm, 130, rfl⟩
abbrev main_v94 : Ref sig .tc := ⟨.hbm, 131, rfl⟩
abbrev main_c_19 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_20 : Ref sig .tc := ⟨.hbm, 141, rfl⟩
abbrev main_v103 : Ref sig .tc := ⟨.hbm, 142, rfl⟩
abbrev main_cst_21 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_22 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5000x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S2x80000_S1x80000_0_0 : S2x80000.Slices ![0, 0] S1x80000
  shapeCasts_S1x80000_S80000 : S1x80000.ShapeCasts S80000
  concatenates_S80000_S40000_S120000_d0 : Shape.Concatenates [S80000, S40000] S120000 0
  slices_S2x80000_S1x80000_1_0 : S2x80000.Slices ![1, 0] S1x80000
  bcast_S_S120000 : S_.BroadcastsInDim S120000 (![] : Fin 0 → Fin S120000.rank)
  bcast_S_S40000 : S_.BroadcastsInDim S40000 (![] : Fin 0 → Fin S40000.rank)
  bcast_S120000_S120000x1_0 : S120000.BroadcastsInDim S120000x1 (![0] : Fin 1 → Fin S120000x1.rank)
  bitsLt_bf16_f32 : FTy.bits .bf16 < FTy.bits .f32
  inb_S400x5000_S400x5000_0_0 : ∀ a, (![0, 0] : Fin 2 → Nat) a + S400x5000.size a ≤ S400x5000.size a
  h_S400x5000 : 0 < S400x5000.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S400x64_S400x64_0_0 : ∀ a, (![0, 0] : Fin 2 → Nat) a + S400x64.size a ≤ S400x64.size a
  h_S400x64 : 0 < S400x64.numel
  bcast_S120000x1_S120000x64_0_1 : S120000x1.BroadcastsInDim S120000x64 (![0, 1] : Fin 2 → Fin S120000x64.rank)
  bcast_S_S40000x64 : S_.BroadcastsInDim S40000x64 (![] : Fin 0 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S_S128 : S_.BroadcastsInDim S128 (![] : Fin 0 → Fin S128.rank)
  bcast_S128_S128x1_0 : S128.BroadcastsInDim S128x1 (![0] : Fin 1 → Fin S128x1.rank)
  bcast_S_S128x5000 : S_.BroadcastsInDim S128x5000 (![] : Fin 0 → Fin S128x5000.rank)
  slices_S5064x64_S5000x64_64_0 : S5064x64.Slices ![64, 0] S5000x64
  bcast_S40000_S40000x1_0 : S40000.BroadcastsInDim S40000x1 (![0] : Fin 1 → Fin S40000x1.rank)
  slices_S5064x64_S64x64_0_0 : S5064x64.Slices ![0, 0] S64x64
  concatenates_S40000x64_S40000x64_S40000x128_d1 : Shape.Concatenates [S40000x64, S40000x64] S40000x128 1
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S1x128_d1_w32 : S1x128.Iotas .tc 32 [1]
  broadcasts_S4000x1_S4000x128 : S4000x1.Broadcasts S4000x128
  broadcasts_S1x128_S4000x128 : S1x128.Broadcasts S4000x128
  natLt_1_32 : 1 < 32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S128x128_S128x128 : S128x128.ShapeCasts S128x128
  bcast_S128x1_S128x128_0_1 : S128x1.BroadcastsInDim S128x128 (![0, 1] : Fin 2 → Fin S128x128.rank)
  scatter_S40000_S120000x1_S120000_n_0_0_1_wf : ScatterDims.WF S40000 S120000x1 S120000 [] [0] [0] 1
  gather_S40000_S120000x1_S120000_n_0_n_n_0_1_1_wf : GatherDims.WF S40000 S120000x1 S120000 [] [0] [] [0] [] 1 ![1]
  dot_S400x5000_S5000x64_S400x64_1_0_0_1_n_n_wf : DotDims.WF S400x5000 S5000x64 S400x64 [1] [0] [0] [1] [] []
  gather_S40000x64_S120000x1_S120000x64_1_0_n_n_0_1_164_wf : GatherDims.WF S40000x64 S120000x1 S120000x64 [1] [0] [] [0] [] 1 ![1, 64]
  scatter_S40000x64_S120000x1_S120000x64_1_0_0_1_wf : ScatterDims.WF S40000x64 S120000x1 S120000x64 [1] [0] [0] 1
  gather_S40000x5000_S128x1_S128x5000_1_0_n_n_0_1_15000_wf : GatherDims.WF S40000x5000 S128x1 S128x5000 [1] [0] [] [0] [] 1 ![1, 5000]
  dot_S128x5000_S5000x64_S128x64_1_0_0_1_n_n_wf : DotDims.WF S128x5000 S5000x64 S128x64 [1] [0] [0] [1] [] []
  gather_S128x64_S40000x1_S40000x64_1_0_n_n_0_1_164_wf : GatherDims.WF S128x64 S40000x1 S40000x64 [1] [0] [] [0] [] 1 ![1, 64]
  dot_S40000x64_S64x64_S40000x64_1_0_0_1_n_n_wf : DotDims.WF S40000x64 S64x64 S40000x64 [1] [0] [0] [1] [] []
  gather_S40000x64_S128x1_S128x64_1_0_n_n_0_1_164_wf : GatherDims.WF S40000x64 S128x1 S128x64 [1] [0] [] [0] [] 1 ![1, 64]
  dot_S4000x128_S4000x128_S128x128_0_0_1_1_n_n_wf : DotDims.WF S4000x128 S4000x128 S128x128 [0] [0] [1] [1] [] []
  scatter_S128_S40000x1_S40000_n_0_0_1_wf : ScatterDims.WF S128 S40000x1 S40000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x5000.size a ≤ S40000x5000.size a
  hwx0_0 : ∀ i : grid0.Coords, EltTy.bits .f32 = 32 ∨ (Rect.block (s := S40000x5000) S400x5000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S5000x64.size a
  hwx0_1 : ∀ i : grid0.Coords, EltTy.bits .bf16 = 32 ∨ (Rect.block (s := S5000x64) S5000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x64.size a ≤ S40000x64.size a
  hwx0_2 : ∀ i : grid0.Coords, EltTy.bits .f32 = 32 ∨ (Rect.block (s := S40000x64) S400x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S40000x1.size a
  hwx1_1 : ∀ i : grid1.Coords, EltTy.bits .i32 = 32 ∨ (Rect.block (s := S40000x1) S4000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)

variable [Facts₀]

def scatter_S40000_S120000x1_S120000_n_0_0_1 : ScatterDims S40000 S120000x1 S120000 where
  updateWindowDims := []
  insertedWindowDims := [0]
  scatterDimsToOperandDims := [0]
  indexVectorDim := 1
  wf := scatter_S40000_S120000x1_S120000_n_0_0_1_wf
def gather_S40000_S120000x1_S120000_n_0_n_n_0_1_1 : GatherDims S40000 S120000x1 S120000 where
  offsetDims := []
  collapsedSliceDims := [0]
  operandBatchingDims := []
  startIndicesBatchingDims := []
  startIndexMap := [0]
  indexVectorDim := 1
  sliceSizes := ![1]
  wf := gather_S40000_S120000x1_S120000_n_0_n_n_0_1_1_wf
def dot_S400x5000_S5000x64_S400x64_1_0_0_1_n_n : DotDims S400x5000 S5000x64 S400x64 where
  lhsContracting := [1]
  rhsContracting := [0]
  lhsNonContracting := [0]
  rhsNonContracting := [1]
  lhsBatch := []
  rhsBatch := []
  wf := dot_S400x5000_S5000x64_S400x64_1_0_0_1_n_n_wf
def gather_S40000x64_S120000x1_S120000x64_1_0_n_n_0_1_164 : GatherDims S40000x64 S120000x1 S120000x64 where
  offsetDims := [1]
  collapsedSliceDims := [0]
  operandBatchingDims := []
  startIndicesBatchingDims := []
  startIndexMap := [0]
  indexVectorDim := 1
  sliceSizes := ![1, 64]
  wf := gather_S40000x64_S120000x1_S120000x64_1_0_n_n_0_1_164_wf
def scatter_S40000x64_S120000x1_S120000x64_1_0_0_1 : ScatterDims S40000x64 S120000x1 S120000x64 where
  updateWindowDims := [1]
  insertedWindowDims := [0]
  scatterDimsToOperandDims := [0]
  indexVectorDim := 1
  wf := scatter_S40000x64_S120000x1_S120000x64_1_0_0_1_wf
def gather_S40000x5000_S128x1_S128x5000_1_0_n_n_0_1_15000 : GatherDims S40000x5000 S128x1 S128x5000 where
  offsetDims := [1]
  collapsedSliceDims := [0]
  operandBatchingDims := []
  startIndicesBatchingDims := []
  startIndexMap := [0]
  indexVectorDim := 1
  sliceSizes := ![1, 5000]
  wf := gather_S40000x5000_S128x1_S128x5000_1_0_n_n_0_1_15000_wf
def dot_S128x5000_S5000x64_S128x64_1_0_0_1_n_n : DotDims S128x5000 S5000x64 S128x64 where
  lhsContracting := [1]
  rhsContracting := [0]
  lhsNonContracting := [0]
  rhsNonContracting := [1]
  lhsBatch := []
  rhsBatch := []
  wf := dot_S128x5000_S5000x64_S128x64_1_0_0_1_n_n_wf
def gather_S128x64_S40000x1_S40000x64_1_0_n_n_0_1_164 : GatherDims S128x64 S40000x1 S40000x64 where
  offsetDims := [1]
  collapsedSliceDims := [0]
  operandBatchingDims := []
  startIndicesBatchingDims := []
  startIndexMap := [0]
  indexVectorDim := 1
  sliceSizes := ![1, 64]
  wf := gather_S128x64_S40000x1_S40000x64_1_0_n_n_0_1_164_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf
def gather_S40000x64_S128x1_S128x64_1_0_n_n_0_1_164 : GatherDims S40000x64 S128x1 S128x64 where
  offsetDims := [1]
  collapsedSliceDims := [0]
  operandBatchingDims := []
  startIndicesBatchingDims := []
  startIndexMap := [0]
  indexVectorDim := 1
  sliceSizes := ![1, 64]
  wf := gather_S40000x64_S128x1_S128x64_1_0_n_n_0_1_164_wf
def dot_S4000x128_S4000x128_S128x128_0_0_1_1_n_n : DotDims S4000x128 S4000x128 S128x128 where
  lhsContracting := [0]
  rhsContracting := [0]
  lhsNonContracting := [1]
  rhsNonContracting := [1]
  lhsBatch := []
  rhsBatch := []
  wf := dot_S4000x128_S4000x128_S128x128_0_0_1_1_n_n_wf
def scatter_S128_S40000x1_S40000_n_0_0_1 : ScatterDims S128 S40000x1 S40000 where
  updateWindowDims := []
  insertedWindowDims := [0]
  scatterDimsToOperandDims := [0]
  indexVectorDim := 1
  wf := scatter_S128_S40000x1_S40000_n_0_0_1_wf

abbrev win0_0 : Pipeline.Window sig grid0 :=
  Pipeline.Window.ofSpec (Memref.whole main_arg0) S400x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S5000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S400x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v100) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v101) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v102) S128x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S40000x5000 : Shape := ⟨2, ![40000, 5000]⟩
abbrev S5000x64 : Shape := ⟨2, ![5000, 64]⟩
abbrev S64 : Shape := ⟨1, ![64]⟩
abbrev S5064x64 : Shape := ⟨2, ![5064, 64]⟩
abbrev S2x80000 : Shape := ⟨2, ![2, 80000]⟩
abbrev S40000 : Shape := ⟨1, ![40000]⟩
abbrev S128 : Shape := ⟨1, ![128]⟩
abbrev S1x80000 : Shape := ⟨2, ![1, 80000]⟩
abbrev S80000 : Shape := ⟨1, ![80000]⟩
abbrev S120000 : Shape := ⟨1, ![120000]⟩
abbrev S_ : Shape := ⟨0, ![]⟩
abbrev S120000x1 : Shape := ⟨2, ![120000, 1]⟩
abbrev S40000x64 : Shape := ⟨2, ![40000, 64]⟩
abbrev S120000x64 : Shape := ⟨2, ![120000, 64]⟩
abbrev S1x64 : Shape := ⟨2, ![1, 64]⟩
abbrev S40000x1 : Shape := ⟨2, ![40000, 1]⟩
abbrev S40000x5064 : Shape := ⟨2, ![40000, 5064]⟩
abbrev S40000x128 : Shape := ⟨2, ![40000, 128]⟩
abbrev S128x128 : Shape := ⟨2, ![128, 128]⟩
abbrev S128x1 : Shape := ⟨2, ![128, 1]⟩

abbrev nBuf : Space → Nat
  | .hbm => 188
  | .vmem => 0
  | .smem => 0
  | _ => 0

abbrev hbmTy0_0 (i : Nat) : BufTy := match i % 128 with
  | 0 => ⟨S40000x5000, .f32⟩
  | 1 => ⟨S5000x64, .f32⟩
  | 2 => ⟨S64, .f32⟩
  | 3 => ⟨S5064x64, .f32⟩
  | 4 => ⟨S64, .f32⟩
  | 5 => ⟨S2x80000, .i32⟩
  | 6 => ⟨S40000, .i32⟩
  | 7 => ⟨S128, .i32⟩
  | 8 => ⟨S40000, .i32⟩
  | 9 => ⟨S1x80000, .i32⟩
  | 10 => ⟨S80000, .i32⟩
  | 11 => ⟨S120000, .i32⟩
  | 12 => ⟨S1x80000, .i32⟩
  | 13 => ⟨S80000, .i32⟩
  | 14 => ⟨S120000, .i32⟩
  | 15 => ⟨S_, .f32⟩
  | 16 => ⟨S120000, .f32⟩
  | 17 => ⟨S_, .f32⟩
  | 18 => ⟨S40000, .f32⟩
  | 19 => ⟨S120000x1, .i32⟩
  | 20 => ⟨S40000, .f32⟩
  | 21 => ⟨S_, .f32⟩
  | 22 => ⟨S40000, .f32⟩
  | 23 => ⟨S40000, .i1⟩
  | 24 => ⟨S40000, .f32⟩
  | 25 => ⟨S_, .f32⟩
  | 26 => ⟨S_, .f32⟩
  | 27 => ⟨S40000, .f32⟩
  | 28 => ⟨S40000, .f32⟩
  | 29 => ⟨S_, .i32⟩
  | 30 => ⟨S120000, .i32⟩
  | 31 => ⟨S120000, .i1⟩
  | 32 => ⟨S_, .i32⟩
  | 33 => ⟨S120000, .i32⟩
  | 34 => ⟨S120000, .i32⟩
  | 35 => ⟨S120000, .i32⟩
  | 36 => ⟨S120000x1, .i32⟩
  | 37 => ⟨S120000, .f32⟩
  | 38 => ⟨S_, .i32⟩
  | 39 => ⟨S120000, .i32⟩
  | 40 => ⟨S120000, .i1⟩
  | 41 => ⟨S_, .i32⟩
  | 42 => ⟨S120000, .i32⟩
  | 43 => ⟨S120000, .i32⟩
  | 44 => ⟨S120000, .i32⟩
  | 45 => ⟨S120000x1, .i32⟩
  | 46 => ⟨S120000, .f32⟩
  | 47 => ⟨S120000, .f32⟩
  | 48 => ⟨S40000x64, .f32⟩
  | 49 => ⟨S_, .i32⟩
  | 50 => ⟨S120000, .i32⟩
  | 51 => ⟨S120000, .i1⟩
  | 52 => ⟨S_, .i32⟩
  | 53 => ⟨S120000, .i32⟩
  | 54 => ⟨S120000, .i32⟩
  | 55 => ⟨S120000, .i32⟩
  | 56 => ⟨S120000x1, .i32⟩
  | 57 => ⟨S120000x64, .f32⟩
  | 58 => ⟨S120000x1, .f32⟩
  | 59 => ⟨S120000x64, .f32⟩
  | 60 => ⟨S120000x64, .f32⟩
  | 61 => ⟨S_, .f32⟩
  | 62 => ⟨S40000x64, .f32⟩
  | 63 => ⟨S120000x1, .i32⟩
  | 64 => ⟨S40000x64, .f32⟩
  | 65 => ⟨S1x64, .f32⟩
  | 66 => ⟨S40000x64, .f32⟩
  | 67 => ⟨S40000x64, .f32⟩
  | 68 => ⟨S_, .i32⟩
  | 69 => ⟨S40000, .i32⟩
  | 70 => ⟨S40000, .i1⟩
  | 71 => ⟨S_, .i32⟩
  | 72 => ⟨S40000, .i32⟩
  | 73 => ⟨S40000, .i32⟩
  | 74 => ⟨S40000, .i32⟩
  | 75 => ⟨S40000x1, .i32⟩
  | 76 => ⟨S40000, .i32⟩
  | 77 => ⟨S_, .i32⟩
  | 78 => ⟨S40000, .i32⟩
  | 79 => ⟨S40000, .i1⟩
  | 80 => ⟨S_, .i32⟩
  | 81 => ⟨S40000, .i32⟩
  | 82 => ⟨S40000, .i32⟩
  | 83 => ⟨S40000, .i32⟩
  | 84 => ⟨S40000x1, .i32⟩
  | 85 => ⟨S40000x5000, .f32⟩
  | 86 => ⟨S40000x5064, .f32⟩
  | 87 => ⟨S_, .f32⟩
  | 88 => ⟨S40000x5064, .f32⟩
  | 89 => ⟨S40000x5064, .f32⟩
  | 90 => ⟨S40000, .i32⟩
  | 91 => ⟨S1x80000, .i32⟩
  | 92 => ⟨S80000, .i32⟩
  | 93 => ⟨S120000, .i32⟩
  | 94 => ⟨S1x80000, .i32⟩
  | 95 => ⟨S80000, .i32⟩
  | 96 => ⟨S120000, .i32⟩
  | 97 => ⟨S_, .f32⟩
  | 98 => ⟨S120000, .f32⟩
  | 99 => ⟨S_, .f32⟩
  | 100 => ⟨S40000, .f32⟩
  | 101 => ⟨S120000x1, .i32⟩
  | 102 => ⟨S40000, .f32⟩
  | 103 => ⟨S_, .f32⟩
  | 104 => ⟨S40000, .f32⟩
  | 105 => ⟨S40000, .i1⟩
  | 106 => ⟨S40000, .f32⟩
  | 107 => ⟨S_, .f32⟩
  | 108 => ⟨S_, .f32⟩
  | 109 => ⟨S40000, .f32⟩
  | 110 => ⟨S40000, .f32⟩
  | 111 => ⟨S_, .i32⟩
  | 112 => ⟨S120000, .i32⟩
  | 113 => ⟨S120000, .i1⟩
  | 114 => ⟨S_, .i32⟩
  | 115 => ⟨S120000, .i32⟩
  | 116 => ⟨S120000, .i32⟩
  | 117 => ⟨S120000, .i32⟩
  | 118 => ⟨S120000x1, .i32⟩
  | 119 => ⟨S120000, .f32⟩
  | 120 => ⟨S_, .i32⟩
  | 121 => ⟨S120000, .i32⟩
  | 122 => ⟨S120000, .i1⟩
  | 123 => ⟨S_, .i32⟩
  | 124 => ⟨S120000, .i32⟩
  | 125 => ⟨S120000, .i32⟩
  | 126 => ⟨S120000, .i32⟩
  | 127 => ⟨S120000x1, .i32⟩
  | _ => ⟨S40000x5000, .f32⟩

abbrev hbmTy0_1 (i : Nat) : BufTy := match i % 128 with
  | 0 => ⟨S120000, .f32⟩
  | 1 => ⟨S120000, .f32⟩
  | 2 => ⟨S40000x64, .f32⟩
  | 3 => ⟨S_, .i32⟩
  | 4 => ⟨S120000, .i32⟩
  | 5 => ⟨S120000, .i1⟩
  | 6 => ⟨S_, .i32⟩
  | 7 => ⟨S120000, .i32⟩
  | 8 => ⟨S120000, .i32⟩
  | 9 => ⟨S120000, .i32⟩
  | 10 => ⟨S120000x1, .i32⟩
  | 11 => ⟨S120000x64, .f32⟩
  | 12 => ⟨S120000x1, .f32⟩
  | 13 => ⟨S120000x64, .f32⟩
  | 14 => ⟨S120000x64, .f32⟩
  | 15 => ⟨S_, .f32⟩
  | 16 => ⟨S40000x64, .f32⟩
  | 17 => ⟨S120000x1, .i32⟩
  | 18 => ⟨S40000x64, .f32⟩
  | 19 => ⟨S1x64, .f32⟩
  | 20 => ⟨S40000x64, .f32⟩
  | 21 => ⟨S40000x64, .f32⟩
  | 22 => ⟨S_, .f32⟩
  | 23 => ⟨S40000x64, .f32⟩
  | 24 => ⟨S40000x64, .f32⟩
  | 25 => ⟨S_, .i32⟩
  | 26 => ⟨S40000, .i32⟩
  | 27 => ⟨S40000, .i1⟩
  | 28 => ⟨S_, .i32⟩
  | 29 => ⟨S40000, .i32⟩
  | 30 => ⟨S40000, .i32⟩
  | 31 => ⟨S40000, .i32⟩
  | 32 => ⟨S40000x1, .i32⟩
  | 33 => ⟨S40000, .i32⟩
  | 34 => ⟨S_, .i32⟩
  | 35 => ⟨S40000, .i32⟩
  | 36 => ⟨S40000, .i1⟩
  | 37 => ⟨S_, .i32⟩
  | 38 => ⟨S40000, .i32⟩
  | 39 => ⟨S40000, .i32⟩
  | 40 => ⟨S40000, .i32⟩
  | 41 => ⟨S40000x1, .i32⟩
  | 42 => ⟨S40000x64, .f32⟩
  | 43 => ⟨S40000x128, .f32⟩
  | 44 => ⟨S_, .f32⟩
  | 45 => ⟨S128x128, .f32⟩
  | 46 => ⟨S40000x1, .i32⟩
  | 47 => ⟨S128x128, .f32⟩
  | 48 => ⟨S_, .f32⟩
  | 49 => ⟨S40000, .f32⟩
  | 50 => ⟨S_, .f32⟩
  | 51 => ⟨S128, .f32⟩
  | 52 => ⟨S40000x1, .i32⟩
  | 53 => ⟨S128, .f32⟩
  | 54 => ⟨S_, .f32⟩
  | 55 => ⟨S128, .f32⟩
  | 56 => ⟨S128, .f32⟩
  | 57 => ⟨S128x1, .f32⟩
  | 58 => ⟨S128x128, .f32⟩
  | 59 => ⟨S128x128, .f32⟩
  | _ => ⟨S40000x5000, .f32⟩

abbrev hbmTy (i : Nat) : BufTy := match i / 128 with
  | 0 => hbmTy0_0 i
  | 1 => hbmTy0_1 i
  | _ => ⟨S40000x5000, .f32⟩

abbrev bufTy : (tb : Table) → Fin (tcTables nBuf tb) → BufTy
  | .hbm, ⟨i, _⟩ => hbmTy i
  | _, _ => ⟨S40000x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_16 : Ref sig .tc := ⟨.hbm, 107, rfl⟩
abbrev main_call2_v0 : Ref sig .tc := ⟨.hbm, 108, rfl⟩
abbrev main_call2_v1 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_c_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_19 : Ref sig .tc := ⟨.hbm, 120, rfl⟩
abbrev main_v85 : Ref sig .tc := ⟨.hbm, 121, rfl⟩
abbrev main_v86 : Ref sig .tc := ⟨.hbm, 122, rfl⟩
abbrev main_c_20 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_21 : Ref sig .tc := ⟨.hbm, 131, rfl⟩
abbrev main_v94 : Ref sig .tc := ⟨.hbm, 132, rfl⟩
abbrev main_v95 : Ref sig .tc := ⟨.hbm, 133, rfl⟩
abbrev main_c_22 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_23 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call3_cst : Ref sig .tc := ⟨.hbm, 150, rfl⟩
abbrev main_call3_v0 : Ref sig .tc := ⟨.hbm, 151, rfl⟩
abbrev main_v110 : Ref sig .tc := ⟨.hbm, 152, rfl⟩
abbrev main_c_24 : Ref sig .tc := ⟨.hbm, 153, rfl⟩
abbrev main_v111 : Ref sig .tc := ⟨.hbm, 154, rfl⟩
abbrev main_v112 : Ref sig .tc := ⟨.hbm, 155, rfl⟩
abbrev main_c_25 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_26 : Ref sig .tc := ⟨.hbm, 162, rfl⟩
abbrev main_v118 : Ref sig .tc := ⟨.hbm, 163, rfl⟩
abbrev main_v119 : Ref sig .tc := ⟨.hbm, 164, rfl⟩
abbrev main_c_27 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_28 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_29 : Ref sig .tc := ⟨.hbm, 176, rfl⟩
abbrev main_v129 : Ref sig .tc := ⟨.hbm, 177, rfl⟩
abbrev main_cst_30 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_31 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩

abbrev nD : Nat := 1
abbrev τ : Topo := Topo.v7x

variable {F : FTy → Type} [FloatOps F]

class Facts₀ : Prop where
  slices_S2x80000_S1x80000_0_0 : S2x80000.Slices ![0, 0] S1x80000
  shapeCasts_S1x80000_S80000 : S1x80000.ShapeCasts S80000
  concatenates_S80000_S40000_S120000_d0 : Shape.Concatenates [S80000, S40000] S120000 0
  slices_S2x80000_S1x80000_1_0 : S2x80000.Slices ![1, 0] S1x80000
  bcast_S_S120000 : S_.BroadcastsInDim S120000 (![] : Fin 0 → Fin S120000.rank)
  bcast_S_S40000 : S_.BroadcastsInDim S40000 (![] : Fin 0 → Fin S40000.rank)
  bcast_S120000_S120000x1_0 : S120000.BroadcastsInDim S120000x1 (![0] : Fin 1 → Fin S120000x1.rank)
  bcast_S120000x1_S120000x64_0_1 : S120000x1.BroadcastsInDim S120000x64 (![0, 1] : Fin 2 → Fin S120000x64.rank)
  bcast_S_S40000x64 : S_.BroadcastsInDim S40000x64 (![] : Fin 0 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S40000_S40000x1_0 : S40000.BroadcastsInDim S40000x1 (![0] : Fin 1 → Fin S40000x1.rank)
  concatenates_S40000x64_S40000x5000_S40000x5064_d1 : Shape.Concatenates [S40000x64, S40000x5000] S40000x5064 1
  bcast_S_S40000x5064 : S_.BroadcastsInDim S40000x5064 (![] : Fin 0 → Fin S40000x5064.rank)
  concatenates_S40000x64_S40000x64_S40000x128_d1 : Shape.Concatenates [S40000x64, S40000x64] S40000x128 1
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  scatter_S40000_S120000x1_S120000_n_0_0_1_wf : ScatterDims.WF S40000 S120000x1 S120000 [] [0] [0] 1
  gather_S40000_S120000x1_S120000_n_0_n_n_0_1_1_wf : GatherDims.WF S40000 S120000x1 S120000 [] [0] [] [0] [] 1 ![1]
  dot_S40000x5000_S5000x64_S40000x64_1_0_0_1_n_n_wf : DotDims.WF S40000x5000 S5000x64 S40000x64 [1] [0] [0] [1] [] []
  gather_S40000x64_S120000x1_S120000x64_1_0_n_n_0_1_164_wf : GatherDims.WF S40000x64 S120000x1 S120000x64 [1] [0] [] [0] [] 1 ![1, 64]
  scatter_S40000x64_S120000x1_S120000x64_1_0_0_1_wf : ScatterDims.WF S40000x64 S120000x1 S120000x64 [1] [0] [0] 1
  gather_S128_S40000x1_S40000_n_0_n_n_0_1_1_wf : GatherDims.WF S128 S40000x1 S40000 [] [0] [] [0] [] 1 ![1]
  gather_S40000x5000_S40000x1_S40000x5000_1_0_n_n_0_1_15000_wf : GatherDims.WF S40000x5000 S40000x1 S40000x5000 [1] [0] [] [0] [] 1 ![1, 5000]
  dot_S40000x5064_S5064x64_S40000x64_1_0_0_1_n_n_wf : DotDims.WF S40000x5064 S5064x64 S40000x64 [1] [0] [0] [1] [] []
  gather_S40000x64_S40000x1_S40000x64_1_0_n_n_0_1_164_wf : GatherDims.WF S40000x64 S40000x1 S40000x64 [1] [0] [] [0] [] 1 ![1, 64]
  scatter_S128x128_S40000x1_S40000x128_1_0_0_1_wf : ScatterDims.WF S128x128 S40000x1 S40000x128 [1] [0] [0] 1
  scatter_S128_S40000x1_S40000_n_0_0_1_wf : ScatterDims.WF S128 S40000x1 S40000 [] [0] [0] 1

variable [Facts₀]

def scatter_S40000_S120000x1_S120000_n_0_0_1 : ScatterDims S40000 S120000x1 S120000 where
  updateWindowDims := []
  insertedWindowDims := [0]
  scatterDimsToOperandDims := [0]
  indexVectorDim := 1
  wf := scatter_S40000_S120000x1_S120000_n_0_0_1_wf
def gather_S40000_S120000x1_S120000_n_0_n_n_0_1_1 : GatherDims S40000 S120000x1 S120000 where
  offsetDims := []
  collapsedSliceDims := [0]
  operandBatchingDims := []
  startIndicesBatchingDims := []
  startIndexMap := [0]
  indexVectorDim := 1
  sliceSizes := ![1]
  wf := gather_S40000_S120000x1_S120000_n_0_n_n_0_1_1_wf
def dot_S40000x5000_S5000x64_S40000x64_1_0_0_1_n_n : DotDims S40000x5000 S5000x64 S40000x64 where
  lhsContracting := [1]
  rhsContracting := [0]
  lhsNonContracting := [0]
  rhsNonContracting := [1]
  lhsBatch := []
  rhsBatch := []
  wf := dot_S40000x5000_S5000x64_S40000x64_1_0_0_1_n_n_wf
def gather_S40000x64_S120000x1_S120000x64_1_0_n_n_0_1_164 : GatherDims S40000x64 S120000x1 S120000x64 where
  offsetDims := [1]
  collapsedSliceDims := [0]
  operandBatchingDims := []
  startIndicesBatchingDims := []
  startIndexMap := [0]
  indexVectorDim := 1
  sliceSizes := ![1, 64]
  wf := gather_S40000x64_S120000x1_S120000x64_1_0_n_n_0_1_164_wf
def scatter_S40000x64_S120000x1_S120000x64_1_0_0_1 : ScatterDims S40000x64 S120000x1 S120000x64 where
  updateWindowDims := [1]
  insertedWindowDims := [0]
  scatterDimsToOperandDims := [0]
  indexVectorDim := 1
  wf := scatter_S40000x64_S120000x1_S120000x64_1_0_0_1_wf
def gather_S128_S40000x1_S40000_n_0_n_n_0_1_1 : GatherDims S128 S40000x1 S40000 where
  offsetDims := []
  collapsedSliceDims := [0]
  operandBatchingDims := []
  startIndicesBatchingDims := []
  startIndexMap := [0]
  indexVectorDim := 1
  sliceSizes := ![1]
  wf := gather_S128_S40000x1_S40000_n_0_n_n_0_1_1_wf
def gather_S40000x5000_S40000x1_S40000x5000_1_0_n_n_0_1_15000 : GatherDims S40000x5000 S40000x1 S40000x5000 where
  offsetDims := [1]
  collapsedSliceDims := [0]
  operandBatchingDims := []
  startIndicesBatchingDims := []
  startIndexMap := [0]
  indexVectorDim := 1
  sliceSizes := ![1, 5000]
  wf := gather_S40000x5000_S40000x1_S40000x5000_1_0_n_n_0_1_15000_wf
def dot_S40000x5064_S5064x64_S40000x64_1_0_0_1_n_n : DotDims S40000x5064 S5064x64 S40000x64 where
  lhsContracting := [1]
  rhsContracting := [0]
  lhsNonContracting := [0]
  rhsNonContracting := [1]
  lhsBatch := []
  rhsBatch := []
  wf := dot_S40000x5064_S5064x64_S40000x64_1_0_0_1_n_n_wf
def gather_S40000x64_S40000x1_S40000x64_1_0_n_n_0_1_164 : GatherDims S40000x64 S40000x1 S40000x64 where
  offsetDims := [1]
  collapsedSliceDims := [0]
  operandBatchingDims := []
  startIndicesBatchingDims := []
  startIndexMap := [0]
  indexVectorDim := 1
  sliceSizes := ![1, 64]
  wf := gather_S40000x64_S40000x1_S40000x64_1_0_n_n_0_1_164_wf
def scatter_S128x128_S40000x1_S40000x128_1_0_0_1 : ScatterDims S128x128 S40000x1 S40000x128 where
  updateWindowDims := [1]
  insertedWindowDims := [0]
  scatterDimsToOperandDims := [0]
  indexVectorDim := 1
  wf := scatter_S128x128_S40000x1_S40000x128_1_0_0_1_wf
def scatter_S128_S40000x1_S40000_n_0_0_1 : ScatterDims S128 S40000x1 S40000 where
  updateWindowDims := []
  insertedWindowDims := [0]
  scatterDimsToOperandDims := [0]
  indexVectorDim := 1
  wf := scatter_S128_S40000x1_S40000_n_0_0_1_wf

class Facts : Prop extends Facts₀ where

variable [Facts]
-- ==== Proof.ChainA.lean ====
/-
  The kernel program's host operations before its first pallas_call, read back as values from ANY buffer contents W.
  They build, from the edge list a5, the edge rows v3 and edge columns v6 (each list followed by 0 … 39999, the
  self-loops), the degree test v12 and the reciprocal square root v13 of the degrees, the node factor v14 and the edge
  weights v29, exactly as the reference's first stages do; and v30 is the first weight matrix rounded to bf16.
-/
import proofs.«418250_j22643067584840_1_alg».proof.Proof.Gen.KernelIdeal.Launch
import proofs.«418250_j22643067584840_1_alg».proof.Proof.RefRead
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.ReadP (val_main_v3 val_main_v6 val_main_v12 val_main_v13 val_main_cst_2 val_main_v14 val_main_v29)

variable {F : FTy → Type} [FloatOps F]

variable (W : Valuation τ sig (Elt F))

/-! ## First stretch: rows, columns, degrees -/

theorem s0_v3 (a5 : (⟨S2x80000, .i32⟩ : BufTy).Contents (Elt F)) (h5 : W (Proc.devRef .tc main_arg5) = a5) :
    StableHlo.after hostOps0 W (Proc.devRef .tc main_v3) = val_main_v3 (F := F) a5 := by
  after_results; rw [h5]; rfl

theorem s0_v6 (a5 : (⟨S2x80000, .i32⟩ : BufTy).Contents (Elt F)) (h5 : W (Proc.devRef .tc main_arg5) = a5) :
    StableHlo.after hostOps0 W (Proc.devRef .tc main_v6) = val_main_v6 (F := F) a5 := by
  after_results; rw [h5]; rfl

theorem s0_v12 (a5 : (⟨S2x80000, .i32⟩ : BufTy).Contents (Elt F)) (h5 : W (Proc.devRef .tc main_arg5) = a5) :
    StableHlo.after hostOps0 W (Proc.devRef .tc main_v12) = val_main_v12 (F := F) a5 := by
  after_results; rw [h5]; rfl

theorem s0_v13 (a5 : (⟨S2x80000, .i32⟩ : BufTy).Contents (Elt F)) (h5 : W (Proc.devRef .tc main_arg5) = a5) :
    StableHlo.after hostOps0 W (Proc.devRef .tc main_v13) = val_main_v13 (F := F) a5 := by
  after_results; rw [h5]; rfl

theorem s0_cst2 : StableHlo.after hostOps0 W (Proc.devRef .tc main_cst_2) = val_main_cst_2 (F := F) := by
  after_results; rfl

/-! ## Second stretch: the node factor -/

theorem s01_v14 (a5 : (⟨S2x80000, .i32⟩ : BufTy).Contents (Elt F))
    (h12 : W (Proc.devRef .tc main_v12) = val_main_v12 (F := F) a5)
    (h13 : W (Proc.devRef .tc main_v13) = val_main_v13 (F := F) a5)
    (hc : W (Proc.devRef .tc main_cst_2) = val_main_cst_2 (F := F)) :
    StableHlo.after hostOps0_1 W (Proc.devRef .tc main_v14) = val_main_v14 (F := F) a5 := by
  after_results
  simp only [TRef.ofBuf, TRef.toBuf, cast_eq, TRef.of]
  rw [h12, h13, hc]
  rfl

/-! ## Third stretch: the edge weights, and the rounded weight matrix -/

set_option maxHeartbeats 2000000 in
theorem s02_v29 (a5 : (⟨S2x80000, .i32⟩ : BufTy).Contents (Elt F))
    (h3 : W (Proc.devRef .tc main_v3) = val_main_v3 (F := F) a5)
    (h6 : W (Proc.devRef .tc main_v6) = val_main_v6 (F := F) a5)
    (h14 : W (Proc.devRef .tc main_v14) = val_main_v14 (F := F) a5) :
    StableHlo.after hostOps0_2 W (Proc.devRef .tc main_v29) = val_main_v29 (F := F) a5 := by
  after_results; rw [h3, h6, h14]; rfl

theorem s02_v30 (a1 : (⟨S5000x64, .f32⟩ : BufTy).Contents (Elt F)) (h1 : W (Proc.devRef .tc main_arg1) = a1) :
    StableHlo.after hostOps0_2 W (Proc.devRef .tc main_v30) = truncf .bf16 a1 bitsLt_bf16_f32 := by
  after_results; rw [h1]

end Cert.KernelIdeal.Chain

end
-- ==== Proof.ChainB.lean ====
/-
  The kernel program's host operations between its first pallas_call and the second layer's linear map, read back as
  values from ANY buffer contents W: the first layer's aggregation v47 (the product v31 gathered along the edge rows,
  weighted, scattered onto the edge columns, plus the bias) is the reference's own stage; v48 is its positive part; v55
  the 128 root rows of x and v56 their positive part.
-/
import proofs.«418250_j22643067584840_1_alg».proof.Proof.Gen.KernelIdeal.Launch
import proofs.«418250_j22643067584840_1_alg».proof.Proof.RefRead
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.ReadP (val_main_v3 val_main_v6 val_main_v29 val_main_v30 val_main_v46)

variable {F : FTy → Type} [FloatOps F]

variable (W : Valuation τ sig (Elt F))

set_option maxHeartbeats 2000000 in
/-- The first layer after aggregation and bias is the reference's stage. -/
theorem s1_v47 (a0 : (⟨S40000x5000, .f32⟩ : BufTy).Contents (Elt F)) (a1 : (⟨S5000x64, .f32⟩ : BufTy).Contents (Elt F)) (a2 : (⟨S64, .f32⟩ : BufTy).Contents (Elt F)) (a5 : (⟨S2x80000, .i32⟩ : BufTy).Contents (Elt F))
    (h31 : W (Proc.devRef .tc main_v31) = val_main_v30 (F := F) a0 a1)
    (h3 : W (Proc.devRef .tc main_v3) = val_main_v3 (F := F) a5)
    (h6 : W (Proc.devRef .tc main_v6) = val_main_v6 (F := F) a5)
    (h29 : W (Proc.devRef .tc main_v29) = val_main_v29 (F := F) a5)
    (h2 : W (Proc.devRef .tc main_arg2) = a2) :
    StableHlo.after hostOps1 W (Proc.devRef .tc main_v47) = val_main_v46 (F := F) a0 a1 a2 a5 := by
  after_results; rw [h31, h3, h6, h29, h2]; rfl

/-- Its positive part. -/
theorem s11_v48 (X : (⟨S40000x64, .f32⟩ : BufTy).Contents (Elt F)) (h47 : W (Proc.devRef .tc main_v47) = X) :
    StableHlo.after hostOps1_1 W (Proc.devRef .tc main_v48) = maximumf X (broadcastInDim S40000x64 ![] bcast_S_S40000x64 (constant (F := F) S_ .f32 0x00000000#32)) := by
  after_results
  simp only [TRef.ofBuf, TRef.toBuf, cast_eq, TRef.of]
  rw [h47]

/-- The 128 root rows of x. -/
theorem s12_v55 (a0 : (⟨S40000x5000, .f32⟩ : BufTy).Contents (Elt F)) (a7 : (⟨S128, .i32⟩ : BufTy).Contents (Elt F))
    (h0 : W (Proc.devRef .tc main_arg0) = a0) (h7 : W (Proc.devRef .tc main_arg7) = a7) :
    StableHlo.after hostOps1_2 W (Proc.devRef .tc main_v55)
      = Host.gather gather_S40000x5000_S128x1_S128x5000_1_0_n_n_0_1_15000 a0 (broadcastInDim S128x1 ![0] bcast_S128_S128x1_0 (select (cmpi .slt a7 (broadcastInDim S128 ![] bcast_S_S128 (constantI S_ 32 0#32))) (addi a7 (broadcastInDim S128 ![] bcast_S_S128 (constantI S_ 32 40000#32))) a7)) := by
  after_results; rw [h0, h7]

/-- Their positive part. -/
theorem s13_v56 (X : (⟨S128x5000, .f32⟩ : BufTy).Contents (Elt F)) (h55 : W (Proc.devRef .tc main_v55) = X) :
    StableHlo.after hostOps1_3 W (Proc.devRef .tc main_v56) = maximumf X (broadcastInDim S128x5000 ![] bcast_S_S128x5000 (constant (F := F) S_ .f32 0x00000000#32)) := by
  after_results
  simp only [TRef.ofBuf, TRef.toBuf, cast_eq, TRef.of]
  rw [h55]

end Cert.KernelIdeal.Chain

end
-- ==== Proof.ChainC.lean ====
/-
  The kernel program's long stretch of host operations around the second layer, cut in two. Its first 14 operations
  form the second layer's linear map v68 as the sum of two products (the positive part of the first layer with the top
  64 rows of the weight, and, gathered by the segment words, the 128-row table with the bottom 5000 rows); its last 19
  aggregate v68 along the edges and add the bias, v84, exactly as the reference's own stages do from ITS linear map.
-/
import proofs.«418250_j22643067584840_1_alg».proof.Proof.Gen.KernelIdeal.Launch
import proofs.«418250_j22643067584840_1_alg».proof.Proof.RefRead
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.ReadP (val_main_v3 val_main_v6 val_main_v29 val_main_v93 val_main_v109)

variable {F : FTy → Type} [FloatOps F]

/-- The first 14 operations of the stretch (the program's own text). -/
abbrev ops14a : List (HloOp τ sig (Elt F)) :=
  ( StableHlo.unary main_arg3 main_v57 ((extractStridedSlice S5000x64 ![64, 0] · slices_S5064x64_S5000x64_64_0) : (⟨S5064x64, .f32⟩ : BufTy).Contents (Elt F) → (⟨S5000x64, .f32⟩ : BufTy).Contents (Elt F))
  :: StableHlo.binary main_v56 main_v57 main_v58 ((fun l r => Host.dotGeneral dot_S128x5000_S5000x64_S128x64_1_0_0_1_n_n none l r) : (⟨S128x5000, .f32⟩ : BufTy).Contents (Elt F) → (⟨S5000x64, .f32⟩ : BufTy).Contents (Elt F) → (⟨S128x64, .f32⟩ : BufTy).Contents (Elt F))
  :: StableHlo.nullary main_c_11 (constantI S_ 32 0#32)
  :: StableHlo.unary main_c_11 main_v59 (broadcastInDim S40000 ![] bcast_S_S40000 : (⟨S_, .i32⟩ : BufTy).Contents (Elt F) → (⟨S40000, .i32⟩ : BufTy).Contents (Elt F))
  :: StableHlo.binary main_arg6 main_v59 main_v60 (cmpi .slt : (⟨S40000, .i32⟩ : BufTy).Contents (Elt F) → (⟨S40000, .i32⟩ : BufTy).Contents (Elt F) → (⟨S40000, .i1⟩ : BufTy).Contents (Elt F))
  :: StableHlo.nullary main_c_12 (constantI S_ 32 128#32)
  :: StableHlo.unary main_c_12 main_v61 (broadcastInDim S40000 ![] bcast_S_S40000 : (⟨S_, .i32⟩ : BufTy).Contents (Elt F) → (⟨S40000, .i32⟩ : BufTy).Contents (Elt F))
  :: StableHlo.binary main_arg6 main_v61 main_v62 (addi : (⟨S40000, .i32⟩ : BufTy).Contents (Elt F) → (⟨S40000, .i32⟩ : BufTy).Contents (Elt F) → (⟨S40000, .i32⟩ : BufTy).Contents (Elt F))
  :: StableHlo.ternary main_v60 main_v62 main_arg6 main_v63 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F))
  :: StableHlo.unary main_v63 main_v64 (broadcastInDim S40000x1 ![0] bcast_S40000_S40000x1_0 : (⟨S40000, .i32⟩ : BufTy).Contents (Elt F) → (⟨S40000x1, .i32⟩ : BufTy).Contents (Elt F))
  :: StableHlo.binary main_v58 main_v64 main_v65 ((fun x i => Host.gather gather_S128x64_S40000x1_S40000x64_1_0_n_n_0_1_164 x i) : (⟨S128x64, .f32⟩ : BufTy).Contents (Elt F) → (⟨S40000x1, .i32⟩ : BufTy).Contents (Elt F) → (⟨S40000x64, .f32⟩ : BufTy).Contents (Elt F))
  :: StableHlo.unary main_arg3 main_v66 ((extractStridedSlice S64x64 ![0, 0] · slices_S5064x64_S64x64_0_0) : (⟨S5064x64, .f32⟩ : BufTy).Contents (Elt F) → (⟨S64x64, .f32⟩ : BufTy).Contents (Elt F))
  :: StableHlo.binary main_v48 main_v66 main_v67 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F))
  :: StableHlo.binary main_v67 main_v65 main_v68 (addf : (⟨S40000x64, .f32⟩ : BufTy).Contents (Elt F) → (⟨S40000x64, .f32⟩ : BufTy).Contents (Elt F) → (⟨S40000x64, .f32⟩ : BufTy).Contents (Elt F))
  :: [] )

/-- The last 19 operations of the stretch (the program's own text). -/
abbrev ops14b : List (HloOp τ sig (Elt F)) :=
  ( StableHlo.nullary main_c_13 (constantI S_ 32 0#32)
  :: StableHlo.unary main_c_13 main_v69 (broadcastInDim S120000 ![] bcast_S_S120000 : (⟨S_, .i32⟩ : BufTy).Contents (Elt F) → (⟨S120000, .i32⟩ : BufTy).Contents (Elt F))
  :: StableHlo.binary main_v3 main_v69 main_v70 (cmpi .slt : (⟨S120000, .i32⟩ : BufTy).Contents (Elt F) → (⟨S120000, .i32⟩ : BufTy).Contents (Elt F) → (⟨S120000, .i1⟩ : BufTy).Contents (Elt F))
  :: StableHlo.nullary main_c_14 (constantI S_ 32 40000#32)
  :: StableHlo.unary main_c_14 main_v71 (broadcastInDim S120000 ![] bcast_S_S120000 : (⟨S_, .i32⟩ : BufTy).Contents (Elt F) → (⟨S120000, .i32⟩ : BufTy).Contents (Elt F))
  :: StableHlo.binary main_v3 main_v71 main_v72 (addi : (⟨S120000, .i32⟩ : BufTy).Contents (Elt F) → (⟨S120000, .i32⟩ : BufTy).Contents (Elt F) → (⟨S120000, .i32⟩ : BufTy).Contents (Elt F))
  :: StableHlo.ternary main_v70 main_v72 main_v3 main_v73 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F))
  :: StableHlo.unary main_v73 main_v74 (broadcastInDim S120000x1 ![0] bcast_S120000_S120000x1_0 : (⟨S120000, .i32⟩ : BufTy).Contents (Elt F) → (⟨S120000x1, .i32⟩ : BufTy).Contents (Elt F))
  :: StableHlo.binary main_v68 main_v74 main_v75 ((fun x i => Host.gather gather_S40000x64_S120000x1_S120000x64_1_0_n_n_0_1_164 x i) : (⟨S40000x64, .f32⟩ : BufTy).Contents (Elt F) → (⟨S120000x1, .i32⟩ : BufTy).Contents (Elt F) → (⟨S120000x64, .f32⟩ : BufTy).Contents (Elt F))
  :: StableHlo.unary main_v29 main_v76 (broadcastInDim S120000x1 ![0] bcast_S120000_S120000x1_0 : (⟨S120000, .f32⟩ : BufTy).Contents (Elt F) → (⟨S120000x1, .f32⟩ : BufTy).Contents (Elt F))
  :: StableHlo.unary main_v76 main_v77 (broadcastInDim S120000x64 ![0, 1] bcast_S120000x1_S120000x64_0_1 : (⟨S120000x1, .f32⟩ : BufTy).Contents (Elt F) → (⟨S120000x64, .f32⟩ : BufTy).Contents (Elt F))
  :: StableHlo.binary main_v75 main_v77 main_v78 (mulf : (⟨S120000x64, .f32⟩ : BufTy).Contents (Elt F) → (⟨S120000x64, .f32⟩ : BufTy).Contents (Elt F) → (⟨S120000x64, .f32⟩ : BufTy).Contents (Elt F))
  :: StableHlo.nullary main_cst_15 (constant S_ .f32 0x00000000#32)
  :: StableHlo.unary main_cst_15 main_v79 (broadcastInDim S40000x64 ![] bcast_S_S40000x64 : (⟨S_, .f32⟩ : BufTy).Contents (Elt F) → (⟨S40000x64, .f32⟩ : BufTy).Contents (Elt F))
  :: StableHlo.unary main_v6 main_v80 (broadcastInDim S120000x1 ![0] bcast_S120000_S120000x1_0 : (⟨S120000, .i32⟩ : BufTy).Contents (Elt F) → (⟨S120000x1, .i32⟩ : BufTy).Contents (Elt F))
  :: StableHlo.ternary main_v79 main_v80 main_v78 main_v81 ((fun x i u => Host.scatterAdd scatter_S40000x64_S120000x1_S120000x64_1_0_0_1 x i u) : (⟨S40000x64, .f32⟩ : BufTy).Contents (Elt F) → (⟨S120000x1, .i32⟩ : BufTy).Contents (Elt F) → (⟨S120000x64, .f32⟩ : BufTy).Contents (Elt F) → (⟨S40000x64, .f32⟩ : BufTy).Contents (Elt F))
  :: StableHlo.unary main_arg4 main_v82 (broadcastInDim S1x64 ![1] bcast_S64_S1x64_1 : (⟨S64, .f32⟩ : BufTy).Contents (Elt F) → (⟨S1x64, .f32⟩ : BufTy).Contents (Elt F))
  :: StableHlo.unary main_v82 main_v83 (broadcastInDim S40000x64 ![0, 1] bcast_S1x64_S40000x64_0_1 : (⟨S1x64, .f32⟩ : BufTy).Contents (Elt F) → (⟨S40000x64, .f32⟩ : BufTy).Contents (Elt F))
  :: StableHlo.binary main_v81 main_v83 main_v84 (addf : (⟨S40000x64, .f32⟩ : BufTy).Contents (Elt F) → (⟨S40000x64, .f32⟩ : BufTy).Contents (Elt F) → (⟨S40000x64, .f32⟩ : BufTy).Contents (Elt F))
  :: [] )

/-- The stretch is the two parts in order. -/
theorem ops14_split : (hostOps1_4 : List (HloOp τ sig (Elt F))) = ops14a ++ ops14b := rfl

variable (W : Valuation τ sig (Elt F))

set_option maxHeartbeats 2000000 in
/-- The second layer's linear map, as the kernel forms it. -/
theorem s14a_v68 (X48 : (⟨S40000x64, .f32⟩ : BufTy).Contents (Elt F)) (X56 : (⟨S128x5000, .f32⟩ : BufTy).Contents (Elt F)) (a3 : (⟨S5064x64, .f32⟩ : BufTy).Contents (Elt F)) (a6 : (⟨S40000, .i32⟩ : BufTy).Contents (Elt F))
    (h48 : W (Proc.devRef .tc main_v48) = X48) (h56 : W (Proc.devRef .tc main_v56) = X56)
    (h3 : W (Proc.devRef .tc main_arg3) = a3) (h6 : W (Proc.devRef .tc main_arg6) = a6) :
    StableHlo.after ops14a W (Proc.devRef .tc main_v68)
      = addf (Host.dotGeneral dot_S40000x64_S64x64_S40000x64_1_0_0_1_n_n none X48
                (extractStridedSlice S64x64 ![0, 0] a3 slices_S5064x64_S64x64_0_0))
             (Host.gather gather_S128x64_S40000x1_S40000x64_1_0_n_n_0_1_164
                (Host.dotGeneral dot_S128x5000_S5000x64_S128x64_1_0_0_1_n_n none X56
                  (extractStridedSlice S5000x64 ![64, 0] a3 slices_S5064x64_S5000x64_64_0))
                (broadcastInDim S40000x1 ![0] bcast_S40000_S40000x1_0 (select (cmpi .slt a6 (broadcastInDim S40000 ![] bcast_S_S40000 (constantI S_ 32 0#32))) (addi a6 (broadcastInDim S40000 ![] bcast_S_S40000 (constantI S_ 32 128#32))) a6))) := by
  after_results
  rw [h48, h56, h3, h6]

set_option maxHeartbeats 2000000 in
/-- The second layer after aggregation and bias is the reference's stage, given that the linear map is. -/
theorem s14b_v84 (a0 : (⟨S40000x5000, .f32⟩ : BufTy).Contents (Elt F)) (a1 : (⟨S5000x64, .f32⟩ : BufTy).Contents (Elt F)) (a2 : (⟨S64, .f32⟩ : BufTy).Contents (Elt F))
    (a3 : (⟨S5064x64, .f32⟩ : BufTy).Contents (Elt F)) (a4 : (⟨S64, .f32⟩ : BufTy).Contents (Elt F)) (a5 : (⟨S2x80000, .i32⟩ : BufTy).Contents (Elt F))
    (a6 : (⟨S40000, .i32⟩ : BufTy).Contents (Elt F)) (a7 : (⟨S128, .i32⟩ : BufTy).Contents (Elt F))
    (h68 : W (Proc.devRef .tc main_v68) = val_main_v93 (F := F) a0 a1 a2 a3 a5 a6 a7)
    (h3 : W (Proc.devRef .tc main_v3) = val_main_v3 (F := F) a5)
    (h6 : W (Proc.devRef .tc main_v6) = val_main_v6 (F := F) a5)
    (h29 : W (Proc.devRef .tc main_v29) = val_main_v29 (F := F) a5)
    (h4 : W (Proc.devRef .tc main_arg4) = a4) :
    StableHlo.after ops14b W (Proc.devRef .tc main_v84) = val_main_v109 (F := F) a0 a1 a2 a3 a4 a5 a6 a7 := by
  after_results; rw [h68, h3, h6, h29, h4]; rfl

end Cert.KernelIdeal.Chain

end
-- ==== Proof.ChainD.lean ====
/-
  The kernel program's last host operations, read back as values from ANY buffer contents W: v85 is the positive part
  of the second layer (the reference's stage); v99 gathers the first layer's rows twice (by the root words into a
  128-row table, then by the segment words); v100 lays v85 and v99 side by side; v101 is the segment words as a column;
  and after the second pallas_call v111 divides its result by the segment sizes (at least 1), as the reference does.
-/
import proofs.«418250_j22643067584840_1_alg».proof.Proof.Gen.KernelIdeal.Launch
import proofs.«418250_j22643067584840_1_alg».proof.Proof.RefRead
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.ReadP (val_main_v109 val_main_v110 val_main_v128 val_main_v137)

variable {F : FTy → Type} [FloatOps F]

variable (W : Valuation τ sig (Elt F))

/-- The second layer's positive part is the reference's stage. -/
theorem s15_v85 (a0 : (⟨S40000x5000, .f32⟩ : BufTy).Contents (Elt F)) (a1 : (⟨S5000x64, .f32⟩ : BufTy).Contents (Elt F)) (a2 : (⟨S64, .f32⟩ : BufTy).Contents (Elt F))
    (a3 : (⟨S5064x64, .f32⟩ : BufTy).Contents (Elt F)) (a4 : (⟨S64, .f32⟩ : BufTy).Contents (Elt F)) (a5 : (⟨S2x80000, .i32⟩ : BufTy).Contents (Elt F))
    (a6 : (⟨S40000, .i32⟩ : BufTy).Contents (Elt F)) (a7 : (⟨S128, .i32⟩ : BufTy).Contents (Elt F))
    (h84 : W (Proc.devRef .tc main_v84) = val_main_v109 (F := F) a0 a1 a2 a3 a4 a5 a6 a7) :
    StableHlo.after hostOps1_5 W (Proc.devRef .tc main_v85) = val_main_v110 (F := F) a0 a1 a2 a3 a4 a5 a6 a7 := by
  after_results
  simp only [TRef.ofBuf, TRef.toBuf, cast_eq, TRef.of]
  rw [h84]
  rfl

set_option maxHeartbeats 2000000 in
/-- The first layer's rows gathered twice. -/
theorem s16_v99 (X47 : (⟨S40000x64, .f32⟩ : BufTy).Contents (Elt F)) (a6 : (⟨S40000, .i32⟩ : BufTy).Contents (Elt F)) (a7 : (⟨S128, .i32⟩ : BufTy).Contents (Elt F))
    (h47 : W (Proc.devRef .tc main_v47) = X47) (h6 : W (Proc.devRef .tc main_arg6) = a6) (h7 : W (Proc.devRef .tc main_arg7) = a7) :
    StableHlo.after hostOps1_6 W (Proc.devRef .tc main_v99)
      = (Host.gather gather_S128x64_S40000x1_S40000x64_1_0_n_n_0_1_164
        (Host.gather gather_S40000x64_S128x1_S128x64_1_0_n_n_0_1_164 X47 (broadcastInDim S128x1 ![0] bcast_S128_S128x1_0 (select (cmpi .slt a7 (broadcastInDim S128 ![] bcast_S_S128 (constantI S_ 32 0#32))) (addi a7 (broadcastInDim S128 ![] bcast_S_S128 (constantI S_ 32 40000#32))) a7)))
        (broadcastInDim S40000x1 ![0] bcast_S40000_S40000x1_0 (select (cmpi .slt a6 (broadcastInDim S40000 ![] bcast_S_S40000 (constantI S_ 32 0#32))) (addi a6 (broadcastInDim S40000 ![] bcast_S_S40000 (constantI S_ 32 128#32))) a6))) := by
  after_results
  rw [h47, h6, h7]

set_option maxHeartbeats 2000000 in
/-- The two halves side by side. -/
theorem s16_v100 (X85 X47 : (⟨S40000x64, .f32⟩ : BufTy).Contents (Elt F)) (a6 : (⟨S40000, .i32⟩ : BufTy).Contents (Elt F)) (a7 : (⟨S128, .i32⟩ : BufTy).Contents (Elt F))
    (h85 : W (Proc.devRef .tc main_v85) = X85) (h47 : W (Proc.devRef .tc main_v47) = X47)
    (h6 : W (Proc.devRef .tc main_arg6) = a6) (h7 : W (Proc.devRef .tc main_arg7) = a7) :
    StableHlo.after hostOps1_6 W (Proc.devRef .tc main_v100)
      = concatenate S40000x128 1 [⟨S40000x64, X85⟩, ⟨S40000x64, (Host.gather gather_S128x64_S40000x1_S40000x64_1_0_n_n_0_1_164
        (Host.gather gather_S40000x64_S128x1_S128x64_1_0_n_n_0_1_164 X47 (broadcastInDim S128x1 ![0] bcast_S128_S128x1_0 (select (cmpi .slt a7 (broadcastInDim S128 ![] bcast_S_S128 (constantI S_ 32 0#32))) (addi a7 (broadcastInDim S128 ![] bcast_S_S128 (constantI S_ 32 40000#32))) a7)))
        (broadcastInDim S40000x1 ![0] bcast_S40000_S40000x1_0 (select (cmpi .slt a6 (broadcastInDim S40000 ![] bcast_S_S40000 (constantI S_ 32 0#32))) (addi a6 (broadcastInDim S40000 ![] bcast_S_S40000 (constantI S_ 32 128#32))) a6)))⟩]
          concatenates_S40000x64_S40000x64_S40000x128_d1 := by
  after_results
  rw [h85, h47, h6, h7]

/-- The segment words as a column. -/
theorem s16_v101 (a6 : (⟨S40000, .i32⟩ : BufTy).Contents (Elt F)) (h6 : W (Proc.devRef .tc main_arg6) = a6) :
    StableHlo.after hostOps1_6 W (Proc.devRef .tc main_v101) = broadcastInDim S40000x1 ![0] bcast_S40000_S40000x1_0 a6 := by
  after_results
  rw [h6]

/-- The means: the segment sums over the segment sizes, as the reference divides them. -/
theorem s2_v111 (a0 : (⟨S40000x5000, .f32⟩ : BufTy).Contents (Elt F)) (a1 : (⟨S5000x64, .f32⟩ : BufTy).Contents (Elt F)) (a2 : (⟨S64, .f32⟩ : BufTy).Contents (Elt F))
    (a3 : (⟨S5064x64, .f32⟩ : BufTy).Contents (Elt F)) (a4 : (⟨S64, .f32⟩ : BufTy).Contents (Elt F)) (a5 : (⟨S2x80000, .i32⟩ : BufTy).Contents (Elt F))
    (a6 : (⟨S40000, .i32⟩ : BufTy).Contents (Elt F)) (a7 : (⟨S128, .i32⟩ : BufTy).Contents (Elt F))
    (h102 : W (Proc.devRef .tc main_v102) = val_main_v128 (F := F) a0 a1 a2 a3 a4 a5 a6 a7)
    (h6 : W (Proc.devRef .tc main_arg6) = a6) :
    StableHlo.after hostOps2 W (Proc.devRef .tc main_v111) = val_main_v137 (F := F) a0 a1 a2 a3 a4 a5 a6 a7 := by
  after_results
  rw [h102, h6]
  rfl

end Cert.KernelIdeal.Chain

end
-- ==== Proof.Kept.lean ====
/- Each theorem: a buffer that none of the host operations in between writes holds at the later boundary of the generated
   fold what it held at the earlier one. -/
import proofs.«418250_j22643067584840_1_alg».proof.Proof.Gen.KernelIdeal.Frame
import proofs.«418250_j22643067584840_1_alg».proof.Proof.ChainC
import Idealize.ShloMosaic.Lib.StableHlo.Run

set_option maxRecDepth 16384
set_option maxHeartbeats 2000000

noncomputable section

namespace Cert.KernelIdeal.Kept

open Idealize.ShloMosaic Idealize.ShloMosaic.TcCoe Idealize.SL.Sem Idealize.ShloMosaic.StableHlo
open Cert.KernelIdeal Cert.KernelIdeal.Gen Cert.KernelIdeal.Chain

variable {F : FTy → Type} [FloatOps F]
variable (m : (ℓ : Loc nD τ sig) → Buf (Elt F) ℓ) (ρ : Dev nD → PrngReg) (c : Dev nD)

theorem k2_v3 : W2 m ρ c (Proc.devRef .tc main_v3) = W1 m ρ c (Proc.devRef .tc main_v3) := by
  show (StableHlo.after hostOps0_1 (W1 m ρ c)) (Proc.devRef .tc main_v3) = _
  after_results <;> rfl
theorem k2_v6 : W2 m ρ c (Proc.devRef .tc main_v6) = W1 m ρ c (Proc.devRef .tc main_v6) := by
  show (StableHlo.after hostOps0_1 (W1 m ρ c)) (Proc.devRef .tc main_v6) = _
  after_results <;> rfl
theorem k2_arg1 : W2 m ρ c (Proc.devRef .tc main_arg1) = W0 m ρ c (Proc.devRef .tc main_arg1) := by
  show (StableHlo.after hostOps0_1 (StableHlo.after hostOps0 (W0 m ρ c))) (Proc.devRef .tc main_arg1) = _
  after_results <;> rfl
theorem k3_v3 : W3 m ρ c (Proc.devRef .tc main_v3) = W1 m ρ c (Proc.devRef .tc main_v3) := by
  show (StableHlo.after hostOps0_2 (StableHlo.after hostOps0_1 (W1 m ρ c))) (Proc.devRef .tc main_v3) = _
  after_results <;> rfl
theorem k3_v6 : W3 m ρ c (Proc.devRef .tc main_v6) = W1 m ρ c (Proc.devRef .tc main_v6) := by
  show (StableHlo.after hostOps0_2 (StableHlo.after hostOps0_1 (W1 m ρ c))) (Proc.devRef .tc main_v6) = _
  after_results <;> rfl
theorem k3_arg0 : W3 m ρ c (Proc.devRef .tc main_arg0) = W0 m ρ c (Proc.devRef .tc main_arg0) := by
  show (StableHlo.after hostOps0_2 (StableHlo.after hostOps0_1 (StableHlo.after hostOps0 (W0 m ρ c)))) (Proc.devRef .tc main_arg0) = _
  after_results <;> rfl
theorem k3_arg2 : W3 m ρ c (Proc.devRef .tc main_arg2) = W0 m ρ c (Proc.devRef .tc main_arg2) := by
  show (StableHlo.after hostOps0_2 (StableHlo.after hostOps0_1 (StableHlo.after hostOps0 (W0 m ρ c)))) (Proc.devRef .tc main_arg2) = _
  after_results <;> rfl
theorem k3_arg3 : W3 m ρ c (Proc.devRef .tc main_arg3) = W0 m ρ c (Proc.devRef .tc main_arg3) := by
  show (StableHlo.after hostOps0_2 (StableHlo.after hostOps0_1 (StableHlo.after hostOps0 (W0 m ρ c)))) (Proc.devRef .tc main_arg3) = _
  after_results <;> rfl
theorem k3_arg4 : W3 m ρ c (Proc.devRef .tc main_arg4) = W0 m ρ c (Proc.devRef .tc main_arg4) := by
  show (StableHlo.after hostOps0_2 (StableHlo.after hostOps0_1 (StableHlo.after hostOps0 (W0 m ρ c)))) (Proc.devRef .tc main_arg4) = _
  after_results <;> rfl
theorem k3_arg6 : W3 m ρ c (Proc.devRef .tc main_arg6) = W0 m ρ c (Proc.devRef .tc main_arg6) := by
  show (StableHlo.after hostOps0_2 (StableHlo.after hostOps0_1 (StableHlo.after hostOps0 (W0 m ρ c)))) (Proc.devRef .tc main_arg6) = _
  after_results <;> rfl
theorem k3_arg7 : W3 m ρ c (Proc.devRef .tc main_arg7) = W0 m ρ c (Proc.devRef .tc main_arg7) := by
  show (StableHlo.after hostOps0_2 (StableHlo.after hostOps0_1 (StableHlo.after hostOps0 (W0 m ρ c)))) (Proc.devRef .tc main_arg7) = _
  after_results <;> rfl
theorem k6_arg0 : W6 m ρ c (Proc.devRef .tc main_arg0) = W4 m ρ c (Proc.devRef .tc main_arg0) := by
  show (StableHlo.after hostOps1_1 (StableHlo.after hostOps1 (W4 m ρ c))) (Proc.devRef .tc main_arg0) = _
  after_results <;> rfl
theorem k6_arg7 : W6 m ρ c (Proc.devRef .tc main_arg7) = W4 m ρ c (Proc.devRef .tc main_arg7) := by
  show (StableHlo.after hostOps1_1 (StableHlo.after hostOps1 (W4 m ρ c))) (Proc.devRef .tc main_arg7) = _
  after_results <;> rfl
theorem k8_v48 : W8 m ρ c (Proc.devRef .tc main_v48) = W6 m ρ c (Proc.devRef .tc main_v48) := by
  show (StableHlo.after hostOps1_3 (StableHlo.after hostOps1_2 (W6 m ρ c))) (Proc.devRef .tc main_v48) = _
  after_results <;> rfl
theorem k8_v47 : W8 m ρ c (Proc.devRef .tc main_v47) = W5 m ρ c (Proc.devRef .tc main_v47) := by
  show (StableHlo.after hostOps1_3 (StableHlo.after hostOps1_2 (StableHlo.after hostOps1_1 (W5 m ρ c)))) (Proc.devRef .tc main_v47) = _
  after_results <;> rfl
theorem k8_v3 : W8 m ρ c (Proc.devRef .tc main_v3) = W4 m ρ c (Proc.devRef .tc main_v3) := by
  show (StableHlo.after hostOps1_3 (StableHlo.after hostOps1_2 (StableHlo.after hostOps1_1 (StableHlo.after hostOps1 (W4 m ρ c))))) (Proc.devRef .tc main_v3) = _
  after_results <;> rfl
theorem k8_v6 : W8 m ρ c (Proc.devRef .tc main_v6) = W4 m ρ c (Proc.devRef .tc main_v6) := by
  show (StableHlo.after hostOps1_3 (StableHlo.after hostOps1_2 (StableHlo.after hostOps1_1 (StableHlo.after hostOps1 (W4 m ρ c))))) (Proc.devRef .tc main_v6) = _
  after_results <;> rfl
theorem k8_v29 : W8 m ρ c (Proc.devRef .tc main_v29) = W4 m ρ c (Proc.devRef .tc main_v29) := by
  show (StableHlo.after hostOps1_3 (StableHlo.after hostOps1_2 (StableHlo.after hostOps1_1 (StableHlo.after hostOps1 (W4 m ρ c))))) (Proc.devRef .tc main_v29) = _
  after_results <;> rfl
theorem k8_arg3 : W8 m ρ c (Proc.devRef .tc main_arg3) = W4 m ρ c (Proc.devRef .tc main_arg3) := by
  show (StableHlo.after hostOps1_3 (StableHlo.after hostOps1_2 (StableHlo.after hostOps1_1 (StableHlo.after hostOps1 (W4 m ρ c))))) (Proc.devRef .tc main_arg3) = _
  after_results <;> rfl
theorem k8_arg4 : W8 m ρ c (Proc.devRef .tc main_arg4) = W4 m ρ c (Proc.devRef .tc main_arg4) := by
  show (StableHlo.after hostOps1_3 (StableHlo.after hostOps1_2 (StableHlo.after hostOps1_1 (StableHlo.after hostOps1 (W4 m ρ c))))) (Proc.devRef .tc main_arg4) = _
  after_results <;> rfl
theorem k8_arg6 : W8 m ρ c (Proc.devRef .tc main_arg6) = W4 m ρ c (Proc.devRef .tc main_arg6) := by
  show (StableHlo.after hostOps1_3 (StableHlo.after hostOps1_2 (StableHlo.after hostOps1_1 (StableHlo.after hostOps1 (W4 m ρ c))))) (Proc.devRef .tc main_arg6) = _
  after_results <;> rfl
theorem k8_arg7 : W8 m ρ c (Proc.devRef .tc main_arg7) = W4 m ρ c (Proc.devRef .tc main_arg7) := by
  show (StableHlo.after hostOps1_3 (StableHlo.after hostOps1_2 (StableHlo.after hostOps1_1 (StableHlo.after hostOps1 (W4 m ρ c))))) (Proc.devRef .tc main_arg7) = _
  after_results <;> rfl
theorem k10_v47 : W10 m ρ c (Proc.devRef .tc main_v47) = W8 m ρ c (Proc.devRef .tc main_v47) := by
  show (StableHlo.after hostOps1_5 (StableHlo.after hostOps1_4 (W8 m ρ c))) (Proc.devRef .tc main_v47) = _
  after_results <;> rfl
theorem k10_arg6 : W10 m ρ c (Proc.devRef .tc main_arg6) = W8 m ρ c (Proc.devRef .tc main_arg6) := by
  show (StableHlo.after hostOps1_5 (StableHlo.after hostOps1_4 (W8 m ρ c))) (Proc.devRef .tc main_arg6) = _
  after_results <;> rfl
theorem k10_arg7 : W10 m ρ c (Proc.devRef .tc main_arg7) = W8 m ρ c (Proc.devRef .tc main_arg7) := by
  show (StableHlo.after hostOps1_5 (StableHlo.after hostOps1_4 (W8 m ρ c))) (Proc.devRef .tc main_arg7) = _
  after_results <;> rfl
theorem k11_arg6 : W11 m ρ c (Proc.devRef .tc main_arg6) = W10 m ρ c (Proc.devRef .tc main_arg6) := by
  show (StableHlo.after hostOps1_6 (W10 m ρ c)) (Proc.devRef .tc main_arg6) = _
  after_results <;> rfl
theorem k8a_v3 : StableHlo.after ops14a (W8 m ρ c) (Proc.devRef .tc main_v3) = W8 m ρ c (Proc.devRef .tc main_v3) := by
  after_results <;> rfl
theorem k8a_v6 : StableHlo.after ops14a (W8 m ρ c) (Proc.devRef .tc main_v6) = W8 m ρ c (Proc.devRef .tc main_v6) := by
  after_results <;> rfl
theorem k8a_v29 : StableHlo.after ops14a (W8 m ρ c) (Proc.devRef .tc main_v29) = W8 m ρ c (Proc.devRef .tc main_v29) := by
  after_results <;> rfl
theorem k8a_arg4 : StableHlo.after ops14a (W8 m ρ c) (Proc.devRef .tc main_arg4) = W8 m ρ c (Proc.devRef .tc main_arg4) := by
  after_results <;> rfl

end Cert.KernelIdeal.Kept

end
-- ==== Proof.Spec.lean ====
/-
  The two whole-array functions the kernel's pallas_calls compute, on the extended reals, over literal shapes.

  * `mm x w`: the matrix product of x : [40000, 5000] and w : [5000, 64]; entry (r, j) is the sum over the 5000
    features k of x[r, k] · w[k, j].
  * `seg bt h`: the segment sums of the rows of h : [40000, 128] by the segment words bt : [40000, 1]; entry (b, q) is
    the sum of h[n, q] over the rows n whose word is the 32-bit word of b (a word that is no such b contributes to no
    segment).
-/
import Idealize.ShloMosaic.Lib.ValueIdx
import Idealize.ShloMosaic.PureOps.Ideal

noncomputable section

namespace Cert.Spec

open Idealize.ShloMosaic Idealize.ShloMosaic.ValueIdx
open scoped BigOperators

/-- The matrix product [40000, 5000] · [5000, 64], entry by entry. -/
def mm (x : (⟨2, ![40000, 5000]⟩ : Shape).Idx → EReal) (w : (⟨2, ![5000, 64]⟩ : Shape).Idx → EReal) :
    (⟨2, ![40000, 64]⟩ : Shape).Idx → EReal :=
  fun i => ∑ k : Fin 5000, x (ix2 (i 0) k) * w (ix2 k (i 1))

/-- The sums of the rows of `h` segment by segment: row `n` belongs to segment `b` when its word is `b`'s. -/
def seg (bt : (⟨2, ![40000, 1]⟩ : Shape).Idx → BitVec 32) (h : (⟨2, ![40000, 128]⟩ : Shape).Idx → EReal) :
    (⟨2, ![128, 128]⟩ : Shape).Idx → EReal :=
  fun i => ∑ n : Fin 40000, if bt (ix2 n (0 : Fin 1)) = BitVec.ofNat 32 (i 0).val then h (ix2 n (i 1)) else 0

end Cert.Spec

end
-- ==== Proof.K0Value.lean ====
/-
  The first pallas_call's result array as one function of the arrays the region is entered with: the grid's 100
  points each write rows 400·t … 400·t + 399 of the product, and row r, column j of the whole array is the sum over
  the 5000 features k of x[r, k] · w[k, j] on the extended reals (a change of float format is the identity there).
-/
import proofs.«418250_j22643067584840_1_alg».proof.Proof.Gen.KernelIdeal.Frame
import proofs.«418250_j22643067584840_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.K0

open Idealize.ShloMosaic Idealize.ShloMosaic.TcCoe Idealize.ShloMosaic.ValueIdx Idealize.SL.Sem
open Idealize.ShloMosaic.Pipeline (Dat Cfg Window)
open Cert.KernelIdeal Cert.KernelIdeal.Gen

/- The TensorCore's buffer contents when the region is entered: a parameter, as in the generated frame. -/
variable (V : (c : Dev nD) → (b : Ref sig .tc) → Buf (Elt Ideal) ((c : Thread nD τ).loc b))

/-! ## The body's arithmetic at one entry of its block -/

/-- The zero offsets of a whole-block access, as a constant function. -/
theorem zero_off : (![0, 0] : Fin 2 → Nat) = fun _ => 0 := funext fun a => by fin_cases a <;> rfl

/-- The left operand's row coordinate under the contraction is the output's row. -/
theorem lhs_axis0 (i : S400x64.Idx) (q : dot_S400x5000_S5000x64_S400x64_1_0_0_1_n_n.contr.Idx) :
    (dot_S400x5000_S5000x64_S400x64_1_0_0_1_n_n.lhsIdx i q 0).val = (i 0).val := by
  unfold DotDims.lhsIdx
  rw [dif_neg (show ¬(0 : Fin S400x5000.rank) ∈ dot_S400x5000_S5000x64_S400x64_1_0_0_1_n_n.lhsBatch by decide), dif_pos (show (0 : Fin S400x5000.rank) ∈ dot_S400x5000_S5000x64_S400x64_1_0_0_1_n_n.lhsNonContracting by decide)]
  rfl
/-- The left operand's column coordinate is the contraction index. -/
theorem lhs_axis1 (i : S400x64.Idx) (q : dot_S400x5000_S5000x64_S400x64_1_0_0_1_n_n.contr.Idx) :
    (dot_S400x5000_S5000x64_S400x64_1_0_0_1_n_n.lhsIdx i q 1).val = (q ⟨0, by decide⟩).val :=
  dot_S400x5000_S5000x64_S400x64_1_0_0_1_n_n.lhsIdx_val_of_single rfl i q
/-- The right operand's row coordinate is the contraction index. -/
theorem rhs_axis0 (i : S400x64.Idx) (q : dot_S400x5000_S5000x64_S400x64_1_0_0_1_n_n.contr.Idx) :
    (dot_S400x5000_S5000x64_S400x64_1_0_0_1_n_n.rhsIdx i q 0).val = (q ⟨0, by decide⟩).val :=
  dot_S400x5000_S5000x64_S400x64_1_0_0_1_n_n.rhsIdx_val_of_single rfl i q
/-- The right operand's column coordinate is the output's column. -/
theorem rhs_axis1 (i : S400x64.Idx) (q : dot_S400x5000_S5000x64_S400x64_1_0_0_1_n_n.contr.Idx) :
    (dot_S400x5000_S5000x64_S400x64_1_0_0_1_n_n.rhsIdx i q 1).val = (i 1).val := by
  unfold DotDims.rhsIdx
  rw [dif_neg (show ¬(1 : Fin S5000x64.rank) ∈ dot_S400x5000_S5000x64_S400x64_1_0_0_1_n_n.rhsBatch by decide), dif_pos (show (1 : Fin S5000x64.rank) ∈ dot_S400x5000_S5000x64_S400x64_1_0_0_1_n_n.rhsNonContracting by decide)]
  rfl

/-- Entry (p, q) of the body's product block: the sum over the 5000 features of the row block's (p, k) times the
    weights' (k, q); the narrowing of the row block and the cast of the weights to their own shape change nothing on
    the extended reals, and the accumulator the product is added into is zero. -/
theorem pay_apply (x0 : Vec Ideal S400x5000 .f32) (x1 : Vec Ideal S5000x64 .bf16) (p : Fin 400) (q : Fin 64) :
    k0_pay1 (F := Ideal) x0 x1 (ix2 p q) = ∑ k : Fin 5000, x0 (ix2 p k) * x1 (ix2 k q) := by
  unfold k0_pay1
  refine (Ideal.matmul_constant_zero_apply dot_S400x5000_S5000x64_S400x64_1_0_0_1_n_n none _ _ (ix2 p q)).trans ?_
  rw [← Equiv.sum_comp (ValueIdx.contrEquiv1 dot_S400x5000_S5000x64_S400x64_1_0_0_1_n_n 5000 rfl rfl).symm]
  refine Finset.sum_congr rfl fun k _ => ?_
  have hk := ValueIdx.contrEquiv1_symm_val dot_S400x5000_S5000x64_S400x64_1_0_0_1_n_n 5000 rfl rfl k
  have el : dot_S400x5000_S5000x64_S400x64_1_0_0_1_n_n.lhsIdx (ix2 p q) ((ValueIdx.contrEquiv1 dot_S400x5000_S5000x64_S400x64_1_0_0_1_n_n 5000 rfl rfl).symm k) = ix2 p k := funext fun a => Fin.ext (by
    match a with
    | ⟨0, _⟩ => exact lhs_axis0 _ _
    | ⟨1, _⟩ => exact (lhs_axis1 _ _).trans hk)
  have er : dot_S400x5000_S5000x64_S400x64_1_0_0_1_n_n.rhsIdx (ix2 p q) ((ValueIdx.contrEquiv1 dot_S400x5000_S5000x64_S400x64_1_0_0_1_n_n 5000 rfl rfl).symm k) = ix2 k q := funext fun a => Fin.ext (by
    match a with
    | ⟨0, _⟩ => exact (rhs_axis0 _ _).trans hk
    | ⟨1, _⟩ => exact rhs_axis1 _ _)
  rw [el, er, shapeCast_self]
  rfl

/-! ## From the blocks to the array -/

/-- The printed index maps over the grid's 100 points: the row block of x and of the product is the point's own, the
    column block of each is the only one, and the weights' block is the whole array at every point. -/
theorem idx_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Row p, feature k of the row block of x at point t is row 400·t + p, feature k of x. -/
theorem xblk_apply (c : Dev nD) (t : Fin cfg0.N) (p : Fin 400) (k : Fin 5000) (r : Fin 40000)
    (hr : r.val = t.val * 400 + p.val) :
    (iblk0 (F := Ideal) V c 0 t : Vec Ideal S400x5000 .f32) (ix2 p k) = (V c main_arg0 : S40000x5000.Idx → EReal) (ix2 r k) := by
  obtain ⟨-, -, e0, e1, -, -⟩ := idx_facts t
  unfold iblk0
  rw [View.read_apply]
  show V c main_arg0 (((cfg0.win 0).blk t).view.emb (ix2 p k)) = V c main_arg0 (ix2 r k)
  congr 1
  funext a
  apply Fin.ext
  match a with
  | ⟨0, _⟩ => show win0_0.index t (0 : Fin 2) * 400 + 1 * p.val = r.val; omega
  | ⟨1, _⟩ => show win0_0.index t (1 : Fin 2) * 5000 + 1 * k.val = k.val; omega

/-- The weights' block at every point is the whole array of weights. -/
theorem wblk_apply (c : Dev nD) (t : Fin cfg0.N) (k : Fin 5000) (q : Fin 64) :
    (iblk0 (F := Ideal) V c 1 t : Vec Ideal S5000x64 .bf16) (ix2 k q) = (V c main_v30 : S5000x64.Idx → EReal) (ix2 k q) := by
  obtain ⟨-, -, -, -, e0, e1⟩ := idx_facts t
  unfold iblk0
  rw [View.read_apply]
  show V c main_v30 (((cfg0.win 1).blk t).view.emb (ix2 k q)) = V c main_v30 (ix2 k q)
  congr 1
  funext a
  apply Fin.ext
  match a with
  | ⟨0, _⟩ => show win0_1.index t (0 : Fin 2) * 5000 + 1 * k.val = k.val; omega
  | ⟨1, _⟩ => show win0_1.index t (1 : Fin 2) * 64 + 1 * q.val = q.val; omega

/-- What point t writes back is block t of the product of the two arrays. -/
theorem flushed_eq (c : Dev nD) (t : Fin cfg0.N) :
    (dat0 (F := Ideal) V c).flushed 2 t
      = ((cfg0.win 2).blk t).view.read (Elt Ideal) (Cert.Spec.mm (V c main_arg0) (V c main_v30)) := by
  show (cfg0.win 2).cut (grid0.coords t) ((dat0 V c).after 2 t) = _
  rw [after0_2]
  unfold out0_2
  rw [View.canon_unit_zero zero_off]
  simp only [View.ld_unit_zero (S := S400x5000) zero_off, View.ld_unit_zero (S := S5000x64) zero_off]
  obtain ⟨e0, e1, -, -, -, -⟩ := idx_facts t
  have hN : cfg0.N = 100 := N_0
  have htN : t.val < 100 := hN ▸ t.isLt
  funext j
  obtain ⟨p, q, rfl⟩ : ∃ (p : Fin 400) (q : Fin 64), j = ix2 p q := ⟨j 0, j 1, eq_ix2 j⟩
  have hi : ((cfg0.win 2).blk t).view.emb (ix2 p q) = (ix2 (⟨t.val * 400 + p.val, by omega⟩ : Fin 40000) q : S40000x64.Idx) := by
    funext a
    apply Fin.ext
    match a with
    | ⟨0, _⟩ => show win0_2.index t (0 : Fin 2) * 400 + 1 * p.val = t.val * 400 + p.val; omega
    | ⟨1, _⟩ => show win0_2.index t (1 : Fin 2) * 64 + 1 * q.val = q.val; omega
  show k0_pay1 (F := Ideal) (iblk0 V c 0 t) (iblk0 V c 1 t) (ix2 p q)
    = Cert.Spec.mm (V c main_arg0) (V c main_v30) (((cfg0.win 2).blk t).view.emb (ix2 p q))
  rw [hi]
  refine (pay_apply (iblk0 V c 0 t) (iblk0 V c 1 t) p q).trans ?_
  refine Finset.sum_congr rfl fun k _ => ?_
  rw [xblk_apply V c t p k ⟨t.val * 400 + p.val, by omega⟩ rfl, wblk_apply V c t k q]

/-- An index of the product array is in point t's block iff each coordinate is in the block's range on its axis. -/
theorem mem_blk (t : Fin cfg0.N) (i : S40000x64.Idx) :
    i ∈ ((cfg0.win 2).blk t).view.set ↔ ∀ a : Fin 2, win0_2.index t a * S400x64.size a ≤ (i a).val ∧ (i a).val < win0_2.index t a * S400x64.size a + S400x64.size a := by
  show i ∈ ((View.whole main_v31).slice (win0_2.rect t)).set ↔ _
  rw [View.set_slice_whole, Rect.mem_set_unit]
  exact Iff.rfl

/-- Row r of the product array is written by the point r / 400: the 100 row blocks of 400 rows tile the 40000 rows. -/
theorem cover (i : S40000x64.Idx) :
    ∃ t : Fin cfg0.N, (cfg0.win 2).flush t = true ∧ i ∈ ((cfg0.win 2).blk t).view.set := by
  have hi0 : (i 0).val < 40000 := (i 0).isLt
  have hi1 : (i 1).val < 64 := (i 1).isLt
  have hlt : (i 0).val / 400 < cfg0.N := by rw [show cfg0.N = 100 from N_0]; omega
  obtain ⟨t, ht⟩ : ∃ t : Fin cfg0.N, t.val = (i 0).val / 400 := ⟨⟨_, hlt⟩, rfl⟩
  obtain ⟨e0, e1, -, -, -, -⟩ := idx_facts t
  refine ⟨t, flush0_2 t, ?_⟩
  rw [mem_blk]
  intro a
  match a with
  | ⟨0, _⟩ => show win0_2.index t (0 : Fin 2) * 400 ≤ (i 0).val ∧ (i 0).val < win0_2.index t (0 : Fin 2) * 400 + 400; omega
  | ⟨1, _⟩ => show win0_2.index t (1 : Fin 2) * 64 ≤ (i 1).val ∧ (i 1).val < win0_2.index t (1 : Fin 2) * 64 + 64; omega

/-- The array region 0 leaves is the matrix product of the two arrays it is entered with. -/
theorem region0_out (c : Dev nD) :
    (dat0 (F := Ideal) V c).arrAt 2 cfg0.N = Cert.Spec.mm (V c main_arg0) (V c main_v30) :=
  (dat0 (F := Ideal) V c).arrAt_eq_of_cover 2 (Cert.Spec.mm (V c main_arg0) (V c main_v30))
    (fun t _ => flushed_eq V c t) cover

end Cert.KernelIdeal.K0

end
-- ==== Proof.LibTileSum.lean ====
/-
  Pure finite-sum reindexing over an additive commutative monoid (only commutativity and associativity of `+` and the
  neutral `0` are used: no subtraction, no cancellation).

  * `sum_fin_mul`: a sum over `[0, m·n)` is the double sum over the quotient `a < m` and the remainder `b < n` of the
    position `a·n + b`.
  * `sum_tiles`: a length-`T·(P·Q)` vector read as `T` tiles, each tile read row-major as `P` rows of `Q` lanes and summed
    down its rows, the `T × Q` partial sums then all added, is the sum of the whole vector.
  * `sum_below`: a sum over `[0, M₁)` of a function that is zero from `M₀` on is the sum over `[0, M₀)`.
  * `sum_first_rows`: an array of `T·S` rows of `Q` lanes whose only non-zero rows are the rows `t·S` sums to the sum of
    those rows.
-/
import Idealize.ShloMosaic.Lib.ValueIdx
import Mathlib.Algebra.BigOperators.Fin
import Mathlib.Data.Fintype.BigOperators
import Mathlib.Logic.Equiv.Fin.Basic

open scoped BigOperators

namespace Idealize.ShloMosaic.ValueIdx

open Idealize.ShloMosaic

/-- Position `a·n + b` with `a < m` and `b < n` lies below `m·n`: `a·n + b < a·n + n = (a+1)·n ≤ m·n`. -/
theorem mul_add_lt_mul {m n : Nat} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right _ a.isLt

/-- Position `t·(P·Q) + (p·Q + q)` with `t < T`, `p < P`, `q < Q` lies below `T·(P·Q)`: the inner position `p·Q + q` is
    below `P·Q`, and then the outer one is below `T·(P·Q)`. -/
theorem tile_pos_lt {T P Q : Nat} (t : Fin T) (p : Fin P) (q : Fin Q) :
    t.val * (P * Q) + (p.val * Q + q.val) < T * (P * Q) :=
  mul_add_lt_mul t (⟨p.val * Q + q.val, mul_add_lt_mul p q⟩ : Fin (P * Q))

/-- The first row `t·S` of the `t`-th group of `S` rows lies below `T·S` when a group is not empty. -/
theorem mul_lt_mul_fin {T S : Nat} (hS : 0 < S) (t : Fin T) : t.val * S < T * S :=
  mul_add_lt_mul t (⟨0, hS⟩ : Fin S)

/-- A sum over `[0, m·n)` is the double sum over quotient `a < m` and remainder `b < n` of the position `a·n + b`
    (the bijection `(a, b) ↦ a·n + b` between the product of the two ranges and `[0, m·n)`). -/
theorem sum_fin_mul {M : Type*} [AddCommMonoid M] (m n : Nat) (f : Fin (m * n) → M) :
    ∑ j : Fin (m * n), f j = ∑ a : Fin m, ∑ b : Fin n, f ⟨a.val * n + b.val, mul_add_lt_mul a b⟩ := by
  rw [← Equiv.sum_comp (finProdFinEquiv (m := m) (n := n)) f, Fintype.sum_prod_type]
  refine Finset.sum_congr rfl fun a _ => Finset.sum_congr rfl fun b _ => congrArg f (Fin.ext ?_)
  show b.val + n * a.val = a.val * n + b.val
  rw [Nat.add_comm, Nat.mul_comm]

/-- A length-`T·(P·Q)` vector read as `T` tiles, each tile read row-major as `P` rows of `Q` lanes (element `(p, q)` of
    tile `t` is position `t·(P·Q) + (p·Q + q)`) and summed down its rows, the `T × Q` partial sums then all added, is the
    sum of the whole vector: split the position into tile and offset, the offset into row and lane, and exchange the
    row sum with the lane sum. -/
theorem sum_tiles {M : Type*} [AddCommMonoid M] (T P Q : Nat) (g : Fin (T * (P * Q)) → M) :
    ∑ t : Fin T, ∑ q : Fin Q, ∑ p : Fin P,
        g ⟨t.val * (P * Q) + (p.val * Q + q.val), by exact tile_pos_lt t p q⟩ =
      ∑ j : Fin (T * (P * Q)), g j := by
  rw [sum_fin_mul T (P * Q) g]
  refine Finset.sum_congr rfl fun t _ => ?_
  rw [sum_fin_mul P Q (fun r : Fin (P * Q) => g ⟨t.val * (P * Q) + r.val, mul_add_lt_mul t r⟩)]
  exact Finset.sum_comm

/-- A sum over `[0, M₁)` of a function that is `h` below `M₀` and zero from `M₀` on is the sum of `h` over `[0, M₀)`:
    write `M₁ = M₀ + k`, split the range at `M₀`, and drop the zero part. -/
theorem sum_below {M : Type*} [AddCommMonoid M] {M₀ M₁ : Nat} (h01 : M₀ ≤ M₁) (h : Fin M₀ → M) :
    ∑ j : Fin M₁, (if hj : j.val < M₀ then h ⟨j.val, hj⟩ else 0) = ∑ v : Fin M₀, h v := by
  obtain ⟨k, rfl⟩ := Nat.exists_eq_add_of_le h01
  rw [Fin.sum_trunc]
  · refine Finset.sum_congr rfl fun v _ => ?_
    have hv : (Fin.castAdd k v).val < M₀ := v.isLt
    rw [dif_pos hv]
    exact congrArg h (Fin.ext rfl)
  · intro j
    have hj : ¬ (Fin.natAdd M₀ j).val < M₀ := by
      show ¬ M₀ + j.val < M₀
      exact Nat.not_lt.mpr (Nat.le_add_right _ _)
    rw [dif_neg hj]

/-- An array of `T·S` rows of `Q` lanes (`S > 0`) whose row `t·S` is `f t` and whose other rows `t·S + s`, `s ≠ 0`, are
    zero sums to the sum of the `f t q`: split the row into group `t` and offset `s`, and in each group only the
    offset `0` contributes. -/
theorem sum_first_rows {M : Type*} [AddCommMonoid M] (T S Q : Nat) (hS : 0 < S)
    (out : (⟨2, ![T * S, Q]⟩ : Shape).Idx → M) (f : Fin T → Fin Q → M)
    (h0 : ∀ (t : Fin T) (q : Fin Q), out (ix2 ⟨t.val * S, by exact mul_lt_mul_fin hS t⟩ q) = f t q)
    (hz : ∀ (t : Fin T) (s : Fin S) (q : Fin Q), s.val ≠ 0 →
      out (ix2 ⟨t.val * S + s.val, by exact mul_add_lt_mul t s⟩ q) = 0) :
    ∑ j, out j = ∑ t : Fin T, ∑ q : Fin Q, f t q := by
  rw [sum_idx2, sum_fin_mul T S (fun a : Fin (T * S) => ∑ b : Fin Q, out (ix2 a b))]
  refine Finset.sum_congr rfl fun t _ => ?_
  rw [Finset.sum_eq_single (⟨0, hS⟩ : Fin S)]
  · exact Finset.sum_congr rfl fun q _ => h0 t q
  · intro s _ hs
    have hs0 : s.val ≠ 0 := fun e => hs (Fin.ext e)
    exact Finset.sum_eq_zero fun q _ => hz t s q hs0
  · intro hn
    exact absurd (Finset.mem_univ _) hn

end Idealize.ShloMosaic.ValueIdx
-- ==== Proof.LibAccSum.lean ====
/-
  An accumulator carried along a run of `T` steps over a length-`T·P` vector cut into `T` tiles of `P` entries:
  started at the first step from zero plus the sum of tile `0`, and increased at step `n + 1` by the sum of tile
  `n + 1`, it holds after step `n` the sum of the tiles `0 … n`, and after the last step the sum of the whole
  vector. Over any additive commutative monoid (only associativity, commutativity and the neutral `0` are used).

  * `tile_lt`: position `n·P + p` of tile `n < T` lies below `T·P`.
  * `acc_steps`: an accumulator that starts at `g 0` and adds `g (n + 1)` at step `n + 1` holds `∑ a ≤ n, g a`.
  * `acc_prefix`: the prefix form over tiles.
  * `acc_total`: after the last step the accumulator is the whole sum.
  * `acc_total_of_zero`: the same when the first step starts from a value `z` known to be `0`.
-/
import proofs.«418250_j22643067584840_1_alg».proof.Proof.LibTileSum
import Mathlib.Algebra.BigOperators.Fin

open scoped BigOperators

namespace Idealize.ShloMosaic.ValueIdx

/-- Position `n·P + p` of tile `n < T`, `p < P`, lies below `T·P`. -/
theorem tile_lt {T P n : Nat} (hn : n < T) (p : Fin P) : n * P + p.val < T * P :=
  mul_add_lt_mul (⟨n, hn⟩ : Fin T) p

/-- An accumulator that starts at `g 0` and at step `n + 1` (while `n + 1 < T`) adds `g (n + 1)` holds after step
    `n < T` the sum `g 0 + … + g n`: by induction on `n`, the last term of the longer sum split off. -/
theorem acc_steps {M : Type*} [AddCommMonoid M] (T : Nat) (g : Nat → M) (acc : Nat → M)
    (h0 : acc 0 = g 0) (hs : ∀ n, n + 1 < T → acc (n + 1) = acc n + g (n + 1)) :
    ∀ n, n < T → acc n = ∑ a : Fin (n + 1), g a.val := by
  intro n
  induction n with
  | zero =>
    intro _
    rw [h0, Fin.sum_univ_one]
    rfl
  | succ n ih =>
    intro hn
    rw [hs n hn, ih (Nat.lt_of_succ_lt hn)]
    exact (Fin.sum_univ_castSucc (fun a : Fin (n + 1 + 1) => g a.val)).symm

/-- The prefix form over tiles: started from zero plus the sum of tile `0` and increased at step `n + 1` by the sum of
    tile `n + 1`, the accumulator holds after step `n < T` the sum of the tiles `0 … n`. -/
theorem acc_prefix {M : Type*} [AddCommMonoid M] (T P : Nat) (hT : 0 < T) (f : Fin (T * P) → M) (acc : Nat → M)
    (h0 : acc 0 = 0 + ∑ p : Fin P, f ⟨0 * P + p.val, tile_lt hT p⟩)
    (hs : ∀ n (h : n + 1 < T), acc (n + 1) = acc n + ∑ p : Fin P, f ⟨(n + 1) * P + p.val, tile_lt h p⟩) :
    ∀ n (hn : n < T), acc n = ∑ a : Fin (n + 1), ∑ p : Fin P,
      f ⟨a.val * P + p.val, tile_lt (Nat.lt_of_lt_of_le a.isLt hn) p⟩ := by
  intro n hn
  have key := acc_steps T (fun a => if h : a < T then ∑ p : Fin P, f ⟨a * P + p.val, tile_lt h p⟩ else 0) acc
    (by rw [h0, zero_add, dif_pos hT]) (fun m hm => by rw [hs m hm, dif_pos hm]) n hn
  rw [key]
  refine Finset.sum_congr rfl fun a _ => ?_
  rw [dif_pos (Nat.lt_of_lt_of_le a.isLt hn)]

/-- After the last of `T > 0` steps the accumulator is the sum of the whole vector: the prefix form at `n = T - 1`,
    and the double sum over tiles and offsets is the sum over positions. -/
theorem acc_total {M : Type*} [AddCommMonoid M] (T P : Nat) (hT : 0 < T) (f : Fin (T * P) → M) (acc : Nat → M)
    (h0 : acc 0 = 0 + ∑ p : Fin P, f ⟨0 * P + p.val, tile_lt hT p⟩)
    (hs : ∀ n (h : n + 1 < T), acc (n + 1) = acc n + ∑ p : Fin P, f ⟨(n + 1) * P + p.val, tile_lt h p⟩) :
    acc (T - 1) = ∑ i : Fin (T * P), f i := by
  obtain ⟨k, rfl⟩ := Nat.exists_eq_succ_of_ne_zero (Nat.pos_iff_ne_zero.mp hT)
  rw [Nat.succ_sub_one]
  exact (acc_prefix k.succ P hT f acc h0 hs k (Nat.lt_succ_self k)).trans (sum_fin_mul k.succ P f).symm

/-- The same when the first step starts from a value `z` that is `0` (a zero word the caller reads as `0`). -/
theorem acc_total_of_zero {M : Type*} [AddCommMonoid M] (T P : Nat) (hT : 0 < T) (f : Fin (T * P) → M) (acc : Nat → M)
    (z : M) (hz : z = 0)
    (h0 : acc 0 = z + ∑ p : Fin P, f ⟨0 * P + p.val, tile_lt hT p⟩)
    (hs : ∀ n (h : n + 1 < T), acc (n + 1) = acc n + ∑ p : Fin P, f ⟨(n + 1) * P + p.val, tile_lt h p⟩) :
    acc (T - 1) = ∑ i : Fin (T * P), f i := by
  subst hz
  exact acc_total T P hT f acc h0 hs

/-- The prefix form likewise from a first value `z` that is `0`. -/
theorem acc_prefix_of_zero {M : Type*} [AddCommMonoid M] (T P : Nat) (hT : 0 < T) (f : Fin (T * P) → M) (acc : Nat → M)
    (z : M) (hz : z = 0)
    (h0 : acc 0 = z + ∑ p : Fin P, f ⟨0 * P + p.val, tile_lt hT p⟩)
    (hs : ∀ n (h : n + 1 < T), acc (n + 1) = acc n + ∑ p : Fin P, f ⟨(n + 1) * P + p.val, tile_lt h p⟩) :
    ∀ n (hn : n < T), acc n = ∑ a : Fin (n + 1), ∑ p : Fin P,
      f ⟨a.val * P + p.val, tile_lt (Nat.lt_of_lt_of_le a.isLt hn) p⟩ := by
  subst hz
  exact acc_prefix T P hT f acc h0 hs

end Idealize.ShloMosaic.ValueIdx
-- ==== Proof.K1Value.lean ====
/-
  The second pallas_call's result array as one function of the arrays the region is entered with: the 128 × 128 block
  is zeroed at the first of the 10 grid points and every point adds the product of a one-hot matrix (row n of the
  point's 4000 rows is hot in column b exactly when the segment word of node n is b) with the point's 4000 feature
  rows; so entry (b, q) after the last point is the sum, over the nodes n whose segment word is b, of feature q of node n.
-/
import proofs.«418250_j22643067584840_1_alg».proof.Proof.Gen.KernelIdeal.Frame
import proofs.«418250_j22643067584840_1_alg».proof.Proof.Spec
import proofs.«418250_j22643067584840_1_alg».proof.Proof.LibAccSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.K1

open Idealize.ShloMosaic Idealize.ShloMosaic.TcCoe Idealize.ShloMosaic.ValueIdx Idealize.SL.Sem
open Idealize.ShloMosaic.Pipeline (Dat Cfg Window)
open Cert.KernelIdeal Cert.KernelIdeal.Gen

/- The TensorCore's buffer contents when the region is entered: a parameter, as in the generated frame. -/
variable (V : (c : Dev nD) → (b : Ref sig .tc) → Buf (Elt Ideal) ((c : Thread nD τ).loc b))

section Pieces
variable {F : FTy → Type} [FloatOps F]

/-- The zero offsets of a whole-buffer rectangle, as a constant function. -/
theorem hz : (![0, 0] : Fin 2 → Nat) = fun _ => 0 := funext fun a => by fin_cases a <;> rfl

/-- A point other than the first: the body's one store covers the output buffer, and leaves the update payload of the
    two input blocks over what the buffer held. -/
theorem out_B (c : Dev nD) (i : grid1.Coords) (a1 : Memref sig .tc .vmem S4000x128 .f32) (h1 : a1.IsWhole)
    (a2 : Memref sig .tc .vmem S4000x1 .i32) (h2 : a2.IsWhole) (a3 : Memref sig .tc .vmem S128x128 .f32) (h3 : a3.IsWhole)
    (hc : ¬cond1_0 i) (x0 : Vec F S4000x128 .f32) (x1 : Vec F S4000x1 .i32) (xo : Vec F S128x128 .f32) :
    out1_B_2 c i a1 h1 a2 h2 a3 h3 hc x0 x1 xo = k1_pay2 x1 x0 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero hz]
  simp only [View.readAt_eq_ld, h1.read_unread, h2.read_unread, h3.read_unread, View.ld_unit_zero (S := S4000x128) hz,
    View.ld_unit_zero (S := S4000x1) hz, View.ld_unit_zero (S := S128x128) hz]

/-- The first point: the body stores the zero block, reads it back, and its second store, which covers the buffer,
    leaves the update payload of the two input blocks over the zero block. -/
theorem out_A (c : Dev nD) (i : grid1.Coords) (a1 : Memref sig .tc .vmem S4000x128 .f32) (h1 : a1.IsWhole)
    (a2 : Memref sig .tc .vmem S4000x1 .i32) (h2 : a2.IsWhole) (a3 : Memref sig .tc .vmem S128x128 .f32) (h3 : a3.IsWhole)
    (hc : cond1_0 i) (x0 : Vec F S4000x128 .f32) (x1 : Vec F S4000x1 .i32) :
    out1_A_2 c i a1 h1 a2 h2 a3 h3 hc x0 x1 = k1_pay2 x1 x0 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S128x128) hz]
  simp only [View.readAt_eq_ld, h1.read_unread, h2.read_unread, View.ld_unit_zero (S := S4000x128) hz,
    View.ld_unit_zero (S := S4000x1) hz, View.readCov_unit_zero (S := S128x128) _ hz]

end Pieces

section Payload

/-! ## The update payload at an entry, on the extended reals -/

/-- The left operand's contracted axis (its rows) reads the contraction position. -/
theorem lhs_rows (j : S128x128.Idx) (k : dot_S4000x128_S4000x128_S128x128_0_0_1_1_n_n.contr.Idx) :
    (dot_S4000x128_S4000x128_S128x128_0_0_1_1_n_n.lhsIdx j k 0).val = (k ⟨0, by decide⟩).val :=
  dot_S4000x128_S4000x128_S128x128_0_0_1_1_n_n.lhsIdx_val_of_single rfl j k
/-- The left operand's kept axis (its columns) reads the result's row. -/
theorem lhs_cols (j : S128x128.Idx) (k : dot_S4000x128_S4000x128_S128x128_0_0_1_1_n_n.contr.Idx) :
    (dot_S4000x128_S4000x128_S128x128_0_0_1_1_n_n.lhsIdx j k 1).val = (j 0).val := by
  unfold DotDims.lhsIdx
  rw [dif_neg (show ¬(1 : Fin S4000x128.rank) ∈ dot_S4000x128_S4000x128_S128x128_0_0_1_1_n_n.lhsBatch by decide), dif_pos (show (1 : Fin S4000x128.rank) ∈ dot_S4000x128_S4000x128_S128x128_0_0_1_1_n_n.lhsNonContracting by decide)]
  rfl
/-- The right operand's contracted axis (its rows) reads the contraction position. -/
theorem rhs_rows (j : S128x128.Idx) (k : dot_S4000x128_S4000x128_S128x128_0_0_1_1_n_n.contr.Idx) :
    (dot_S4000x128_S4000x128_S128x128_0_0_1_1_n_n.rhsIdx j k 0).val = (k ⟨0, by decide⟩).val :=
  dot_S4000x128_S4000x128_S128x128_0_0_1_1_n_n.rhsIdx_val_of_single rfl j k
/-- The right operand's kept axis (its columns) reads the result's column. -/
theorem rhs_cols (j : S128x128.Idx) (k : dot_S4000x128_S4000x128_S128x128_0_0_1_1_n_n.contr.Idx) :
    (dot_S4000x128_S4000x128_S128x128_0_0_1_1_n_n.rhsIdx j k 1).val = (j 1).val := by
  unfold DotDims.rhsIdx
  rw [dif_neg (show ¬(1 : Fin S4000x128.rank) ∈ dot_S4000x128_S4000x128_S128x128_0_0_1_1_n_n.rhsBatch by decide), dif_pos (show (1 : Fin S4000x128.rank) ∈ dot_S4000x128_S4000x128_S128x128_0_0_1_1_n_n.rhsNonContracting by decide)]
  rfl

/-- The product contracting the ROWS of both operands, into the zero block, at entry (b, q): the sum over the 4000 rows
    p of L[p, b] · R[p, q] (the transpose of L times R). -/
theorem matmulT_apply (L R : FVec Ideal S4000x128 .bf16) (b q : Fin 128) :
    matmul dot_S4000x128_S4000x128_S128x128_0_0_1_1_n_n none L R (constant (F := Ideal) S128x128 .f32 0x00000000#32) (ix2 b q)
      = ∑ p : Fin 4000, L (ix2 p b) * R (ix2 p q) := by
  simp only [matmul]
  rw [Ideal.matmul_constant_zero_apply, ← Equiv.sum_comp (contrEquiv1 dot_S4000x128_S4000x128_S128x128_0_0_1_1_n_n 4000 rfl rfl).symm]
  refine Finset.sum_congr rfl fun k _ => ?_
  have hk := contrEquiv1_symm_val dot_S4000x128_S4000x128_S128x128_0_0_1_1_n_n 4000 rfl rfl k
  have el : dot_S4000x128_S4000x128_S128x128_0_0_1_1_n_n.lhsIdx (ix2 b q) ((contrEquiv1 dot_S4000x128_S4000x128_S128x128_0_0_1_1_n_n 4000 rfl rfl).symm k) = ix2 k b := funext fun a => Fin.ext (by
    match a with
    | ⟨0, _⟩ => exact (lhs_rows _ _).trans hk
    | ⟨1, _⟩ => exact lhs_cols _ _)
  have er : dot_S4000x128_S4000x128_S128x128_0_0_1_1_n_n.rhsIdx (ix2 b q) ((contrEquiv1 dot_S4000x128_S4000x128_S128x128_0_0_1_1_n_n 4000 rfl rfl).symm k) = ix2 k q := funext fun a => Fin.ext (by
    match a with
    | ⟨0, _⟩ => exact (rhs_rows _ _).trans hk
    | ⟨1, _⟩ => exact rhs_cols _ _)
  rw [el, er]

/-- A column [a, 1] broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison of two words, widened and converted, is 1 where they are equal and 0 elsewhere. -/
theorem eq_word_cast (x y : BitVec 32) :
    (((((IntOp.cmpi .eq x y).setWidth 32).toInt : ℤ) : ℝ) : EReal) = if x = y then 1 else 0 := by
  by_cases h : x = y
  · have e : IntOp.cmpi .eq x y = 1#1 := by simp [IntOp.cmpi, h]
    rw [if_pos h, e, show ((1#1 : BitVec 1).setWidth 32).toInt = 1 from by decide]
    simp
  · have e : IntOp.cmpi .eq x y = 0#1 := by
      show BitVec.ofBool (x == y) = 0#1
      rw [show (x == y) = false from beq_eq_false_iff_ne.mpr h]
      rfl
    rw [if_neg h, e, show ((0#1 : BitVec 1).setWidth 32).toInt = 0 from by decide]
    simp

/-- The one-hot operand at (p, b): 1 when the segment word of row p is the word of b, else 0. -/
theorem onehot_apply (v3 : IVec S4000x1 32) (hc : S4000x1.ShapeCasts S4000x1) (hb : S4000x1.Broadcasts S4000x128)
    (hi : S1x128.Iotas .tc 32 [1]) (hr : S1x128.Broadcasts S4000x128) (h1 : 1 < 32) (ht : FTy.bf16.bits < FTy.f32.bits)
    (p : Fin 4000) (b : Fin 128) :
    (truncf .bf16 (sitofp (F := Ideal) .f32 (extui 32 (cmpi .eq (broadcastTo S4000x128 (shapeCast S4000x1 v3 hc) hb)
        (broadcastTo S4000x128 (iota .tc S1x128 32 [1] hi) hr)) h1)) ht : FVec Ideal S4000x128 .bf16) (ix2 p b)
      = if v3 (ix2 p (0 : Fin 1)) = BitVec.ofNat 32 b.val then (1 : EReal) else 0 := by
  show (((((IntOp.cmpi .eq (broadcastTo S4000x128 (shapeCast S4000x1 v3 hc) hb (ix2 p b))
      (broadcastTo S4000x128 (iota .tc S1x128 32 [1] hi) hr (ix2 p b))).setWidth 32).toInt : ℤ) : ℝ) : EReal) = _
  rw [broadcastTo_a1_ab_apply, broadcastTo_1b_ab_apply, iota_single_apply, shapeCast_self, eq_word_cast]

/-- THE UPDATE at entry (b, q): what the buffer held there plus the sum, over the rows p of the point's block whose
    segment word is the word of b, of feature q of row p — a one-hot factor is 1 or 0, and 1 · x = x, 0 · x = 0. -/
theorem pay2_apply (v3 : Vec Ideal S4000x1 .i32) (v12 : Vec Ideal S4000x128 .f32) (v15 : Vec Ideal S128x128 .f32)
    (b q : Fin 128) :
    k1_pay2 (F := Ideal) v3 v12 v15 (ix2 b q)
      = v15 (ix2 b q) + ∑ p : Fin 4000, (if v3 (ix2 p (0 : Fin 1)) = BitVec.ofNat 32 b.val then v12 (ix2 p q) else 0) := by
  unfold k1_pay2
  refine (addf_apply _ _ _).trans ?_
  refine congrArg₂ (· + ·) (congrFun (shapeCast_self v15 _) _) ?_
  refine (matmulT_apply _ _ b q).trans ?_
  refine Finset.sum_congr rfl fun p _ => ?_
  refine (congrArg₂ (· * ·) (onehot_apply v3 _ _ _ _ _ _ p b) (congrFun (shapeCast_self v12 _) (ix2 p q))).trans ?_
  rw [ite_mul, one_mul, zero_mul]

/-- The reset payload is the zero block. -/
theorem pay1_apply (j : S128x128.Idx) : k1_pay1 (F := Ideal) j = 0 := Ideal.ofBits_zero_f32

end Payload

section Grid

/-! ## The blocks and arrays by their literal types -/

/-- The point's 4000 feature rows. -/
abbrev hblk (c : Dev nD) (t : Fin cfg1.N) : Vec Ideal S4000x128 .f32 := iblk1 V c 0 t
/-- The point's 4000 segment words. -/
abbrev wblk (c : Dev nD) (t : Fin cfg1.N) : Vec Ideal S4000x1 .i32 := iblk1 V c 1 t
/-- The 40000 feature rows the region is entered with. -/
abbrev harr (c : Dev nD) : Vec Ideal S40000x128 .f32 := V c main_v100
/-- The 40000 segment words the region is entered with. -/
abbrev warr (c : Dev nD) : Vec Ideal S40000x1 .i32 := V c main_v101

/-- The index maps over the grid: point t's input blocks are row block t, the output block never moves. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- Row p of point t's feature block is row 4000 t + p of the array. -/
theorem hblk_apply (c : Dev nD) (t : Fin cfg1.N) (ht : t.val < 10) (p : Fin 4000) (q : Fin 128) :
    hblk V c t (ix2 p q) = harr V c (ix2 (⟨t.val * 4000 + p.val, tile_lt ht p⟩ : Fin 40000) q) := by
  obtain ⟨e0, e1, -⟩ := idx_facts t
  show V c main_v100 (((cfg1.win 0).blk t).view.emb (ix2 p q)) = V c main_v100 _
  refine congrArg (V c main_v100) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 128 + 1 * q.val = q.val; rw [e1]; omega

/-- Row p of point t's block of segment words is row 4000 t + p of the array. -/
theorem wblk_apply (c : Dev nD) (t : Fin cfg1.N) (ht : t.val < 10) (p : Fin 4000) :
    wblk V c t (ix2 p (0 : Fin 1)) = warr V c (ix2 (⟨t.val * 4000 + p.val, tile_lt ht p⟩ : Fin 40000) (0 : Fin 1)) := by
  obtain ⟨-, -, e0, e1, -⟩ := idx_facts t
  show V c main_v101 (((cfg1.win 1).blk t).view.emb (ix2 p (0 : Fin 1))) = V c main_v101 _
  refine congrArg (V c main_v101) (funext fun a => Fin.ext ?_)
  match a with
  | ⟨0, _⟩ => show win1_1.index t (0 : Fin 2) * 4000 + 1 * p.val = t.val * 4000 + p.val; rw [e0]; omega
  | ⟨1, _⟩ => show win1_1.index t (1 : Fin 2) * 1 + 1 * 0 = 0; rw [e1]

/-! ## The accumulation over the grid -/

/-- Row n's term of the segment sum at entry (b, q): feature q of row n when its word is the word of b, else 0. -/
abbrev term (c : Dev nD) (b q : Fin 128) (n : Fin 40000) : EReal :=
  if warr V c (ix2 n (0 : Fin 1)) = BitVec.ofNat 32 b.val then harr V c (ix2 n q) else 0

/-- The update at point t over any previous contents: entry (b, q) grows by the terms of the rows 4000 t … 4000 t + 3999. -/
theorem upd_apply (c : Dev nD) (t : Fin cfg1.N) (ht : t.val < 10) (prev : Vec Ideal S128x128 .f32) (b q : Fin 128) :
    k1_pay2 (F := Ideal) (wblk V c t) (hblk V c t) prev (ix2 b q)
      = prev (ix2 b q) + ∑ p : Fin 4000, term V c b q ⟨t.val * 4000 + p.val, tile_lt ht p⟩ := by
  refine (pay2_apply (wblk V c t) (hblk V c t) prev b q).trans ?_
  refine congrArg (prev (ix2 b q) + ·) (Finset.sum_congr rfl fun p _ => ?_)
  exact if_congr (by rw [wblk_apply V c t ht p]) (hblk_apply V c t ht p q) rfl

/-- Entry (b, q) of the output buffer after point n (0 past the grid). -/
def accAt (c : Dev nD) (b q : Fin 128) (n : ℕ) : EReal :=
  if h : n < cfg1.N then outsAt1 V c n h (ix2 b q) else 0

/-- After the first point: the zero block's entry plus the terms of the first 4000 rows. -/
theorem acc_first (c : Dev nD) (b q : Fin 128) :
    accAt V c b q 0 = k1_pay1 (F := Ideal) (ix2 b q)
      + ∑ p : Fin 4000, term V c b q ⟨0 * 4000 + p.val, tile_lt (T := 10) (by decide) p⟩ := by
  have hN : cfg1.N = 10 := N_1
  have h0 : 0 < cfg1.N := by rw [hN]; decide
  unfold accAt
  rw [dif_pos h0, outsAt1_A V c ⟨0, h0⟩ (Nat.zero_mod 10)]
  refine (congrFun (out_A (F := Ideal) c (grid1.coords ⟨0, h0⟩) (ms1_0 ⟨0, h0⟩) (hs1_0 ⟨0, h0⟩) (ms1_1 ⟨0, h0⟩) (hs1_1 ⟨0, h0⟩)
    (ms1_2 ⟨0, h0⟩) (hs1_2 ⟨0, h0⟩) ((hcond1_0 ⟨0, h0⟩).mpr (Nat.zero_mod 10)) (hblk V c ⟨0, h0⟩) (wblk V c ⟨0, h0⟩)) (ix2 b q)).trans ?_
  exact upd_apply V c ⟨0, h0⟩ (show (0 : ℕ) < 10 from by decide) (k1_pay1 (F := Ideal)) b q

/-- After point n + 1: what point n left plus the terms of the rows of block n + 1. -/
theorem acc_step (c : Dev nD) (b q : Fin 128) (n : ℕ) (h : n + 1 < 10) :
    accAt V c b q (n + 1) = accAt V c b q n
      + ∑ p : Fin 4000, term V c b q ⟨(n + 1) * 4000 + p.val, tile_lt h p⟩ := by
  have hN : cfg1.N = 10 := N_1
  have h1 : n + 1 < cfg1.N := by rw [hN]; exact h
  have h0 : n < cfg1.N := Nat.lt_of_succ_lt h1
  have hB : ¬(⟨n + 1, h1⟩ : Fin cfg1.N).val % 10 = 0 := by dsimp only; omega
  unfold accAt
  rw [dif_pos h1, dif_pos h0, outsAt1_B V c ⟨n + 1, h1⟩ hB]
  dsimp only
  refine (congrFun (out_B (F := Ideal) c (grid1.coords ⟨n + 1, h1⟩) (ms1_0 ⟨n + 1, h1⟩) (hs1_0 ⟨n + 1, h1⟩) (ms1_1 ⟨n + 1, h1⟩)
    (hs1_1 ⟨n + 1, h1⟩) (ms1_2 ⟨n + 1, h1⟩) (hs1_2 ⟨n + 1, h1⟩) (fun hh => hB ((hcond1_0 ⟨n + 1, h1⟩).mp hh))
    (hblk V c ⟨n + 1, h1⟩) (wblk V c ⟨n + 1, h1⟩) (outsAt1 V c n h0)) (ix2 b q)).trans ?_
  exact upd_apply V c ⟨n + 1, h1⟩ h (outsAt1 V c n h0) b q

/-- After the last point entry (b, q) is the sum of the terms of all 40000 rows: ten tiles of 4000 rows, the first
    added to the zero block's entry. -/
theorem acc_last (c : Dev nD) (b q : Fin 128) : accAt V c b q 9 = ∑ n : Fin 40000, term V c b q n :=
  acc_total_of_zero 10 4000 (by decide) (term V c b q) (accAt V c b q) (k1_pay1 (F := Ideal) (ix2 b q)) (pay1_apply _)
    (acc_first V c b q) (acc_step V c b q)

/-- So at the last point the output buffer holds the segment sums. -/
theorem outs_last (c : Dev nD) (t : Fin cfg1.N) (h9 : t.val = 9) :
    outsAt1 V c t.val t.isLt = Cert.Spec.seg (warr V c) (harr V c) := by
  obtain ⟨n, hn⟩ := t
  dsimp only at h9
  subst h9
  funext j
  obtain ⟨b, q, rfl⟩ : ∃ (b q : Fin 128), j = ix2 b q := ⟨j 0, j 1, eq_ix2 j⟩
  have key := acc_last V c b q
  unfold accAt at key
  rw [dif_pos hn] at key
  exact key

/-! ## From the last point's write-back to the array -/

/-- The output window's block at any point is the whole array: a buffer's contents written back are the array's contents
    read through the block (the block index is 0 on both axes). -/
theorem cut_eq_read (t : Fin cfg1.N) (G : Vec Ideal S128x128 .f32) :
    (cfg1.win 2).cut (grid1.coords t) G = ((cfg1.win 2).blk t).view.read (Elt Ideal) G := by
  obtain ⟨-, -, -, -, e0, e1⟩ := idx_facts t
  funext j
  show G ((cfg1.win 2).xinj (grid1.coords t) j) = G (((cfg1.win 2).blk t).view.emb j)
  refine congrArg G (funext fun a => Fin.ext ?_)
  match a with
  | ⟨0, _⟩ => show (j 0).val = win1_2.index t (0 : Fin 2) * 128 + 1 * (j 0).val; rw [e0]; omega
  | ⟨1, _⟩ => show (j 1).val = win1_2.index t (1 : Fin 2) * 128 + 1 * (j 1).val; rw [e1]; omega

/-- The one write-back, at the last point, writes the segment sums. -/
theorem flushed_eq (c : Dev nD) (t : Fin cfg1.N) (hf : (cfg1.win 2).flush t = true) :
    (dat1 (F := Ideal) V c).flushed 2 t
      = ((cfg1.win 2).blk t).view.read (Elt Ideal) (Cert.Spec.seg (warr V c) (harr V c)) := by
  have hN : cfg1.N = 10 := N_1
  have h9 : t.val = 9 := by have := (flush1_2 t).mp hf; have := t.isLt; omega
  show (cfg1.win 2).cut (grid1.coords t) ((dat1 V c).after 2 t) = _
  rw [after1_2, outs_last V c t h9]
  exact cut_eq_read t _

/-- The array region 1 leaves, over the blocks' literal names. -/
theorem final (c : Dev nD) : (dat1 (F := Ideal) V c).arrAt 2 cfg1.N = Cert.Spec.seg (warr V c) (harr V c) :=
  (dat1 (F := Ideal) V c).arrAt_eq_of_cover 2 (Cert.Spec.seg (warr V c) (harr V c)) (flushed_eq V c) fun i => by
    have hN : cfg1.N = 10 := N_1
    have h9 : 9 < cfg1.N := by rw [hN]; decide
    obtain ⟨-, -, -, -, e0, e1⟩ := idx_facts ⟨9, h9⟩
    refine ⟨⟨9, h9⟩, (flush1_2 ⟨9, h9⟩).mpr rfl, ?_⟩
    show i ∈ ((View.whole main_v102).slice (win1_2.rect ⟨9, h9⟩)).set
    rw [View.set_slice_whole, Rect.mem_set_unit]
    intro a
    have h0 : (i 0 : Nat) < 128 := (i 0).isLt
    have h1 : (i 1 : Nat) < 128 := (i 1).isLt
    match a with
    | ⟨0, _⟩ =>
      show win1_2.index ⟨9, h9⟩ (0 : Fin 2) * 128 ≤ (i 0 : Nat) ∧ (i 0 : Nat) < win1_2.index ⟨9, h9⟩ (0 : Fin 2) * 128 + 128
      rw [e0]; omega
    | ⟨1, _⟩ =>
      show win1_2.index ⟨9, h9⟩ (1 : Fin 2) * 128 ≤ (i 1 : Nat) ∧ (i 1 : Nat) < win1_2.index ⟨9, h9⟩ (1 : Fin 2) * 128 + 128
      rw [e1]; omega

end Grid

/-- The array region 1 leaves is the segment sums of the feature rows it is entered with, by their segment words. -/
theorem region1_out (c : Dev nD) :
    (dat1 (F := Ideal) V c).arrAt 2 cfg1.N = Cert.Spec.seg (V c main_v101) (V c main_v100) := by
  exact final V c

end Cert.KernelIdeal.K1

end
-- ==== Proof.Ops.lean ====
/-
  Shared vocabulary for the bridges between the two programs, on the extended reals (F := Ideal).

  Both programs address rows through vectors of 32-bit words. A word is first normalised the way numpy indexing does
  it (a negative word w becomes w + n, n the extent of the axis it indexes), then laid out as a column, and a gather
  reads it signed and clamps it into the axis. The kernel gathers a 128-row table by the root words and then gathers
  that table by the segment words; the reference gathers the root words by the segment words first and then gathers
  the big array once. The definitions below name those columns, once with the kernel program's records and once with
  the reference program's.
-/
import proofs.«418250_j22643067584840_1_alg».proof.KernelIdeal
import proofs.«418250_j22643067584840_1_alg».proof.ReferenceIdeal
import proofs.«418250_j22643067584840_1_alg».proof.Proof.Gen.KernelIdeal
import proofs.«418250_j22643067584840_1_alg».proof.Proof.Gen.ReferenceIdeal
import Idealize.ShloMosaic.PureOps.Ideal

noncomputable section

namespace Cert.Ops

open Idealize.ShloMosaic Idealize.ShloMosaic.TcCoe

/-- Vectors of 32-bit words and of extended reals over a shape. -/
abbrev I32 (S : Shape) := (⟨S, .i32⟩ : BufTy).Contents (Elt Ideal)
abbrev F32 (S : Shape) := (⟨S, .f32⟩ : BufTy).Contents (Elt Ideal)

/-- The segment words, a negative word increased by 128, as a column (kernel records). -/
abbrev segColK (x6 : I32 Cert.KernelIdeal.S40000) : I32 Cert.KernelIdeal.S40000x1 :=
  broadcastInDim Cert.KernelIdeal.S40000x1 ![0] Cert.KernelIdeal.Gen.bcast_S40000_S40000x1_0
    (select (cmpi .slt x6 (broadcastInDim Cert.KernelIdeal.S40000 ![] Cert.KernelIdeal.Gen.bcast_S_S40000 (constantI Cert.KernelIdeal.S_ 32 0#32)))
      (addi x6 (broadcastInDim Cert.KernelIdeal.S40000 ![] Cert.KernelIdeal.Gen.bcast_S_S40000 (constantI Cert.KernelIdeal.S_ 32 128#32))) x6)

/-- The same column with the reference's records. -/
abbrev segColR (x6 : I32 Cert.ReferenceIdeal.S40000) : I32 Cert.ReferenceIdeal.S40000x1 :=
  broadcastInDim Cert.ReferenceIdeal.S40000x1 ![0] Cert.ReferenceIdeal.Gen.bcast_S40000_S40000x1_0
    (select (cmpi .slt x6 (broadcastInDim Cert.ReferenceIdeal.S40000 ![] Cert.ReferenceIdeal.Gen.bcast_S_S40000 (constantI Cert.ReferenceIdeal.S_ 32 0#32)))
      (addi x6 (broadcastInDim Cert.ReferenceIdeal.S40000 ![] Cert.ReferenceIdeal.Gen.bcast_S_S40000 (constantI Cert.ReferenceIdeal.S_ 32 128#32))) x6)

/-- The 128 root words, a negative word increased by 40000, as a column (kernel records). -/
abbrev rootColK (x7 : I32 Cert.KernelIdeal.S128) : I32 Cert.KernelIdeal.S128x1 :=
  broadcastInDim Cert.KernelIdeal.S128x1 ![0] Cert.KernelIdeal.Gen.bcast_S128_S128x1_0
    (select (cmpi .slt x7 (broadcastInDim Cert.KernelIdeal.S128 ![] Cert.KernelIdeal.Gen.bcast_S_S128 (constantI Cert.KernelIdeal.S_ 32 0#32)))
      (addi x7 (broadcastInDim Cert.KernelIdeal.S128 ![] Cert.KernelIdeal.Gen.bcast_S_S128 (constantI Cert.KernelIdeal.S_ 32 40000#32))) x7)

/-- The root word of each node's segment: the root words gathered by the segment column (reference records). -/
abbrev rootOfSegR (x6 : I32 Cert.ReferenceIdeal.S40000) (x7 : I32 Cert.ReferenceIdeal.S128) : I32 Cert.ReferenceIdeal.S40000 :=
  Host.gather Cert.ReferenceIdeal.gather_S128_S40000x1_S40000_n_0_n_n_0_1_1 x7 (segColR x6)

/-- That per-node root word, a negative word increased by 40000, as a column (reference records). -/
abbrev nodeRootColR (x6 : I32 Cert.ReferenceIdeal.S40000) (x7 : I32 Cert.ReferenceIdeal.S128) : I32 Cert.ReferenceIdeal.S40000x1 :=
  broadcastInDim Cert.ReferenceIdeal.S40000x1 ![0] Cert.ReferenceIdeal.Gen.bcast_S40000_S40000x1_0
    (select (cmpi .slt (rootOfSegR x6 x7) (broadcastInDim Cert.ReferenceIdeal.S40000 ![] Cert.ReferenceIdeal.Gen.bcast_S_S40000 (constantI Cert.ReferenceIdeal.S_ 32 0#32)))
      (addi (rootOfSegR x6 x7) (broadcastInDim Cert.ReferenceIdeal.S40000 ![] Cert.ReferenceIdeal.Gen.bcast_S_S40000 (constantI Cert.ReferenceIdeal.S_ 32 40000#32))) (rootOfSegR x6 x7))

end Cert.Ops

end
-- ==== Proof.LibRowGather.lean ====
/-
  A gather of whole rows, read at an index.

  What `x[idx]` of a matrix `x : [N, C]` at a vector of row numbers lowers to: a gather with offset axis 1, the
  collapsed slice axis 0, start index map `[0]`, slice sizes `[1, C]`, over the indices as a column `[R, 1]`.
  Result element `(r, q)` is `x` at row `idx[r, 0]` (read signed, clamped into `[0, N − 1]`) and column `q`: the
  gather selects whole rows, so any function applied row by row commutes with it.
-/
import Idealize.ShloMosaic.Lib.ValueIdx

noncomputable section

namespace Idealize.ShloMosaic.ValueIdx

section RowGather
variable {α : Type}

/-- Those dimension numbers for an operand `[N, C]`, start indices `[R, 1]` and result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row `r` reads: its start index, read signed and clamped into `[0, N − 1]`. -/
def gatherRow {N R w : Nat} (hN : 0 < N) (idx : IVec ⟨2, ![R, 1]⟩ w) (r : Fin R) : Fin N :=
  ⟨min (idx (ix2 r (0 : Fin 1))).toInt.toNat (N - 1), by omega⟩

/-- THE ROW GATHER READ AT `(r, q)`: the operand at the row `r` reads and the same column. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowGatherDims N R C wf) x idx (ix2 r q) = x (ix2 (gatherRow hN idx r) q) := by
  unfold Host.gather
  congr 1
  funext a
  refine Fin.ext ?_
  match a with
  | ⟨0, _⟩ =>
    show (rowGatherDims N R C wf).start (ix2 r q) idx 0 + (rowGatherDims N R C wf).batchCoord (ix2 r q) 0
      + (rowGatherDims N R C wf).offCoord (ix2 r q) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r q) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r q) idx 1 + (rowGatherDims N R C wf).batchCoord (ix2 r q) 1
      + (rowGatherDims N R C wf).offCoord (ix2 r q) 1 = q.val
    have hmem : (1 : Fin 2) ∈ (rowGatherDims N R C wf).sKept :=
      (GatherDims.mem_sKept _ _).mpr ⟨show (1 : Fin 2) ∉ [(0 : Fin 2)] by decide, List.not_mem_nil⟩
    have hnot : (1 : Fin 2) ∉ (rowGatherDims N R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather

end Idealize.ShloMosaic.ValueIdx

end
-- ==== Proof.LibRowScatterAdd.lean ====
/-
  An accumulating scatter of whole rows, read at an index on the extended reals.

  `segment_sum(upd, idx)` of rows `upd : [R, C]` into `[N, C]` lowers to a scatter with an `add` body, update window
  axis 1, inserted window axis 0, the scatter index naming operand axis 0, over the indices as a column `[R, 1]`.
  Update element `(r, q')` lands on operand element `(idx[r, 0], q')` (the index read signed, NOT clamped; outside
  `[0, N)` the update is dropped). So element `(n, q)` of the result is the operand's plus the sum over the rows `r`
  whose index is `n` of `upd (r, q)`: columns never mix, which is why scattering rows laid side by side is scattering
  each part on its own.
-/
import Idealize.ShloMosaic.Lib.ValueIdx
import Idealize.ShloMosaic.PureOps.Ideal.Laws

noncomputable section

namespace Idealize.ShloMosaic.ValueIdx

section RowScatterAdd

/-- Those dimension numbers for an operand `[N, C]`, scatter indices `[R, 1]` and updates `[R, C]`. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Operand axis 1 is not an inserted window axis: it is the one axis the update window runs over. -/
theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

/-- Operand axis 0 is the inserted window axis. -/
theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

/-- On operand axis 0 the window coordinate is `0`. -/
theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

/-- On operand axis 1 the window coordinate is the update's column `q'`. -/
theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

/-- On operand axis 1, which the scatter index does not name, the window starts at `0`. -/
theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

/-- On operand axis 0 the window starts at row `r`'s index `idx[r, 0]`, read signed. -/
theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `(r, q')` lands on `(n, q)` iff row `r`'s index, read signed, is `n`, and the columns agree. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- THE ROW SCATTER-ADD READ AT `(n, q)` on the extended reals: the operand's element plus the sum, over the rows whose
    index is `n`, of the update's element in column `q`. -/
theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.SegScatter.lean ====
/-
  Two readings of one sum.
  * The segment sums by a one-hot test (entry (b, q) adds h[n, q] over the nodes n whose segment word IS the word of b)
    are the accumulating scatter of the rows of h by the segment words into zeros (entry (b, q) adds h[n, q] over the
    nodes n whose word, read signed, equals b; a word outside 0..127 lands nowhere): for b < 128 a 32-bit word read signed
    equals b exactly when it is the word of b, and 0 + s = s.
  * The matrix product with the right factor first rounded to another float format is the plain contraction: on the
    extended reals a change of format is the identity.
-/
import proofs.«418250_j22643067584840_1_alg».proof.Proof.Ops
import proofs.«418250_j22643067584840_1_alg».proof.Proof.Spec
import proofs.«418250_j22643067584840_1_alg».proof.Proof.LibRowGather
import proofs.«418250_j22643067584840_1_alg».proof.Proof.LibRowScatterAdd
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.TcCoe Idealize.ShloMosaic.ValueIdx Cert.Ops
open scoped BigOperators

/-! ## Words -/

/-- The 32-bit word of a number below 128, read signed, is that number. -/
theorem toInt_word (b : Fin 128) : (BitVec.ofNat 32 b.val).toInt = (b.val : Int) := by
  have hb := b.isLt
  rw [BitVec.toInt_eq_toNat_cond, BitVec.toNat_ofNat, Nat.mod_eq_of_lt (by omega)]
  rw [if_pos (by omega)]

/-- A 32-bit word read signed equals a number below 128 exactly when it is that number's word: reading signed is
    injective. -/
theorem toInt_eq_iff_word (w : BitVec 32) (b : Fin 128) :
    w.toInt = (b.val : Int) ↔ w = BitVec.ofNat 32 b.val := by
  constructor
  · intro h
    exact BitVec.eq_of_toInt_eq (h.trans (toInt_word b).symm)
  · rintro rfl
    exact toInt_word b

/-! ## The segment sums -/

/-- The scatter's operand, zeros broadcast from the scalar zero, is 0 at every index. -/
theorem zeros_apply (j : Cert.ReferenceIdeal.S128x128.Idx) :
    broadcastInDim Cert.ReferenceIdeal.S128x128 ![] Cert.ReferenceIdeal.Gen.bcast_S_S128x128
      (constant (F := Ideal) Cert.ReferenceIdeal.S_ .f32 0x00000000#32) j = 0 := by
  refine (broadcastInDim_apply _ Cert.ReferenceIdeal.Gen.bcast_S_S128x128 _ j ix0 (fun a => a.elim0)).trans ?_
  exact Ideal.ofBits_zero_f32

/-- Over ANY column of words: the one-hot segment sums at (b, q) are the accumulating row scatter into zeros at (b, q). -/
theorem seg_eq_scatter_at (c : I32 Cert.ReferenceIdeal.S40000x1) (H : F32 Cert.ReferenceIdeal.S40000x128) (b q : Fin 128) :
    Cert.Spec.seg c H (ix2 b q)
    = Host.scatterAdd (F := Ideal) Cert.ReferenceIdeal.scatter_S128x128_S40000x1_S40000x128_1_0_0_1
        (broadcastInDim Cert.ReferenceIdeal.S128x128 ![] Cert.ReferenceIdeal.Gen.bcast_S_S128x128 (constant (F := Ideal) Cert.ReferenceIdeal.S_ .f32 0x00000000#32))
        c H (ix2 b q) := by
  refine Eq.trans ?_ (rowScatterAdd_apply (N := 128) (R := 40000) (C := 128)
    Cert.ReferenceIdeal.Gen.scatter_S128x128_S40000x1_S40000x128_1_0_0_1_wf _ c H b q).symm
  rw [zeros_apply, zero_add]
  show (∑ n : Fin 40000, if c (ix2 n (0 : Fin 1)) = BitVec.ofNat 32 b.val then H (ix2 n q) else 0) = _
  refine Finset.sum_congr rfl fun n _ => ?_
  exact if_congr (toInt_eq_iff_word _ b).symm rfl rfl

/-- The one-hot segment sums are the accumulating scatter into zeros. -/
theorem seg_eq_scatter (x6 : I32 Cert.ReferenceIdeal.S40000) (H : F32 Cert.ReferenceIdeal.S40000x128) :
    Cert.Spec.seg (broadcastInDim Cert.KernelIdeal.S40000x1 ![0] Cert.KernelIdeal.Gen.bcast_S40000_S40000x1_0 x6) H
    = Host.scatterAdd (F := Ideal) Cert.ReferenceIdeal.scatter_S128x128_S40000x1_S40000x128_1_0_0_1
        (broadcastInDim Cert.ReferenceIdeal.S128x128 ![] Cert.ReferenceIdeal.Gen.bcast_S_S128x128 (constant (F := Ideal) Cert.ReferenceIdeal.S_ .f32 0x00000000#32))
        (broadcastInDim Cert.ReferenceIdeal.S40000x1 ![0] Cert.ReferenceIdeal.Gen.bcast_S40000_S40000x1_0 x6) H := by
  funext i
  obtain ⟨b, q, rfl⟩ : ∃ (b q : Fin 128), i = ix2 b q := ⟨i 0, i 1, eq_ix2 i⟩
  -- the two programs' columns are one function: they differ only in the shape fact each cites
  have hcol : broadcastInDim Cert.KernelIdeal.S40000x1 ![0] Cert.KernelIdeal.Gen.bcast_S40000_S40000x1_0 x6
      = broadcastInDim Cert.ReferenceIdeal.S40000x1 ![0] Cert.ReferenceIdeal.Gen.bcast_S40000_S40000x1_0 x6 := rfl
  rw [hcol]
  exact seg_eq_scatter_at _ H b q

/-! ## The matrix product -/

/-- Left operand, axis 0: the result's row. -/
theorem mm_lhs_0 (i : Cert.ReferenceIdeal.S40000x64.Idx) (k : Cert.ReferenceIdeal.dot_S40000x5000_S5000x64_S40000x64_1_0_0_1_n_n.contr.Idx) :
    (Cert.ReferenceIdeal.dot_S40000x5000_S5000x64_S40000x64_1_0_0_1_n_n.lhsIdx i k 0).val = (i 0).val := by
  unfold DotDims.lhsIdx
  rw [dif_neg (show ¬(0 : Fin Cert.ReferenceIdeal.S40000x5000.rank) ∈ Cert.ReferenceIdeal.dot_S40000x5000_S5000x64_S40000x64_1_0_0_1_n_n.lhsBatch by decide),
    dif_pos (show (0 : Fin Cert.ReferenceIdeal.S40000x5000.rank) ∈ Cert.ReferenceIdeal.dot_S40000x5000_S5000x64_S40000x64_1_0_0_1_n_n.lhsNonContracting by decide)]
  rfl

/-- Left operand, axis 1: the contracted coordinate. -/
theorem mm_lhs_1 (i : Cert.ReferenceIdeal.S40000x64.Idx) (k : Cert.ReferenceIdeal.dot_S40000x5000_S5000x64_S40000x64_1_0_0_1_n_n.contr.Idx) :
    (Cert.ReferenceIdeal.dot_S40000x5000_S5000x64_S40000x64_1_0_0_1_n_n.lhsIdx i k 1).val = (k ⟨0, by decide⟩).val :=
  Cert.ReferenceIdeal.dot_S40000x5000_S5000x64_S40000x64_1_0_0_1_n_n.lhsIdx_val_of_single rfl i k

/-- Right operand, axis 0: the contracted coordinate. -/
theorem mm_rhs_0 (i : Cert.ReferenceIdeal.S40000x64.Idx) (k : Cert.ReferenceIdeal.dot_S40000x5000_S5000x64_S40000x64_1_0_0_1_n_n.contr.Idx) :
    (Cert.ReferenceIdeal.dot_S40000x5000_S5000x64_S40000x64_1_0_0_1_n_n.rhsIdx i k 0).val = (k ⟨0, by decide⟩).val :=
  Cert.ReferenceIdeal.dot_S40000x5000_S5000x64_S40000x64_1_0_0_1_n_n.rhsIdx_val_of_single rfl i k

/-- Right operand, axis 1: the result's column. -/
theorem mm_rhs_1 (i : Cert.ReferenceIdeal.S40000x64.Idx) (k : Cert.ReferenceIdeal.dot_S40000x5000_S5000x64_S40000x64_1_0_0_1_n_n.contr.Idx) :
    (Cert.ReferenceIdeal.dot_S40000x5000_S5000x64_S40000x64_1_0_0_1_n_n.rhsIdx i k 1).val = (i 1).val := by
  unfold DotDims.rhsIdx
  rw [dif_neg (show ¬(1 : Fin Cert.ReferenceIdeal.S5000x64.rank) ∈ Cert.ReferenceIdeal.dot_S40000x5000_S5000x64_S40000x64_1_0_0_1_n_n.rhsBatch by decide),
    dif_pos (show (1 : Fin Cert.ReferenceIdeal.S5000x64.rank) ∈ Cert.ReferenceIdeal.dot_S40000x5000_S5000x64_S40000x64_1_0_0_1_n_n.rhsNonContracting by decide)]
  rfl

/-- The contraction read at (r, j): the sum over the 5000 features k of x0[r, k] · x1[k, j]. -/
theorem dot_at (x0 : F32 Cert.ReferenceIdeal.S40000x5000) (x1 : F32 Cert.ReferenceIdeal.S5000x64) (r : Fin 40000) (j : Fin 64) :
    Host.dotGeneral (F := Ideal) (φ₁ := .f32) (φ₂ := .f32) Cert.ReferenceIdeal.dot_S40000x5000_S5000x64_S40000x64_1_0_0_1_n_n none x0 x1 (ix2 r j)
    = ∑ k : Fin 5000, x0 (ix2 r k) * x1 (ix2 k j) := by
  simp only [Host.dotGeneral]
  rw [Ideal.dotGeneral_apply, ← Equiv.sum_comp (contrEquiv1 Cert.ReferenceIdeal.dot_S40000x5000_S5000x64_S40000x64_1_0_0_1_n_n 5000 rfl rfl).symm]
  refine Finset.sum_congr rfl fun k _ => ?_
  have hk := contrEquiv1_symm_val Cert.ReferenceIdeal.dot_S40000x5000_S5000x64_S40000x64_1_0_0_1_n_n 5000 rfl rfl k
  have el : Cert.ReferenceIdeal.dot_S40000x5000_S5000x64_S40000x64_1_0_0_1_n_n.lhsIdx (ix2 r j) ((contrEquiv1 Cert.ReferenceIdeal.dot_S40000x5000_S5000x64_S40000x64_1_0_0_1_n_n 5000 rfl rfl).symm k) = ix2 r k :=
    funext fun a => Fin.ext (by
      match a with
      | ⟨0, _⟩ => exact mm_lhs_0 _ _
      | ⟨1, _⟩ => exact (mm_lhs_1 _ _).trans hk)
  have er : Cert.ReferenceIdeal.dot_S40000x5000_S5000x64_S40000x64_1_0_0_1_n_n.rhsIdx (ix2 r j) ((contrEquiv1 Cert.ReferenceIdeal.dot_S40000x5000_S5000x64_S40000x64_1_0_0_1_n_n 5000 rfl rfl).symm k) = ix2 k j :=
    funext fun a => Fin.ext (by
      match a with
      | ⟨0, _⟩ => exact (mm_rhs_0 _ _).trans hk
      | ⟨1, _⟩ => exact mm_rhs_1 _ _)
  rw [el, er]

/-- The product of x0 with x1 rounded to bf16 is, on the extended reals, the contraction of x0 with x1. -/
theorem mm_eq_dot (x0 : F32 Cert.ReferenceIdeal.S40000x5000) (x1 : F32 Cert.ReferenceIdeal.S5000x64) :
    Cert.Spec.mm x0 (truncf (F := Ideal) .bf16 x1 Cert.KernelIdeal.Gen.bitsLt_bf16_f32)
    = Host.dotGeneral (F := Ideal) (φ₁ := .f32) (φ₂ := .f32) Cert.ReferenceIdeal.dot_S40000x5000_S5000x64_S40000x64_1_0_0_1_n_n none x0 x1 := by
  funext i
  obtain ⟨r, j, rfl⟩ : ∃ (r : Fin 40000) (j : Fin 64), i = ix2 r j := ⟨i 0, i 1, eq_ix2 i⟩
  refine Eq.trans ?_ (dot_at x0 x1 r j).symm
  -- on the extended reals a change of float format is the identity
  show (∑ k : Fin 5000, x0 (ix2 r k) * (truncf (F := Ideal) .bf16 x1 Cert.KernelIdeal.Gen.bitsLt_bf16_f32) (ix2 k j)) = _
  refine Finset.sum_congr rfl fun k _ => ?_
  rw [truncf_apply]

end Cert.Bridge

end
-- ==== Proof.NodeRoot.lean ====
/-
  Which row of a 40000-row array a node reads through its segment's root.
  The kernel looks the root word up in two steps (the segment word of node n, normalised and clamped into 0..127,
  names a root word; that root word, normalised and clamped into 0..39999, names the row); the reference gathers the
  root words by the segment words first and normalises and clamps the result. Both name the same row.
-/
import proofs.«418250_j22643067584840_1_alg».proof.Proof.Ops
import proofs.«418250_j22643067584840_1_alg».proof.Proof.Spec
import proofs.«418250_j22643067584840_1_alg».proof.Proof.LibRowGather
import proofs.«418250_j22643067584840_1_alg».proof.Proof.LibRowScatterAdd
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.TcCoe Idealize.ShloMosaic.ValueIdx Cert.Ops
open scoped BigOperators

/-! ## A gather of single elements of a vector, read at an index

What `x[idx]` of a vector `x : [N]` at a vector of positions lowers to: a gather with no offset axis, the collapsed
slice axis 0, start index map `[0]`, slice sizes `[1]`, over the positions as a column `[R, 1]`. Result element `r`
is `x` at position `idx[r, 0]`, read signed and clamped into `[0, N − 1]`: the same position a whole-row gather
of an `N`-row array reads its row from. -/

section VecGather
variable {α : Type}

/-- Those dimension numbers for an operand `[N]`, start indices `[R, 1]` and result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `r`: the operand at the position `r` reads. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGatherDims N R wf) x idx (ix1 r) = x (ix1 (gatherRow hN idx r)) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = min (idx (ix2 r (0 : Fin 1))).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end VecGather

/-! ## The normalised word of a column -/

/-- A word indexing an axis of extent `k`, a negative one increased by `k`. -/
def normWord (k w : BitVec 32) : BitVec 32 :=
  Scalar.select (IntOp.cmpi .slt w 0#32) (IntOp.addi w k) w

/-- The reference's per-node root column at `(n, 0)`: the normalised root word of n's segment. -/
theorem nodeRootColR_apply (x6 : I32 Cert.ReferenceIdeal.S40000) (x7 : I32 Cert.ReferenceIdeal.S128) (n : Fin 40000) :
    nodeRootColR x6 x7 (ix2 n (0 : Fin 1)) = normWord 40000#32 (rootOfSegR x6 x7 (ix1 n)) := by
  refine (broadcastInDim_apply _ Cert.ReferenceIdeal.Gen.bcast_S40000_S40000x1_0 _ (ix2 n (0 : Fin 1)) (ix1 n) ?_).trans ?_
  · intro a
    match a with
    | ⟨0, _⟩ =>
      show n.val = if (40000 : Nat) = 1 then 0 else n.val
      rw [if_neg (by decide)]
  · rfl

/-- The kernel's root column at `(m, 0)`: the normalised root word `m`. -/
theorem rootColK_apply (x7 : I32 Cert.KernelIdeal.S128) (m : Fin 128) :
    rootColK x7 (ix2 m (0 : Fin 1)) = normWord 40000#32 (x7 (ix1 m)) := by
  refine (broadcastInDim_apply _ Cert.KernelIdeal.Gen.bcast_S128_S128x1_0 _ (ix2 m (0 : Fin 1)) (ix1 m) ?_).trans ?_
  · intro a
    match a with
    | ⟨0, _⟩ =>
      show m.val = if (128 : Nat) = 1 then 0 else m.val
      rw [if_neg (by decide)]
  · rfl

/-- The root word of n's segment is the root word at the table row the segment column names at n. -/
theorem rootOfSegR_apply (x6 : I32 Cert.ReferenceIdeal.S40000) (x7 : I32 Cert.ReferenceIdeal.S128) (n : Fin 40000) :
    rootOfSegR x6 x7 (ix1 n) = x7 (ix1 (gatherRow (N := 128) (by decide) (segColR x6) n)) :=
  vecGather_apply (N := 128) (R := 40000) (by decide) _ x7 (segColR x6) n

/-- The two programs' segment columns are one column: they differ only in which program's shape facts they cite. -/
theorem segCol_row (x6 : I32 Cert.ReferenceIdeal.S40000) (n : Fin 40000) :
    gatherRow (N := 128) (by decide) (segColR x6) n = gatherRow (N := 128) (by decide) (segColK x6) n := rfl

/-- The row the reference's per-node root column names at node n is the row the kernel's root column names at the
    table row the segment column names at n. -/
theorem node_root_row (x6 : I32 Cert.ReferenceIdeal.S40000) (x7 : I32 Cert.ReferenceIdeal.S128) (n : Fin 40000) :
    gatherRow (N := 40000) (by decide) (nodeRootColR x6 x7) n
    = gatherRow (N := 40000) (by decide) (rootColK x7) (gatherRow (N := 128) (by decide) (segColK x6) n) := by
  refine Fin.ext ?_
  show min (nodeRootColR x6 x7 (ix2 n (0 : Fin 1))).toInt.toNat (40000 - 1)
    = min (rootColK x7 (ix2 (gatherRow (N := 128) (by decide) (segColK x6) n) (0 : Fin 1))).toInt.toNat (40000 - 1)
  rw [nodeRootColR_apply, rootColK_apply, rootOfSegR_apply, segCol_row]

end Cert.Bridge

end
-- ==== Proof.SplitDot.lean ====
/-
  The second layer's linear map, split. The reference multiplies relu of the 5064-wide rows [X[n, :], x0[root(n), :]]
  by the whole weight x3 : [5064, 64]. The kernel multiplies relu(X) by the first 64 rows of x3, and adds, gathered by
  the segment words, the 128-row table relu(x0[root words, :]) times the last 5000 rows of x3. Entry (n, j) of either
  is  Σ_{k<64} relu(X[n,k])·x3[k,j] + Σ_{k<5000} relu(x0[root(n),k])·x3[64+k,j]: a sum over 5064 = 64 + 5000 terms split
  at 64 (sums on the extended reals are sums in a commutative monoid: no finiteness is used), relu taken entry by
  entry, and the row gather commuting with both.
-/
import proofs.«418250_j22643067584840_1_alg».proof.Proof.Ops
import proofs.«418250_j22643067584840_1_alg».proof.Proof.Spec
import proofs.«418250_j22643067584840_1_alg».proof.Proof.LibRowGather
import proofs.«418250_j22643067584840_1_alg».proof.Proof.LibRowScatterAdd
import proofs.«418250_j22643067584840_1_alg».proof.Proof.NodeRoot
import Idealize.ShloMosaic.Lib.ValueIdx
import Idealize.ShloMosaic.Lib.Pipeline.Value
import Idealize.ShloMosaic.PureOps.Ideal.Laws
import Mathlib.Algebra.BigOperators.Fin

noncomputable section

namespace Cert.Bridge

open Idealize.ShloMosaic Idealize.ShloMosaic.TcCoe Idealize.ShloMosaic.ValueIdx Cert.Ops
open scoped BigOperators

/-- A product of an [M, K] matrix by a [K, N] matrix read at (n, j): the sum over the K contracted positions. The four
    hypotheses say which output or contraction coordinate each operand coordinate is. -/
theorem plainDot_apply {M K N : Nat} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (L : FVec Ideal ⟨2, ![M, K]⟩ .f32) (R : FVec Ideal ⟨2, ![K, N]⟩ .f32) (n : Fin M) (j : Fin N) :
    Host.dotGeneral (F := Ideal) (φ₁ := .f32) (φ₂ := .f32) D none L R (ix2 n j)
      = ∑ k : Fin K, L (ix2 n k) * R (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 n j) ((contrEquiv1 D K hr hs).symm k) = ix2 n k := funext fun a => Fin.ext (by
    match a with
    | ⟨0, _⟩ => exact l0 _ _
    | ⟨1, _⟩ => exact (l1 _ _).trans hk)
  have er : D.rhsIdx (ix2 n j) ((contrEquiv1 D K hr hs).symm k) = ix2 k j := funext fun a => Fin.ext (by
    match a with
    | ⟨0, _⟩ => exact (r0 _ _).trans hk
    | ⟨1, _⟩ => exact r1 _ _)
  rw [el, er]

/-- The kernel's first product, [40000, 64] by [64, 64], at (n, j). -/
theorem dotA_apply (L : F32 Cert.KernelIdeal.S40000x64) (R : F32 Cert.KernelIdeal.S64x64) (n : Fin 40000) (j : Fin 64) :
    Host.dotGeneral (F := Ideal) (φ₁ := .f32) (φ₂ := .f32) Cert.KernelIdeal.dot_S40000x64_S64x64_S40000x64_1_0_0_1_n_n none L R (ix2 n j)
      = ∑ k : Fin 64, L (ix2 n k) * R (ix2 k j) := by
  refine plainDot_apply Cert.KernelIdeal.dot_S40000x64_S64x64_S40000x64_1_0_0_1_n_n rfl rfl ?_ ?_ ?_ ?_ L R n j
  · intro i q
    unfold DotDims.lhsIdx
    rw [dif_neg (show ¬(0 : Fin Cert.KernelIdeal.S40000x64.rank) ∈ Cert.KernelIdeal.dot_S40000x64_S64x64_S40000x64_1_0_0_1_n_n.lhsBatch by decide),
      dif_pos (show (0 : Fin Cert.KernelIdeal.S40000x64.rank) ∈ Cert.KernelIdeal.dot_S40000x64_S64x64_S40000x64_1_0_0_1_n_n.lhsNonContracting by decide)]
    rfl
  · intro i q
    exact Cert.KernelIdeal.dot_S40000x64_S64x64_S40000x64_1_0_0_1_n_n.lhsIdx_val_of_single rfl i q
  · intro i q
    exact Cert.KernelIdeal.dot_S40000x64_S64x64_S40000x64_1_0_0_1_n_n.rhsIdx_val_of_single rfl i q
  · intro i q
    unfold DotDims.rhsIdx
    rw [dif_neg (show ¬(1 : Fin Cert.KernelIdeal.S64x64.rank) ∈ Cert.KernelIdeal.dot_S40000x64_S64x64_S40000x64_1_0_0_1_n_n.rhsBatch by decide),
      dif_pos (show (1 : Fin Cert.KernelIdeal.S64x64.rank) ∈ Cert.KernelIdeal.dot_S40000x64_S64x64_S40000x64_1_0_0_1_n_n.rhsNonContracting by decide)]
    rfl

/-- The kernel's table product, [128, 5000] by [5000, 64], at (r, j). -/
theorem dotB_apply (L : F32 Cert.KernelIdeal.S128x5000) (R : F32 Cert.KernelIdeal.S5000x64) (n : Fin 128) (j : Fin 64) :
    Host.dotGeneral (F := Ideal) (φ₁ := .f32) (φ₂ := .f32) Cert.KernelIdeal.dot_S128x5000_S5000x64_S128x64_1_0_0_1_n_n none L R (ix2 n j)
      = ∑ k : Fin 5000, L (ix2 n k) * R (ix2 k j) := by
  refine plainDot_apply Cert.KernelIdeal.dot_S128x5000_S5000x64_S128x64_1_0_0_1_n_n rfl rfl ?_ ?_ ?_ ?_ L R n j
  · intro i q
    unfold DotDims.lhsIdx
    rw [dif_neg (show ¬(0 : Fin Cert.KernelIdeal.S128x5000.rank) ∈ Cert.KernelIdeal.dot_S128x5000_S5000x64_S128x64_1_0_0_1_n_n.lhsBatch by decide),
      dif_pos (show (0 : Fin Cert.KernelIdeal.S128x5000.rank) ∈ Cert.KernelIdeal.dot_S128x5000_S5000x64_S128x64_1_0_0_1_n_n.lhsNonContracting by decide)]
    rfl
  · intro i q
    exact Cert.KernelIdeal.dot_S128x5000_S5000x64_S128x64_1_0_0_1_n_n.lhsIdx_val_of_single rfl i q
  · intro i q
    exact Cert.KernelIdeal.dot_S128x5000_S5000x64_S128x64_1_0_0_1_n_n.rhsIdx_val_of_single rfl i q
  · intro i q
    unfold DotDims.rhsIdx
    rw [dif_neg (show ¬(1 : Fin Cert.KernelIdeal.S5000x64.rank) ∈ Cert.KernelIdeal.dot_S128x5000_S5000x64_S128x64_1_0_0_1_n_n.rhsBatch by decide),
      dif_pos (show (1 : Fin Cert.KernelIdeal.S5000x64.rank) ∈ Cert.KernelIdeal.dot_S128x5000_S5000x64_S128x64_1_0_0_1_n_n.rhsNonContracting by decide)]
    rfl

/-- The reference's product, [40000, 5064] by [5064, 64], at (n, j). -/
theorem dotR_apply (L : F32 Cert.ReferenceIdeal.S40000x5064) (R : F32 Cert.ReferenceIdeal.S5064x64) (n : Fin 40000) (j : Fin 64) :
    Host.dotGeneral (F := Ideal) (φ₁ := .f32) (φ₂ := .f32) Cert.ReferenceIdeal.dot_S40000x5064_S5064x64_S40000x64_1_0_0_1_n_n none L R (ix2 n j)
      = ∑ k : Fin 5064, L (ix2 n k) * R (ix2 k j) := by
  refine plainDot_apply Cert.ReferenceIdeal.dot_S40000x5064_S5064x64_S40000x64_1_0_0_1_n_n rfl rfl ?_ ?_ ?_ ?_ L R n j
  · intro i q
    unfold DotDims.lhsIdx
    rw [dif_neg (show ¬(0 : Fin Cert.ReferenceIdeal.S40000x5064.rank) ∈ Cert.ReferenceIdeal.dot_S40000x5064_S5064x64_S40000x64_1_0_0_1_n_n.lhsBatch by decide),
      dif_pos (show (0 : Fin Cert.ReferenceIdeal.S40000x5064.rank) ∈ Cert.ReferenceIdeal.dot_S40000x5064_S5064x64_S40000x64_1_0_0_1_n_n.lhsNonContracting by decide)]
    rfl
  · intro i q
    exact Cert.ReferenceIdeal.dot_S40000x5064_S5064x64_S40000x64_1_0_0_1_n_n.lhsIdx_val_of_single rfl i q
  · intro i q
    exact Cert.ReferenceIdeal.dot_S40000x5064_S5064x64_S40000x64_1_0_0_1_n_n.rhsIdx_val_of_single rfl i q
  · intro i q
    unfold DotDims.rhsIdx
    rw [dif_neg (show ¬(1 : Fin Cert.ReferenceIdeal.S5064x64.rank) ∈ Cert.ReferenceIdeal.dot_S40000x5064_S5064x64_S40000x64_1_0_0_1_n_n.rhsBatch by decide),
      dif_pos (show (1 : Fin Cert.ReferenceIdeal.S5064x64.rank) ∈ Cert.ReferenceIdeal.dot_S40000x5064_S5064x64_S40000x64_1_0_0_1_n_n.rhsNonContracting by decide)]
    rfl

/-- Row k of the first 64 rows of a 5064-row array, and row 64 + k of its last 5000 rows. -/
abbrev topRow (k : Fin 64) : Fin 5064 := ⟨k.val, by omega⟩
abbrev botRow (k : Fin 5000) : Fin 5064 := ⟨64 + k.val, by omega⟩

/-- A sum over the 5064 rows is the sum over the first 64 plus the sum over the last 5000 (5064 = 64 + 5000; a sum in
    a commutative monoid, so nothing about finiteness of the terms is used). -/
theorem sum_split_rows (f : Fin 5064 → EReal) :
    ∑ k, f k = ∑ k : Fin 64, f (topRow k) + ∑ k : Fin 5000, f (botRow k) :=
  Fin.sum_univ_add (a := 64) (b := 5000) f

/-- relu written as the maximum with the f32 zero splat, at an index: the larger of the entry and 0. -/
theorem reluSplat_apply {t : Shape} (h : (⟨0, ![]⟩ : Shape).BroadcastsInDim t (![] : Fin 0 → Fin t.rank))
    (A : FVec Ideal t .f32) (i : t.Idx) :
    maximumf (F := Ideal) A (broadcastInDim t ![] h (constant (F := Ideal) ⟨0, ![]⟩ .f32 0x00000000#32)) i = max (A i) 0 := by
  rw [maximumf_apply]
  refine congrArg (max (A i)) ?_
  refine (broadcastInDim_apply ![] h (constant (F := Ideal) ⟨0, ![]⟩ .f32 0x00000000#32) i ix0 (fun a => a.elim0)).trans ?_
  exact (constant_apply (s := ⟨0, ![]⟩) (φ := .f32) 0x00000000#32 ix0).trans Ideal.ofBits_zero_f32

/-- The slice of the weight's first 64 rows at (k, j) is the weight at (k, j). -/
theorem sliceTop_apply (x3 : F32 Cert.ReferenceIdeal.S5064x64) (k : Fin 64) (j : Fin 64) :
    (extractStridedSlice Cert.KernelIdeal.S64x64 ![0, 0] x3 Cert.KernelIdeal.Gen.slices_S5064x64_S64x64_0_0 : F32 Cert.KernelIdeal.S64x64) (ix2 k j)
      = x3 (ix2 (topRow k) j) := by
  refine extractStridedSlice_apply _ x3 _ (ix2 k j) (ix2 (topRow k) j) fun a => ?_
  match a with
  | ⟨0, _⟩ => show k.val = 0 + k.val; omega
  | ⟨1, _⟩ => show j.val = 0 + j.val; omega

/-- The slice of the weight's last 5000 rows at (k, j) is the weight at (64 + k, j). -/
theorem sliceBot_apply (x3 : F32 Cert.ReferenceIdeal.S5064x64) (k : Fin 5000) (j : Fin 64) :
    (extractStridedSlice Cert.KernelIdeal.S5000x64 ![64, 0] x3 Cert.KernelIdeal.Gen.slices_S5064x64_S5000x64_64_0 : F32 Cert.KernelIdeal.S5000x64) (ix2 k j)
      = x3 (ix2 (botRow k) j) := by
  refine extractStridedSlice_apply _ x3 _ (ix2 k j) (ix2 (botRow k) j) fun a => ?_
  match a with
  | ⟨0, _⟩ => show 64 + k.val = 64 + k.val; rfl
  | ⟨1, _⟩ => show j.val = 0 + j.val; omega

/-- The joined rows [X[n, :], G[n, :]] at a column below 64: X there. -/
theorem joinLeft_apply (X : F32 Cert.ReferenceIdeal.S40000x64) (G : F32 Cert.ReferenceIdeal.S40000x5000) (n : Fin 40000) (k : Fin 64) :
    concatenate Cert.ReferenceIdeal.S40000x5064 1 [⟨Cert.ReferenceIdeal.S40000x64, X⟩, ⟨Cert.ReferenceIdeal.S40000x5000, G⟩]
        Cert.ReferenceIdeal.Gen.concatenates_S40000x64_S40000x5000_S40000x5064_d1 (ix2 n (topRow k))
      = X (ix2 n k) := by
  refine concatenate_pair_apply_left 1 X G _ (ix2 n (topRow k)) rfl (ix2 n k) fun b => ?_
  match b with
  | ⟨0, _⟩ => rfl
  | ⟨1, _⟩ => rfl

/-- The joined rows at column 64 + k: G at column k. -/
theorem joinRight_apply (X : F32 Cert.ReferenceIdeal.S40000x64) (G : F32 Cert.ReferenceIdeal.S40000x5000) (n : Fin 40000) (k : Fin 5000) :
    concatenate Cert.ReferenceIdeal.S40000x5064 1 [⟨Cert.ReferenceIdeal.S40000x64, X⟩, ⟨Cert.ReferenceIdeal.S40000x5000, G⟩]
        Cert.ReferenceIdeal.Gen.concatenates_S40000x64_S40000x5000_S40000x5064_d1 (ix2 n (botRow k))
      = G (ix2 n k) := by
  refine concatenate_pair_apply_right 1 X G _ (ix2 n (botRow k)) rfl rfl (ix2 n k) (fun b hb => ?_) ?_
  · match b with
    | ⟨0, _⟩ => rfl
    | ⟨1, _⟩ => exact absurd rfl hb
  · show k.val + 64 = 64 + k.val
    omega

/-- The gather of the 128-row table by a column of 40000 words, at (n, j): the table at the row the word names. -/
theorem gatherTable_apply (T : F32 Cert.KernelIdeal.S128x64) (idx : I32 Cert.KernelIdeal.S40000x1) (n : Fin 40000) (j : Fin 64) :
    Host.gather Cert.KernelIdeal.gather_S128x64_S40000x1_S40000x64_1_0_n_n_0_1_164 T idx (ix2 n j)
      = T (ix2 (gatherRow (N := 128) (by decide) idx n) j) :=
  rowGather_apply (N := 128) (R := 40000) (C := 64) (by decide) _ T idx n j

/-- The gather of the 40000-row features by a column of 128 words, at (r, k). -/
theorem gatherK_apply (x0 : F32 Cert.ReferenceIdeal.S40000x5000) (idx : I32 Cert.KernelIdeal.S128x1) (r : Fin 128) (k : Fin 5000) :
    Host.gather Cert.KernelIdeal.gather_S40000x5000_S128x1_S128x5000_1_0_n_n_0_1_15000 x0 idx (ix2 r k)
      = x0 (ix2 (gatherRow (N := 40000) (by decide) idx r) k) :=
  rowGather_apply (N := 40000) (R := 128) (C := 5000) (by decide) _ x0 idx r k

/-- The gather of the 40000-row features by a column of 40000 words, at (n, k). -/
theorem gatherR_apply (x0 : F32 Cert.ReferenceIdeal.S40000x5000) (idx : I32 Cert.ReferenceIdeal.S40000x1) (n : Fin 40000) (k : Fin 5000) :
    Host.gather Cert.ReferenceIdeal.gather_S40000x5000_S40000x1_S40000x5000_1_0_n_n_0_1_15000 x0 idx (ix2 n k)
      = x0 (ix2 (gatherRow (N := 40000) (by decide) idx n) k) :=
  rowGather_apply (N := 40000) (R := 40000) (C := 5000) (by decide) _ x0 idx n k

/-- The kernel's first product at (n, j): relu(X) row n against the weight's first 64 rows. -/
theorem kernel_first_at (X : F32 Cert.ReferenceIdeal.S40000x64) (x3 : F32 Cert.ReferenceIdeal.S5064x64) (n : Fin 40000) (j : Fin 64) :
    (Host.dotGeneral (F := Ideal) (φ₁ := .f32) (φ₂ := .f32) Cert.KernelIdeal.dot_S40000x64_S64x64_S40000x64_1_0_0_1_n_n none
        (maximumf (F := Ideal) X (broadcastInDim Cert.KernelIdeal.S40000x64 ![] Cert.KernelIdeal.Gen.bcast_S_S40000x64 (constant (F := Ideal) Cert.KernelIdeal.S_ .f32 0x00000000#32)))
        (extractStridedSlice Cert.KernelIdeal.S64x64 ![0, 0] x3 Cert.KernelIdeal.Gen.slices_S5064x64_S64x64_0_0 : F32 Cert.KernelIdeal.S64x64)) (ix2 n j)
      = ∑ k : Fin 64, max (X (ix2 n k)) 0 * x3 (ix2 (topRow k) j) := by
  refine (dotA_apply _ _ n j).trans ?_
  refine Finset.sum_congr rfl fun k _ => ?_
  rw [reluSplat_apply, sliceTop_apply]

/-- The kernel's table product at (r, j): relu of the features' row named by root word r against the weight's last
    5000 rows. -/
theorem kernel_table_at (x0 : F32 Cert.ReferenceIdeal.S40000x5000) (x3 : F32 Cert.ReferenceIdeal.S5064x64)
    (x7 : I32 Cert.ReferenceIdeal.S128) (r : Fin 128) (j : Fin 64) :
    (Host.dotGeneral (F := Ideal) (φ₁ := .f32) (φ₂ := .f32) Cert.KernelIdeal.dot_S128x5000_S5000x64_S128x64_1_0_0_1_n_n none
          (maximumf (F := Ideal) (Host.gather Cert.KernelIdeal.gather_S40000x5000_S128x1_S128x5000_1_0_n_n_0_1_15000 x0 (rootColK x7))
            (broadcastInDim Cert.KernelIdeal.S128x5000 ![] Cert.KernelIdeal.Gen.bcast_S_S128x5000 (constant (F := Ideal) Cert.KernelIdeal.S_ .f32 0x00000000#32)))
          (extractStridedSlice Cert.KernelIdeal.S5000x64 ![64, 0] x3 Cert.KernelIdeal.Gen.slices_S5064x64_S5000x64_64_0 : F32 Cert.KernelIdeal.S5000x64)) (ix2 r j)
      = ∑ k : Fin 5000, max (x0 (ix2 (gatherRow (N := 40000) (by decide) (rootColK x7) r) k)) 0 * x3 (ix2 (botRow k) j) := by
  refine (dotB_apply _ _ r j).trans ?_
  refine Finset.sum_congr rfl fun k _ => ?_
  rw [reluSplat_apply, sliceBot_apply, gatherK_apply]

/-- The reference's product at (n, j), its 5064 terms split at 64: columns below 64 read X, column 64 + k reads the
    features' row named by node n's root word, at k. -/
theorem reference_at (X : F32 Cert.ReferenceIdeal.S40000x64) (x0 : F32 Cert.ReferenceIdeal.S40000x5000) (x3 : F32 Cert.ReferenceIdeal.S5064x64)
    (x6 : I32 Cert.ReferenceIdeal.S40000) (x7 : I32 Cert.ReferenceIdeal.S128) (n : Fin 40000) (j : Fin 64) :
    (Host.dotGeneral (F := Ideal) (φ₁ := .f32) (φ₂ := .f32) Cert.ReferenceIdeal.dot_S40000x5064_S5064x64_S40000x64_1_0_0_1_n_n none
        (maximumf (F := Ideal)
          (concatenate Cert.ReferenceIdeal.S40000x5064 1 [⟨Cert.ReferenceIdeal.S40000x64, X⟩, ⟨Cert.ReferenceIdeal.S40000x5000,
              Host.gather Cert.ReferenceIdeal.gather_S40000x5000_S40000x1_S40000x5000_1_0_n_n_0_1_15000 x0 (nodeRootColR x6 x7)⟩]
            Cert.ReferenceIdeal.Gen.concatenates_S40000x64_S40000x5000_S40000x5064_d1)
          (broadcastInDim Cert.ReferenceIdeal.S40000x5064 ![] Cert.ReferenceIdeal.Gen.bcast_S_S40000x5064 (constant (F := Ideal) Cert.ReferenceIdeal.S_ .f32 0x00000000#32)))
        x3) (ix2 n j)
      = ∑ k : Fin 64, max (X (ix2 n k)) 0 * x3 (ix2 (topRow k) j)
        + ∑ k : Fin 5000, max (x0 (ix2 (gatherRow (N := 40000) (by decide) (nodeRootColR x6 x7) n) k)) 0 * x3 (ix2 (botRow k) j) := by
  refine (dotR_apply _ _ n j).trans ?_
  refine (sum_split_rows _).trans ?_
  refine congrArg₂ (· + ·) (Finset.sum_congr rfl fun k _ => ?_) (Finset.sum_congr rfl fun k _ => ?_)
  · rw [reluSplat_apply, joinLeft_apply]
  · rw [reluSplat_apply, joinRight_apply, gatherR_apply]

/-- Both sides at (n, j). -/
theorem split_dot_at (X : F32 Cert.ReferenceIdeal.S40000x64) (x0 : F32 Cert.ReferenceIdeal.S40000x5000) (x3 : F32 Cert.ReferenceIdeal.S5064x64)
    (x6 : I32 Cert.ReferenceIdeal.S40000) (x7 : I32 Cert.ReferenceIdeal.S128) (n : Fin 40000) (j : Fin 64) :
    addf (F := Ideal)
      (Host.dotGeneral (F := Ideal) (φ₁ := .f32) (φ₂ := .f32) Cert.KernelIdeal.dot_S40000x64_S64x64_S40000x64_1_0_0_1_n_n none
        (maximumf (F := Ideal) X (broadcastInDim Cert.KernelIdeal.S40000x64 ![] Cert.KernelIdeal.Gen.bcast_S_S40000x64 (constant (F := Ideal) Cert.KernelIdeal.S_ .f32 0x00000000#32)))
        (extractStridedSlice Cert.KernelIdeal.S64x64 ![0, 0] x3 Cert.KernelIdeal.Gen.slices_S5064x64_S64x64_0_0 : F32 Cert.KernelIdeal.S64x64))
      (Host.gather Cert.KernelIdeal.gather_S128x64_S40000x1_S40000x64_1_0_n_n_0_1_164
        (Host.dotGeneral (F := Ideal) (φ₁ := .f32) (φ₂ := .f32) Cert.KernelIdeal.dot_S128x5000_S5000x64_S128x64_1_0_0_1_n_n none
          (maximumf (F := Ideal) (Host.gather Cert.KernelIdeal.gather_S40000x5000_S128x1_S128x5000_1_0_n_n_0_1_15000 x0 (rootColK x7))
            (broadcastInDim Cert.KernelIdeal.S128x5000 ![] Cert.KernelIdeal.Gen.bcast_S_S128x5000 (constant (F := Ideal) Cert.KernelIdeal.S_ .f32 0x00000000#32)))
          (extractStridedSlice Cert.KernelIdeal.S5000x64 ![64, 0] x3 Cert.KernelIdeal.Gen.slices_S5064x64_S5000x64_64_0 : F32 Cert.KernelIdeal.S5000x64))
        (segColK x6)) (ix2 n j)
    = (Host.dotGeneral (F := Ideal) (φ₁ := .f32) (φ₂ := .f32) Cert.ReferenceIdeal.dot_S40000x5064_S5064x64_S40000x64_1_0_0_1_n_n none
        (maximumf (F := Ideal)
          (concatenate Cert.ReferenceIdeal.S40000x5064 1 [⟨Cert.ReferenceIdeal.S40000x64, X⟩, ⟨Cert.ReferenceIdeal.S40000x5000,
              Host.gather Cert.ReferenceIdeal.gather_S40000x5000_S40000x1_S40000x5000_1_0_n_n_0_1_15000 x0 (nodeRootColR x6 x7)⟩]
            Cert.ReferenceIdeal.Gen.concatenates_S40000x64_S40000x5000_S40000x5064_d1)
          (broadcastInDim Cert.ReferenceIdeal.S40000x5064 ![] Cert.ReferenceIdeal.Gen.bcast_S_S40000x5064 (constant (F := Ideal) Cert.ReferenceIdeal.S_ .f32 0x00000000#32)))
        x3) (ix2 n j) := by
  rw [addf_apply]
  refine (congrArg₂ (· + ·) (kernel_first_at X x3 n j)
    ((gatherTable_apply _ (segColK x6) n j).trans (kernel_table_at x0 x3 x7 _ j))).trans ?_
  refine ((reference_at X x0 x3 x6 x7 n j).trans ?_).symm
  rw [node_root_row x6 x7 n]

/-- The kernel's two products added equal the reference's one product over the joined rows. -/
theorem split_dot (X : F32 Cert.ReferenceIdeal.S40000x64) (x0 : F32 Cert.ReferenceIdeal.S40000x5000) (x3 : F32 Cert.ReferenceIdeal.S5064x64)
    (x6 : I32 Cert.ReferenceIdeal.S40000) (x7 : I32 Cert.ReferenceIdeal.S128) :
    addf (F := Ideal)
      (Host.dotGeneral (F := Ideal) (φ₁ := .f32) (φ₂ := .f32) Cert.KernelIdeal.dot_S40000x64_S64x64_S40000x64_1_0_0_1_n_n none
        (maximumf (F := Ideal) X (broadcastInDim Cert.KernelIdeal.S40000x64 ![] Cert.KernelIdeal.Gen.bcast_S_S40000x64 (constant (F := Ideal) Cert.KernelIdeal.S_ .f32 0x00000000#32)))
        (extractStridedSlice Cert.KernelIdeal.S64x64 ![0, 0] x3 Cert.KernelIdeal.Gen.slices_S5064x64_S64x64_0_0 : F32 Cert.KernelIdeal.S64x64))
      (Host.gather Cert.KernelIdeal.gather_S128x64_S40000x1_S40000x64_1_0_n_n_0_1_164
        (Host.dotGeneral (F := Ideal) (φ₁ := .f32) (φ₂ := .f32) Cert.KernelIdeal.dot_S128x5000_S5000x64_S128x64_1_0_0_1_n_n none
          (maximumf (F := Ideal) (Host.gather Cert.KernelIdeal.gather_S40000x5000_S128x1_S128x5000_1_0_n_n_0_1_15000 x0 (rootColK x7))
            (broadcastInDim Cert.KernelIdeal.S128x5000 ![] Cert.KernelIdeal.Gen.bcast_S_S128x5000 (constant (F := Ideal) Cert.KernelIdeal.S_ .f32 0x00000000#32)))
          (extractStridedSlice Cert.KernelIdeal.S5000x64 ![64, 0] x3 Cert.KernelIdeal.Gen.slices_S5064x64_S5000x64_64_0 : F32 Cert.KernelIdeal.S5000x64))
        (segColK x6))
    = Host.dotGeneral (F := Ideal) (φ₁ := .f32) (φ₂ := .f32) Cert.ReferenceIdeal.dot_S40000x5064_S5064x64_S40000x64_1_0_0_1_n_n none
        (maximumf (F := Ideal)
          (concatenate Cert.ReferenceIdeal.S40000x5064 1 [⟨Cert.ReferenceIdeal.S40000x64, X⟩, ⟨Cert.ReferenceIdeal.S40000x5000,
              Host.gather Cert.ReferenceIdeal.gather_S40000x5000_S40000x1_S40000x5000_1_0_n_n_0_1_15000 x0 (nodeRootColR x6 x7)⟩]
            Cert.ReferenceIdeal.Gen.concatenates_S40000x64_S40000x5000_S40000x5064_d1)
          (broadcastInDim Cert.ReferenceIdeal.S40000x5064 ![] Cert.ReferenceIdeal.Gen.bcast_S_S40000x5064 (constant (F := Ideal) Cert.ReferenceIdeal.S_ .f32 0x00000000#32)))
        x3 := by
  funext i
  rw [eq_ix2 i]
  exact split_dot_at X x0 x3 x6 x7 (i 0) (i 1)

end Cert.Bridge

end
-- ==== Proof.GatherTwice.lean ====
/-
  Gathering twice is gathering once. A 128-row table of rows of X picked by the root words, then gathered by the
  segment words, holds at node n the row of X named by the root word of n's segment; the reference picks that row
  directly, through the root words gathered by the segment words. Both clamp after the same normalisation of
  negative words, so row by row the two arrays agree.
-/
import proofs.«418250_j22643067584840_1_alg».proof.Proof.Ops
import proofs.«418250_j22643067584840_1_alg».proof.Proof.Spec
import proofs.«418250_j22643067584840_1_alg».proof.Proof.LibRowGather
import proofs.«418250_j22643067584840_1_alg».proof.Proof.LibRowScatterAdd
import proofs.«418250_j22643067584840_1_alg».proof.Proof.NodeRoot
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.TcCoe Idealize.ShloMosaic.ValueIdx Cert.Ops
open scoped BigOperators

/-- Row n of either side is row clamp(norm(root[clamp(norm(seg[n]))])) of X. -/
theorem gather_twice (X : F32 Cert.ReferenceIdeal.S40000x64) (x6 : I32 Cert.ReferenceIdeal.S40000) (x7 : I32 Cert.ReferenceIdeal.S128) :
    Host.gather Cert.KernelIdeal.gather_S128x64_S40000x1_S40000x64_1_0_n_n_0_1_164
      (Host.gather Cert.KernelIdeal.gather_S40000x64_S128x1_S128x64_1_0_n_n_0_1_164 X (rootColK x7)) (segColK x6)
    = Host.gather Cert.ReferenceIdeal.gather_S40000x64_S40000x1_S40000x64_1_0_n_n_0_1_164 X (nodeRootColR x6 x7) := by
  funext i
  -- an index of the result is a node n and a column q
  obtain ⟨n, q, rfl⟩ : ∃ (n : Fin 40000) (q : Fin 64), i = ix2 n q := ⟨i 0, i 1, eq_ix2 i⟩
  -- the outer gather reads the table at the row the segment column names at n
  refine (rowGather_apply (N := 128) (R := 40000) (C := 64) (by decide) _ _ (segColK x6) n q).trans ?_
  -- that table row is the row of X the root column names there
  refine (rowGather_apply (N := 40000) (R := 128) (C := 64) (by decide) _ X (rootColK x7)
    (gatherRow (N := 128) (by decide) (segColK x6) n) q).trans ?_
  -- the reference reads the row of X its per-node root column names at n: the same row
  refine Eq.trans ?_ (rowGather_apply (N := 40000) (R := 40000) (C := 64) (by decide) _ X (nodeRootColR x6 x7) n q).symm
  rw [node_root_row]

end Cert.Bridge

end
-- ==== Proof.Value.lean ====
/-
  The kernel program's result as a function of its arguments, on the extended reals.

  The generated frame names the buffer contents at every boundary of @main: W0 (launch), W1 … W3 (after the three host
  stretches before the first pallas_call), W4 (after it), W5 … W11 (after the seven stretches before the second),
  W12 (after it), W13 (after the last stretch). This module walks that fold once, from the launch to the result. At
  each boundary it records what the buffers read later hold, as the REFERENCE's own stage functions of the arguments:
  the host stretches by the value lemmas of the chain modules, the two pallas_calls by their whole-array values (a
  matrix product; segment sums), and the four places where the two programs differ by the bridge lemmas (the product
  with a rounded factor is the contraction; the sum of two products is the product over the joined rows; gathering
  twice is gathering once; the one-hot segment sums are the accumulating scatter). A buffer that no operation in
  between writes keeps its contents (the table of such facts is the module Kept). The last theorem is the result:
  the result buffer at W13 holds the reference's last stage of the arguments.
-/
import proofs.«418250_j22643067584840_1_alg».proof.Proof.Gen.KernelIdeal.Frame
import proofs.«418250_j22643067584840_1_alg».proof.Proof.RefRead
import proofs.«418250_j22643067584840_1_alg».proof.Proof.ChainA
import proofs.«418250_j22643067584840_1_alg».proof.Proof.ChainB
import proofs.«418250_j22643067584840_1_alg».proof.Proof.ChainC
import proofs.«418250_j22643067584840_1_alg».proof.Proof.ChainD
import proofs.«418250_j22643067584840_1_alg».proof.Proof.Kept
import proofs.«418250_j22643067584840_1_alg».proof.Proof.K0Value
import proofs.«418250_j22643067584840_1_alg».proof.Proof.K1Value
import proofs.«418250_j22643067584840_1_alg».proof.Proof.SegScatter
import proofs.«418250_j22643067584840_1_alg».proof.Proof.SplitDot
import proofs.«418250_j22643067584840_1_alg».proof.Proof.GatherTwice

set_option maxRecDepth 16384
set_option maxHeartbeats 2000000

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.Chain Cert.KernelIdeal.Kept Cert.Bridge
open Cert.ReferenceIdeal.ReadP (val_main_v3 val_main_v6 val_main_v12 val_main_v13 val_main_cst_2 val_main_v14 val_main_v29
  val_main_v30 val_main_v46 val_main_v93 val_main_v109 val_main_v110 val_main_v124 val_main_v125 val_main_v128 val_main_v137)

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

local notation "x₀" => arg m c main_arg0
local notation "w₁" => arg m c main_arg1
local notation "b₁" => arg m c main_arg2
local notation "w₂" => arg m c main_arg3
local notation "b₂" => arg m c main_arg4
local notation "ed" => arg m c main_arg5
local notation "sg" => arg m c main_arg6
local notation "rt" => arg m c main_arg7

/-- The first layer after aggregation and bias, as the reference's stage of the arguments. -/
local notation "lay₁" => val_main_v46 (F := Ideal) x₀ w₁ b₁ ed

/-! ## Before the first pallas_call -/

theorem w0 (b : Ref sig .tc) : W0 m ρ c (Proc.devRef .tc b) = arg m c b := rfl

theorem w1_v3 : W1 m ρ c (Proc.devRef .tc main_v3) = val_main_v3 (F := Ideal) ed := s0_v3 (W0 m ρ c) _ (w0 m ρ c main_arg5)
theorem w1_v6 : W1 m ρ c (Proc.devRef .tc main_v6) = val_main_v6 (F := Ideal) ed := s0_v6 (W0 m ρ c) _ (w0 m ρ c main_arg5)
theorem w1_v12 : W1 m ρ c (Proc.devRef .tc main_v12) = val_main_v12 (F := Ideal) ed := s0_v12 (W0 m ρ c) _ (w0 m ρ c main_arg5)
theorem w1_v13 : W1 m ρ c (Proc.devRef .tc main_v13) = val_main_v13 (F := Ideal) ed := s0_v13 (W0 m ρ c) _ (w0 m ρ c main_arg5)
theorem w1_cst2 : W1 m ρ c (Proc.devRef .tc main_cst_2) = val_main_cst_2 (F := Ideal) := s0_cst2 (W0 m ρ c)

theorem w2_v14 : W2 m ρ c (Proc.devRef .tc main_v14) = val_main_v14 (F := Ideal) ed :=
  s01_v14 (W1 m ρ c) _ (w1_v12 m ρ c) (w1_v13 m ρ c) (w1_cst2 m ρ c)

theorem w3_v29 : W3 m ρ c (Proc.devRef .tc main_v29) = val_main_v29 (F := Ideal) ed :=
  s02_v29 (W2 m ρ c) _ ((k2_v3 m ρ c).trans (w1_v3 m ρ c)) ((k2_v6 m ρ c).trans (w1_v6 m ρ c)) (w2_v14 m ρ c)

theorem w3_v30 : W3 m ρ c (Proc.devRef .tc main_v30) = truncf (F := Ideal) .bf16 w₁ bitsLt_bf16_f32 :=
  s02_v30 (W2 m ρ c) _ ((k2_arg1 m ρ c).trans (w0 m ρ c main_arg1))

/-! ## The first pallas_call: the product of x with the rounded first weight is the reference's contraction -/

theorem w4_v31 : W4 m ρ c (Proc.devRef .tc main_v31) = val_main_v30 (F := Ideal) x₀ w₁ := by
  refine (W4_arr m ρ c 2).trans ((Cert.KernelIdeal.K0.region0_out (V3 m ρ) c).trans ?_)
  have e0 : V3 m ρ c main_arg0 = x₀ := (k3_arg0 m ρ c).trans (w0 m ρ c main_arg0)
  have e30 : V3 m ρ c main_v30 = truncf (F := Ideal) .bf16 w₁ bitsLt_bf16_f32 := w3_v30 m ρ c
  rw [e0, e30]
  exact mm_eq_dot _ _

theorem w4_v3 : W4 m ρ c (Proc.devRef .tc main_v3) = val_main_v3 (F := Ideal) ed :=
  (W4_of_ne m ρ c main_v3 (by decide)).trans ((k3_v3 m ρ c).trans (w1_v3 m ρ c))
theorem w4_v6 : W4 m ρ c (Proc.devRef .tc main_v6) = val_main_v6 (F := Ideal) ed :=
  (W4_of_ne m ρ c main_v6 (by decide)).trans ((k3_v6 m ρ c).trans (w1_v6 m ρ c))
theorem w4_v29 : W4 m ρ c (Proc.devRef .tc main_v29) = val_main_v29 (F := Ideal) ed :=
  (W4_of_ne m ρ c main_v29 (by decide)).trans (w3_v29 m ρ c)
/-- x is the first pallas_call's first input array: an input array leaves the call as it entered. -/
theorem w4_arg0 : W4 m ρ c (Proc.devRef .tc main_arg0) = x₀ :=
  (W4_arr m ρ c 0).trans ((((dat0 (V3 m ρ) c).arrAt_in 0 rfl _).trans (A_eq0 (V3 m ρ) c 0)).trans
    ((k3_arg0 m ρ c).trans (w0 m ρ c main_arg0)))
theorem w4_arg2 : W4 m ρ c (Proc.devRef .tc main_arg2) = b₁ :=
  (W4_of_ne m ρ c main_arg2 (by decide)).trans ((k3_arg2 m ρ c).trans (w0 m ρ c main_arg2))
theorem w4_arg3 : W4 m ρ c (Proc.devRef .tc main_arg3) = w₂ :=
  (W4_of_ne m ρ c main_arg3 (by decide)).trans ((k3_arg3 m ρ c).trans (w0 m ρ c main_arg3))
theorem w4_arg4 : W4 m ρ c (Proc.devRef .tc main_arg4) = b₂ :=
  (W4_of_ne m ρ c main_arg4 (by decide)).trans ((k3_arg4 m ρ c).trans (w0 m ρ c main_arg4))
theorem w4_arg6 : W4 m ρ c (Proc.devRef .tc main_arg6) = sg :=
  (W4_of_ne m ρ c main_arg6 (by decide)).trans ((k3_arg6 m ρ c).trans (w0 m ρ c main_arg6))
theorem w4_arg7 : W4 m ρ c (Proc.devRef .tc main_arg7) = rt :=
  (W4_of_ne m ρ c main_arg7 (by decide)).trans ((k3_arg7 m ρ c).trans (w0 m ρ c main_arg7))

/-! ## Between the two pallas_calls -/

theorem w5_v47 : W5 m ρ c (Proc.devRef .tc main_v47) = lay₁ :=
  s1_v47 (W4 m ρ c) _ _ _ _ (w4_v31 m ρ c) (w4_v3 m ρ c) (w4_v6 m ρ c) (w4_v29 m ρ c) (w4_arg2 m ρ c)

theorem w6_v48 : W6 m ρ c (Proc.devRef .tc main_v48) = maximumf (F := Ideal) lay₁
    (broadcastInDim S40000x64 ![] bcast_S_S40000x64 (constant (F := Ideal) S_ .f32 0x00000000#32)) :=
  s11_v48 (W5 m ρ c) _ (w5_v47 m ρ c)

theorem w7_v55 : W7 m ρ c (Proc.devRef .tc main_v55)
    = Host.gather gather_S40000x5000_S128x1_S128x5000_1_0_n_n_0_1_15000 x₀ (Cert.Ops.rootColK rt) :=
  s12_v55 (W6 m ρ c) _ _ ((k6_arg0 m ρ c).trans (w4_arg0 m ρ c)) ((k6_arg7 m ρ c).trans (w4_arg7 m ρ c))

theorem w8_v56 : W8 m ρ c (Proc.devRef .tc main_v56) = maximumf (F := Ideal)
    (Host.gather gather_S40000x5000_S128x1_S128x5000_1_0_n_n_0_1_15000 x₀ (Cert.Ops.rootColK rt))
    (broadcastInDim S128x5000 ![] bcast_S_S128x5000 (constant (F := Ideal) S_ .f32 0x00000000#32)) :=
  s13_v56 (W7 m ρ c) _ (w7_v55 m ρ c)

/-- The long stretch is its two parts in order. -/
theorem w9_eq : W9 m ρ c = StableHlo.after ops14b (StableHlo.after ops14a (W8 m ρ c)) := by
  show StableHlo.after hostOps1_4 (W8 m ρ c) = _
  rw [ops14_split, StableHlo.after_append]

/-- The second layer's linear map: the kernel's sum of two products is the reference's product over the joined rows. -/
theorem w8a_v68 : StableHlo.after ops14a (W8 m ρ c) (Proc.devRef .tc main_v68)
    = val_main_v93 (F := Ideal) x₀ w₁ b₁ w₂ ed sg rt := by
  refine (s14a_v68 (W8 m ρ c) _ _ _ _ ((k8_v48 m ρ c).trans (w6_v48 m ρ c)) (w8_v56 m ρ c)
    ((k8_arg3 m ρ c).trans (w4_arg3 m ρ c)) ((k8_arg6 m ρ c).trans (w4_arg6 m ρ c))).trans ?_
  refine (split_dot lay₁ x₀ w₂ sg rt).trans ?_
  rfl

theorem w9_v84 : W9 m ρ c (Proc.devRef .tc main_v84) = val_main_v109 (F := Ideal) x₀ w₁ b₁ w₂ b₂ ed sg rt := by
  rw [w9_eq]
  exact s14b_v84 (StableHlo.after ops14a (W8 m ρ c)) _ _ _ _ _ _ _ _ (w8a_v68 m ρ c)
    ((k8a_v3 m ρ c).trans ((k8_v3 m ρ c).trans (w4_v3 m ρ c)))
    ((k8a_v6 m ρ c).trans ((k8_v6 m ρ c).trans (w4_v6 m ρ c)))
    ((k8a_v29 m ρ c).trans ((k8_v29 m ρ c).trans (w4_v29 m ρ c)))
    ((k8a_arg4 m ρ c).trans ((k8_arg4 m ρ c).trans (w4_arg4 m ρ c)))

theorem w10_v85 : W10 m ρ c (Proc.devRef .tc main_v85) = val_main_v110 (F := Ideal) x₀ w₁ b₁ w₂ b₂ ed sg rt :=
  s15_v85 (W9 m ρ c) _ _ _ _ _ _ _ _ (w9_v84 m ρ c)

theorem w10_v47 : W10 m ρ c (Proc.devRef .tc main_v47) = lay₁ :=
  (k10_v47 m ρ c).trans ((k8_v47 m ρ c).trans (w5_v47 m ρ c))
theorem w10_arg6 : W10 m ρ c (Proc.devRef .tc main_arg6) = sg :=
  (k10_arg6 m ρ c).trans ((k8_arg6 m ρ c).trans (w4_arg6 m ρ c))
theorem w10_arg7 : W10 m ρ c (Proc.devRef .tc main_arg7) = rt :=
  (k10_arg7 m ρ c).trans ((k8_arg7 m ρ c).trans (w4_arg7 m ρ c))

/-- The rows laid side by side: the first layer's rows gathered twice are the reference's single gather. -/
theorem w11_v100 : W11 m ρ c (Proc.devRef .tc main_v100) = val_main_v125 (F := Ideal) x₀ w₁ b₁ w₂ b₂ ed sg rt := by
  refine (s16_v100 (W10 m ρ c) _ _ _ _ (w10_v85 m ρ c) (w10_v47 m ρ c) (w10_arg6 m ρ c) (w10_arg7 m ρ c)).trans ?_
  have e : Host.gather gather_S128x64_S40000x1_S40000x64_1_0_n_n_0_1_164
        (Host.gather gather_S40000x64_S128x1_S128x64_1_0_n_n_0_1_164 lay₁ (Cert.Ops.rootColK rt)) (Cert.Ops.segColK sg)
      = Host.gather Cert.ReferenceIdeal.gather_S40000x64_S40000x1_S40000x64_1_0_n_n_0_1_164 lay₁ (Cert.Ops.nodeRootColR sg rt) :=
    gather_twice lay₁ sg rt
  rw [e]
  rfl

theorem w11_v101 : W11 m ρ c (Proc.devRef .tc main_v101) = broadcastInDim S40000x1 ![0] bcast_S40000_S40000x1_0 sg :=
  s16_v101 (W10 m ρ c) _ (w10_arg6 m ρ c)

/-! ## The second pallas_call: the one-hot segment sums are the reference's accumulating scatter -/

theorem w12_v102 : W12 m ρ c (Proc.devRef .tc main_v102) = val_main_v128 (F := Ideal) x₀ w₁ b₁ w₂ b₂ ed sg rt := by
  refine (W12_arr m ρ c 2).trans ((Cert.KernelIdeal.K1.region1_out (V11 m ρ) c).trans ?_)
  have e101 : V11 m ρ c main_v101 = broadcastInDim S40000x1 ![0] bcast_S40000_S40000x1_0 sg := w11_v101 m ρ c
  have e100 : V11 m ρ c main_v100 = val_main_v125 (F := Ideal) x₀ w₁ b₁ w₂ b₂ ed sg rt := w11_v100 m ρ c
  rw [e101, e100]
  exact (seg_eq_scatter sg (val_main_v125 (F := Ideal) x₀ w₁ b₁ w₂ b₂ ed sg rt)).trans rfl

theorem w12_arg6 : W12 m ρ c (Proc.devRef .tc main_arg6) = sg :=
  (W12_of_ne m ρ c main_arg6 (by decide)).trans ((k11_arg6 m ρ c).trans (w10_arg6 m ρ c))

/-! ## The result -/

/-- The kernel program's result buffer holds the reference's last stage of the arguments. -/
theorem result : W13 m ρ c (Proc.devRef .tc main_v111) = val_main_v137 (F := Ideal) x₀ w₁ b₁ w₂ b₂ ed sg rt :=
  s2_v111 (W12 m ρ c) _ _ _ _ _ _ _ _ (w12_v102 m ρ c) (w12_arg6 m ρ c)

end Cert.KernelIdeal.KValue

end
-- ==== Proof.RKept.lean ====
/- The buffer contents of the reference program after each of the twelve chunks of its operation list, U0 (launch) to U12, and the
   table: a buffer that none of the operations in between writes holds at the later level what it held at the earlier one. -/
import proofs.«418250_j22643067584840_1_alg».proof.Proof.RefOps
import Idealize.ShloMosaic.Lib.StableHlo.Run

set_option maxRecDepth 16384
set_option maxHeartbeats 2000000

noncomputable section

namespace Cert.ReferenceIdeal.RKept

open Idealize.ShloMosaic Idealize.ShloMosaic.TcCoe Idealize.SL.Sem Idealize.ShloMosaic.StableHlo
open Cert.ReferenceIdeal Cert.ReferenceIdeal.Gen Cert.ReferenceIdeal.RunP

variable {F : FTy → Type} [FloatOps F]
variable (m : (ℓ : Loc nD τ sig) → Buf (Elt F) ℓ) (c : Dev nD)

/-- The buffers at launch. -/
abbrev U0 : Valuation τ sig (Elt F) := launchContents m c
/-- The buffers after chunk 1. -/
abbrev U1 : Valuation τ sig (Elt F) := StableHlo.after rops1 (U0 m c)
/-- The buffers after chunk 2. -/
abbrev U2 : Valuation τ sig (Elt F) := StableHlo.after rops2 (U1 m c)
/-- The buffers after chunk 3. -/
abbrev U3 : Valuation τ sig (Elt F) := StableHlo.after rops3 (U2 m c)
/-- The buffers after chunk 4. -/
abbrev U4 : Valuation τ sig (Elt F) := StableHlo.after rops4 (U3 m c)
/-- The buffers after chunk 5. -/
abbrev U5 : Valuation τ sig (Elt F) := StableHlo.after rops5 (U4 m c)
/-- The buffers after chunk 6. -/
abbrev U6 : Valuation τ sig (Elt F) := StableHlo.after rops6 (U5 m c)
/-- The buffers after chunk 7. -/
abbrev U7 : Valuation τ sig (Elt F) := StableHlo.after rops7 (U6 m c)
/-- The buffers after chunk 8. -/
abbrev U8 : Valuation τ sig (Elt F) := StableHlo.after rops8 (U7 m c)
/-- The buffers after chunk 9. -/
abbrev U9 : Valuation τ sig (Elt F) := StableHlo.after rops9 (U8 m c)
/-- The buffers after chunk 10. -/
abbrev U10 : Valuation τ sig (Elt F) := StableHlo.after rops10 (U9 m c)
/-- The buffers after chunk 11. -/
abbrev U11 : Valuation τ sig (Elt F) := StableHlo.after rops11 (U10 m c)
/-- The buffers after chunk 12. -/
abbrev U12 : Valuation τ sig (Elt F) := StableHlo.after rops12 (U11 m c)

section PerChunk
variable (W : Valuation τ sig (Elt F))
theorem c1_arg0 : StableHlo.after rops1 W (Proc.devRef .tc main_arg0) = W (Proc.devRef .tc main_arg0) := by
  after_results <;> rfl
theorem c1_arg1 : StableHlo.after rops1 W (Proc.devRef .tc main_arg1) = W (Proc.devRef .tc main_arg1) := by
  after_results <;> rfl
theorem c1_arg2 : StableHlo.after rops1 W (Proc.devRef .tc main_arg2) = W (Proc.devRef .tc main_arg2) := by
  after_results <;> rfl
theorem c1_arg3 : StableHlo.after rops1 W (Proc.devRef .tc main_arg3) = W (Proc.devRef .tc main_arg3) := by
  after_results <;> rfl
theorem c1_arg4 : StableHlo.after rops1 W (Proc.devRef .tc main_arg4) = W (Proc.devRef .tc main_arg4) := by
  after_results <;> rfl
theorem c1_arg5 : StableHlo.after rops1 W (Proc.devRef .tc main_arg5) = W (Proc.devRef .tc main_arg5) := by
  after_results <;> rfl
theorem c1_arg6 : StableHlo.after rops1 W (Proc.devRef .tc main_arg6) = W (Proc.devRef .tc main_arg6) := by
  after_results <;> rfl
theorem c1_arg7 : StableHlo.after rops1 W (Proc.devRef .tc main_arg7) = W (Proc.devRef .tc main_arg7) := by
  after_results <;> rfl
theorem c2_arg0 : StableHlo.after rops2 W (Proc.devRef .tc main_arg0) = W (Proc.devRef .tc main_arg0) := by
  after_results <;> rfl
theorem c2_arg1 : StableHlo.after rops2 W (Proc.devRef .tc main_arg1) = W (Proc.devRef .tc main_arg1) := by
  after_results <;> rfl
theorem c2_arg2 : StableHlo.after rops2 W (Proc.devRef .tc main_arg2) = W (Proc.devRef .tc main_arg2) := by
  after_results <;> rfl
theorem c2_arg3 : StableHlo.after rops2 W (Proc.devRef .tc main_arg3) = W (Proc.devRef .tc main_arg3) := by
  after_results <;> rfl
theorem c2_arg4 : StableHlo.after rops2 W (Proc.devRef .tc main_arg4) = W (Proc.devRef .tc main_arg4) := by
  after_results <;> rfl
theorem c2_arg5 : StableHlo.after rops2 W (Proc.devRef .tc main_arg5) = W (Proc.devRef .tc main_arg5) := by
  after_results <;> rfl
theorem c2_arg6 : StableHlo.after rops2 W (Proc.devRef .tc main_arg6) = W (Proc.devRef .tc main_arg6) := by
  after_results <;> rfl
theorem c2_arg7 : StableHlo.after rops2 W (Proc.devRef .tc main_arg7) = W (Proc.devRef .tc main_arg7) := by
  after_results <;> rfl
theorem c2_v3 : StableHlo.after rops2 W (Proc.devRef .tc main_v3) = W (Proc.devRef .tc main_v3) := by
  after_results <;> rfl
theorem c2_v6 : StableHlo.after rops2 W (Proc.devRef .tc main_v6) = W (Proc.devRef .tc main_v6) := by
  after_results <;> rfl
theorem c3_arg0 : StableHlo.after rops3 W (Proc.devRef .tc main_arg0) = W (Proc.devRef .tc main_arg0) := by
  after_results <;> rfl
theorem c3_arg1 : StableHlo.after rops3 W (Proc.devRef .tc main_arg1) = W (Proc.devRef .tc main_arg1) := by
  after_results <;> rfl
theorem c3_arg2 : StableHlo.after rops3 W (Proc.devRef .tc main_arg2) = W (Proc.devRef .tc main_arg2) := by
  after_results <;> rfl
theorem c3_arg3 : StableHlo.after rops3 W (Proc.devRef .tc main_arg3) = W (Proc.devRef .tc main_arg3) := by
  after_results <;> rfl
theorem c3_arg4 : StableHlo.after rops3 W (Proc.devRef .tc main_arg4) = W (Proc.devRef .tc main_arg4) := by
  after_results <;> rfl
theorem c3_arg5 : StableHlo.after rops3 W (Proc.devRef .tc main_arg5) = W (Proc.devRef .tc main_arg5) := by
  after_results <;> rfl
theorem c3_arg6 : StableHlo.after rops3 W (Proc.devRef .tc main_arg6) = W (Proc.devRef .tc main_arg6) := by
  after_results <;> rfl
theorem c3_arg7 : StableHlo.after rops3 W (Proc.devRef .tc main_arg7) = W (Proc.devRef .tc main_arg7) := by
  after_results <;> rfl
theorem c3_v3 : StableHlo.after rops3 W (Proc.devRef .tc main_v3) = W (Proc.devRef .tc main_v3) := by
  after_results <;> rfl
theorem c3_v6 : StableHlo.after rops3 W (Proc.devRef .tc main_v6) = W (Proc.devRef .tc main_v6) := by
  after_results <;> rfl
theorem c4_arg0 : StableHlo.after rops4 W (Proc.devRef .tc main_arg0) = W (Proc.devRef .tc main_arg0) := by
  after_results <;> rfl
theorem c4_arg1 : StableHlo.after rops4 W (Proc.devRef .tc main_arg1) = W (Proc.devRef .tc main_arg1) := by
  after_results <;> rfl
theorem c4_arg2 : StableHlo.after rops4 W (Proc.devRef .tc main_arg2) = W (Proc.devRef .tc main_arg2) := by
  after_results <;> rfl
theorem c4_arg3 : StableHlo.after rops4 W (Proc.devRef .tc main_arg3) = W (Proc.devRef .tc main_arg3) := by
  after_results <;> rfl
theorem c4_arg4 : StableHlo.after rops4 W (Proc.devRef .tc main_arg4) = W (Proc.devRef .tc main_arg4) := by
  after_results <;> rfl
theorem c4_arg5 : StableHlo.after rops4 W (Proc.devRef .tc main_arg5) = W (Proc.devRef .tc main_arg5) := by
  after_results <;> rfl
theorem c4_arg6 : StableHlo.after rops4 W (Proc.devRef .tc main_arg6) = W (Proc.devRef .tc main_arg6) := by
  after_results <;> rfl
theorem c4_arg7 : StableHlo.after rops4 W (Proc.devRef .tc main_arg7) = W (Proc.devRef .tc main_arg7) := by
  after_results <;> rfl
theorem c5_arg0 : StableHlo.after rops5 W (Proc.devRef .tc main_arg0) = W (Proc.devRef .tc main_arg0) := by
  after_results <;> rfl
theorem c5_arg1 : StableHlo.after rops5 W (Proc.devRef .tc main_arg1) = W (Proc.devRef .tc main_arg1) := by
  after_results <;> rfl
theorem c5_arg2 : StableHlo.after rops5 W (Proc.devRef .tc main_arg2) = W (Proc.devRef .tc main_arg2) := by
  after_results <;> rfl
theorem c5_arg3 : StableHlo.after rops5 W (Proc.devRef .tc main_arg3) = W (Proc.devRef .tc main_arg3) := by
  after_results <;> rfl
theorem c5_arg4 : StableHlo.after rops5 W (Proc.devRef .tc main_arg4) = W (Proc.devRef .tc main_arg4) := by
  after_results <;> rfl
theorem c5_arg5 : StableHlo.after rops5 W (Proc.devRef .tc main_arg5) = W (Proc.devRef .tc main_arg5) := by
  after_results <;> rfl
theorem c5_arg6 : StableHlo.after rops5 W (Proc.devRef .tc main_arg6) = W (Proc.devRef .tc main_arg6) := by
  after_results <;> rfl
theorem c5_arg7 : StableHlo.after rops5 W (Proc.devRef .tc main_arg7) = W (Proc.devRef .tc main_arg7) := by
  after_results <;> rfl
theorem c5_v46 : StableHlo.after rops5 W (Proc.devRef .tc main_v46) = W (Proc.devRef .tc main_v46) := by
  after_results <;> rfl
theorem c6_arg0 : StableHlo.after rops6 W (Proc.devRef .tc main_arg0) = W (Proc.devRef .tc main_arg0) := by
  after_results <;> rfl
theorem c6_arg1 : StableHlo.after rops6 W (Proc.devRef .tc main_arg1) = W (Proc.devRef .tc main_arg1) := by
  after_results <;> rfl
theorem c6_arg2 : StableHlo.after rops6 W (Proc.devRef .tc main_arg2) = W (Proc.devRef .tc main_arg2) := by
  after_results <;> rfl
theorem c6_arg3 : StableHlo.after rops6 W (Proc.devRef .tc main_arg3) = W (Proc.devRef .tc main_arg3) := by
  after_results <;> rfl
theorem c6_arg4 : StableHlo.after rops6 W (Proc.devRef .tc main_arg4) = W (Proc.devRef .tc main_arg4) := by
  after_results <;> rfl
theorem c6_arg5 : StableHlo.after rops6 W (Proc.devRef .tc main_arg5) = W (Proc.devRef .tc main_arg5) := by
  after_results <;> rfl
theorem c6_arg6 : StableHlo.after rops6 W (Proc.devRef .tc main_arg6) = W (Proc.devRef .tc main_arg6) := by
  after_results <;> rfl
theorem c6_arg7 : StableHlo.after rops6 W (Proc.devRef .tc main_arg7) = W (Proc.devRef .tc main_arg7) := by
  after_results <;> rfl
theorem c6_v46 : StableHlo.after rops6 W (Proc.devRef .tc main_v46) = W (Proc.devRef .tc main_v46) := by
  after_results <;> rfl
theorem c6_v62 : StableHlo.after rops6 W (Proc.devRef .tc main_v62) = W (Proc.devRef .tc main_v62) := by
  after_results <;> rfl
theorem c7_arg0 : StableHlo.after rops7 W (Proc.devRef .tc main_arg0) = W (Proc.devRef .tc main_arg0) := by
  after_results <;> rfl
theorem c7_arg1 : StableHlo.after rops7 W (Proc.devRef .tc main_arg1) = W (Proc.devRef .tc main_arg1) := by
  after_results <;> rfl
theorem c7_arg2 : StableHlo.after rops7 W (Proc.devRef .tc main_arg2) = W (Proc.devRef .tc main_arg2) := by
  after_results <;> rfl
theorem c7_arg3 : StableHlo.after rops7 W (Proc.devRef .tc main_arg3) = W (Proc.devRef .tc main_arg3) := by
  after_results <;> rfl
theorem c7_arg4 : StableHlo.after rops7 W (Proc.devRef .tc main_arg4) = W (Proc.devRef .tc main_arg4) := by
  after_results <;> rfl
theorem c7_arg5 : StableHlo.after rops7 W (Proc.devRef .tc main_arg5) = W (Proc.devRef .tc main_arg5) := by
  after_results <;> rfl
theorem c7_arg6 : StableHlo.after rops7 W (Proc.devRef .tc main_arg6) = W (Proc.devRef .tc main_arg6) := by
  after_results <;> rfl
theorem c7_arg7 : StableHlo.after rops7 W (Proc.devRef .tc main_arg7) = W (Proc.devRef .tc main_arg7) := by
  after_results <;> rfl
theorem c7_v46 : StableHlo.after rops7 W (Proc.devRef .tc main_v46) = W (Proc.devRef .tc main_v46) := by
  after_results <;> rfl
theorem c7_v62 : StableHlo.after rops7 W (Proc.devRef .tc main_v62) = W (Proc.devRef .tc main_v62) := by
  after_results <;> rfl
theorem c7_v66 : StableHlo.after rops7 W (Proc.devRef .tc main_v66) = W (Proc.devRef .tc main_v66) := by
  after_results <;> rfl
theorem c7_v69 : StableHlo.after rops7 W (Proc.devRef .tc main_v69) = W (Proc.devRef .tc main_v69) := by
  after_results <;> rfl
theorem c8_arg0 : StableHlo.after rops8 W (Proc.devRef .tc main_arg0) = W (Proc.devRef .tc main_arg0) := by
  after_results <;> rfl
theorem c8_arg1 : StableHlo.after rops8 W (Proc.devRef .tc main_arg1) = W (Proc.devRef .tc main_arg1) := by
  after_results <;> rfl
theorem c8_arg2 : StableHlo.after rops8 W (Proc.devRef .tc main_arg2) = W (Proc.devRef .tc main_arg2) := by
  after_results <;> rfl
theorem c8_arg3 : StableHlo.after rops8 W (Proc.devRef .tc main_arg3) = W (Proc.devRef .tc main_arg3) := by
  after_results <;> rfl
theorem c8_arg4 : StableHlo.after rops8 W (Proc.devRef .tc main_arg4) = W (Proc.devRef .tc main_arg4) := by
  after_results <;> rfl
theorem c8_arg5 : StableHlo.after rops8 W (Proc.devRef .tc main_arg5) = W (Proc.devRef .tc main_arg5) := by
  after_results <;> rfl
theorem c8_arg6 : StableHlo.after rops8 W (Proc.devRef .tc main_arg6) = W (Proc.devRef .tc main_arg6) := by
  after_results <;> rfl
theorem c8_arg7 : StableHlo.after rops8 W (Proc.devRef .tc main_arg7) = W (Proc.devRef .tc main_arg7) := by
  after_results <;> rfl
theorem c8_v46 : StableHlo.after rops8 W (Proc.devRef .tc main_v46) = W (Proc.devRef .tc main_v46) := by
  after_results <;> rfl
theorem c8_v62 : StableHlo.after rops8 W (Proc.devRef .tc main_v62) = W (Proc.devRef .tc main_v62) := by
  after_results <;> rfl
theorem c8_v66 : StableHlo.after rops8 W (Proc.devRef .tc main_v66) = W (Proc.devRef .tc main_v66) := by
  after_results <;> rfl
theorem c8_v69 : StableHlo.after rops8 W (Proc.devRef .tc main_v69) = W (Proc.devRef .tc main_v69) := by
  after_results <;> rfl
theorem c9_arg0 : StableHlo.after rops9 W (Proc.devRef .tc main_arg0) = W (Proc.devRef .tc main_arg0) := by
  after_results <;> rfl
theorem c9_arg1 : StableHlo.after rops9 W (Proc.devRef .tc main_arg1) = W (Proc.devRef .tc main_arg1) := by
  after_results <;> rfl
theorem c9_arg2 : StableHlo.after rops9 W (Proc.devRef .tc main_arg2) = W (Proc.devRef .tc main_arg2) := by
  after_results <;> rfl
theorem c9_arg3 : StableHlo.after rops9 W (Proc.devRef .tc main_arg3) = W (Proc.devRef .tc main_arg3) := by
  after_results <;> rfl
theorem c9_arg4 : StableHlo.after rops9 W (Proc.devRef .tc main_arg4) = W (Proc.devRef .tc main_arg4) := by
  after_results <;> rfl
theorem c9_arg5 : StableHlo.after rops9 W (Proc.devRef .tc main_arg5) = W (Proc.devRef .tc main_arg5) := by
  after_results <;> rfl
theorem c9_arg6 : StableHlo.after rops9 W (Proc.devRef .tc main_arg6) = W (Proc.devRef .tc main_arg6) := by
  after_results <;> rfl
theorem c9_arg7 : StableHlo.after rops9 W (Proc.devRef .tc main_arg7) = W (Proc.devRef .tc main_arg7) := by
  after_results <;> rfl
theorem c9_v46 : StableHlo.after rops9 W (Proc.devRef .tc main_v46) = W (Proc.devRef .tc main_v46) := by
  after_results <;> rfl
theorem c10_arg0 : StableHlo.after rops10 W (Proc.devRef .tc main_arg0) = W (Proc.devRef .tc main_arg0) := by
  after_results <;> rfl
theorem c10_arg1 : StableHlo.after rops10 W (Proc.devRef .tc main_arg1) = W (Proc.devRef .tc main_arg1) := by
  after_results <;> rfl
theorem c10_arg2 : StableHlo.after rops10 W (Proc.devRef .tc main_arg2) = W (Proc.devRef .tc main_arg2) := by
  after_results <;> rfl
theorem c10_arg3 : StableHlo.after rops10 W (Proc.devRef .tc main_arg3) = W (Proc.devRef .tc main_arg3) := by
  after_results <;> rfl
theorem c10_arg4 : StableHlo.after rops10 W (Proc.devRef .tc main_arg4) = W (Proc.devRef .tc main_arg4) := by
  after_results <;> rfl
theorem c10_arg5 : StableHlo.after rops10 W (Proc.devRef .tc main_arg5) = W (Proc.devRef .tc main_arg5) := by
  after_results <;> rfl
theorem c10_arg6 : StableHlo.after rops10 W (Proc.devRef .tc main_arg6) = W (Proc.devRef .tc main_arg6) := by
  after_results <;> rfl
theorem c10_arg7 : StableHlo.after rops10 W (Proc.devRef .tc main_arg7) = W (Proc.devRef .tc main_arg7) := by
  after_results <;> rfl
theorem c10_v46 : StableHlo.after rops10 W (Proc.devRef .tc main_v46) = W (Proc.devRef .tc main_v46) := by
  after_results <;> rfl
theorem c11_arg0 : StableHlo.after rops11 W (Proc.devRef .tc main_arg0) = W (Proc.devRef .tc main_arg0) := by
  after_results <;> rfl
theorem c11_arg1 : StableHlo.after rops11 W (Proc.devRef .tc main_arg1) = W (Proc.devRef .tc main_arg1) := by
  after_results <;> rfl
theorem c11_arg2 : StableHlo.after rops11 W (Proc.devRef .tc main_arg2) = W (Proc.devRef .tc main_arg2) := by
  after_results <;> rfl
theorem c11_arg3 : StableHlo.after rops11 W (Proc.devRef .tc main_arg3) = W (Proc.devRef .tc main_arg3) := by
  after_results <;> rfl
theorem c11_arg4 : StableHlo.after rops11 W (Proc.devRef .tc main_arg4) = W (Proc.devRef .tc main_arg4) := by
  after_results <;> rfl
theorem c11_arg5 : StableHlo.after rops11 W (Proc.devRef .tc main_arg5) = W (Proc.devRef .tc main_arg5) := by
  after_results <;> rfl
theorem c11_arg6 : StableHlo.after rops11 W (Proc.devRef .tc main_arg6) = W (Proc.devRef .tc main_arg6) := by
  after_results <;> rfl
theorem c11_arg7 : StableHlo.after rops11 W (Proc.devRef .tc main_arg7) = W (Proc.devRef .tc main_arg7) := by
  after_results <;> rfl
theorem c12_arg0 : StableHlo.after rops12 W (Proc.devRef .tc main_arg0) = W (Proc.devRef .tc main_arg0) := by
  after_results <;> rfl
theorem c12_arg1 : StableHlo.after rops12 W (Proc.devRef .tc main_arg1) = W (Proc.devRef .tc main_arg1) := by
  after_results <;> rfl
theorem c12_arg2 : StableHlo.after rops12 W (Proc.devRef .tc main_arg2) = W (Proc.devRef .tc main_arg2) := by
  after_results <;> rfl
theorem c12_arg3 : StableHlo.after rops12 W (Proc.devRef .tc main_arg3) = W (Proc.devRef .tc main_arg3) := by
  after_results <;> rfl
theorem c12_arg4 : StableHlo.after rops12 W (Proc.devRef .tc main_arg4) = W (Proc.devRef .tc main_arg4) := by
  after_results <;> rfl
theorem c12_arg5 : StableHlo.after rops12 W (Proc.devRef .tc main_arg5) = W (Proc.devRef .tc main_arg5) := by
  after_results <;> rfl
theorem c12_arg6 : StableHlo.after rops12 W (Proc.devRef .tc main_arg6) = W (Proc.devRef .tc main_arg6) := by
  after_results <;> rfl
theorem c12_arg7 : StableHlo.after rops12 W (Proc.devRef .tc main_arg7) = W (Proc.devRef .tc main_arg7) := by
  after_results <;> rfl
end PerChunk

theorem rk2_v3 : U2 m c (Proc.devRef .tc main_v3) = U1 m c (Proc.devRef .tc main_v3) :=
  c2_v3 (U1 m c)
theorem rk2_v6 : U2 m c (Proc.devRef .tc main_v6) = U1 m c (Proc.devRef .tc main_v6) :=
  c2_v6 (U1 m c)
theorem rk2_arg0 : U2 m c (Proc.devRef .tc main_arg0) = U0 m c (Proc.devRef .tc main_arg0) :=
  (c2_arg0 (U1 m c)).trans (c1_arg0 (U0 m c))
theorem rk2_arg1 : U2 m c (Proc.devRef .tc main_arg1) = U0 m c (Proc.devRef .tc main_arg1) :=
  (c2_arg1 (U1 m c)).trans (c1_arg1 (U0 m c))
theorem rk3_v3 : U3 m c (Proc.devRef .tc main_v3) = U1 m c (Proc.devRef .tc main_v3) :=
  (c3_v3 (U2 m c)).trans (c2_v3 (U1 m c))
theorem rk3_v6 : U3 m c (Proc.devRef .tc main_v6) = U1 m c (Proc.devRef .tc main_v6) :=
  (c3_v6 (U2 m c)).trans (c2_v6 (U1 m c))
theorem rk3_arg2 : U3 m c (Proc.devRef .tc main_arg2) = U0 m c (Proc.devRef .tc main_arg2) :=
  (c3_arg2 (U2 m c)).trans ((c2_arg2 (U1 m c)).trans (c1_arg2 (U0 m c)))
theorem rk4_arg0 : U4 m c (Proc.devRef .tc main_arg0) = U0 m c (Proc.devRef .tc main_arg0) :=
  (c4_arg0 (U3 m c)).trans ((c3_arg0 (U2 m c)).trans ((c2_arg0 (U1 m c)).trans (c1_arg0 (U0 m c))))
theorem rk4_arg6 : U4 m c (Proc.devRef .tc main_arg6) = U0 m c (Proc.devRef .tc main_arg6) :=
  (c4_arg6 (U3 m c)).trans ((c3_arg6 (U2 m c)).trans ((c2_arg6 (U1 m c)).trans (c1_arg6 (U0 m c))))
theorem rk4_arg7 : U4 m c (Proc.devRef .tc main_arg7) = U0 m c (Proc.devRef .tc main_arg7) :=
  (c4_arg7 (U3 m c)).trans ((c3_arg7 (U2 m c)).trans ((c2_arg7 (U1 m c)).trans (c1_arg7 (U0 m c))))
theorem rk5_arg5 : U5 m c (Proc.devRef .tc main_arg5) = U0 m c (Proc.devRef .tc main_arg5) :=
  (c5_arg5 (U4 m c)).trans ((c4_arg5 (U3 m c)).trans ((c3_arg5 (U2 m c)).trans ((c2_arg5 (U1 m c)).trans (c1_arg5 (U0 m c)))))
theorem rk7_v66 : U7 m c (Proc.devRef .tc main_v66) = U6 m c (Proc.devRef .tc main_v66) :=
  c7_v66 (U6 m c)
theorem rk7_v69 : U7 m c (Proc.devRef .tc main_v69) = U6 m c (Proc.devRef .tc main_v69) :=
  c7_v69 (U6 m c)
theorem rk8_v66 : U8 m c (Proc.devRef .tc main_v66) = U6 m c (Proc.devRef .tc main_v66) :=
  (c8_v66 (U7 m c)).trans (c7_v66 (U6 m c))
theorem rk8_v69 : U8 m c (Proc.devRef .tc main_v69) = U6 m c (Proc.devRef .tc main_v69) :=
  (c8_v69 (U7 m c)).trans (c7_v69 (U6 m c))
theorem rk8_v62 : U8 m c (Proc.devRef .tc main_v62) = U5 m c (Proc.devRef .tc main_v62) :=
  (c8_v62 (U7 m c)).trans ((c7_v62 (U6 m c)).trans (c6_v62 (U5 m c)))
theorem rk8_arg3 : U8 m c (Proc.devRef .tc main_arg3) = U0 m c (Proc.devRef .tc main_arg3) :=
  (c8_arg3 (U7 m c)).trans ((c7_arg3 (U6 m c)).trans ((c6_arg3 (U5 m c)).trans ((c5_arg3 (U4 m c)).trans ((c4_arg3 (U3 m c)).trans ((c3_arg3 (U2 m c)).trans ((c2_arg3 (U1 m c)).trans (c1_arg3 (U0 m c))))))))
theorem rk8_arg4 : U8 m c (Proc.devRef .tc main_arg4) = U0 m c (Proc.devRef .tc main_arg4) :=
  (c8_arg4 (U7 m c)).trans ((c7_arg4 (U6 m c)).trans ((c6_arg4 (U5 m c)).trans ((c5_arg4 (U4 m c)).trans ((c4_arg4 (U3 m c)).trans ((c3_arg4 (U2 m c)).trans ((c2_arg4 (U1 m c)).trans (c1_arg4 (U0 m c))))))))
theorem rk10_v46 : U10 m c (Proc.devRef .tc main_v46) = U4 m c (Proc.devRef .tc main_v46) :=
  (c10_v46 (U9 m c)).trans ((c9_v46 (U8 m c)).trans ((c8_v46 (U7 m c)).trans ((c7_v46 (U6 m c)).trans ((c6_v46 (U5 m c)).trans (c5_v46 (U4 m c))))))
theorem rk10_arg6 : U10 m c (Proc.devRef .tc main_arg6) = U0 m c (Proc.devRef .tc main_arg6) :=
  (c10_arg6 (U9 m c)).trans ((c9_arg6 (U8 m c)).trans ((c8_arg6 (U7 m c)).trans ((c7_arg6 (U6 m c)).trans ((c6_arg6 (U5 m c)).trans ((c5_arg6 (U4 m c)).trans ((c4_arg6 (U3 m c)).trans ((c3_arg6 (U2 m c)).trans ((c2_arg6 (U1 m c)).trans (c1_arg6 (U0 m c))))))))))
theorem rk10_arg7 : U10 m c (Proc.devRef .tc main_arg7) = U0 m c (Proc.devRef .tc main_arg7) :=
  (c10_arg7 (U9 m c)).trans ((c9_arg7 (U8 m c)).trans ((c8_arg7 (U7 m c)).trans ((c7_arg7 (U6 m c)).trans ((c6_arg7 (U5 m c)).trans ((c5_arg7 (U4 m c)).trans ((c4_arg7 (U3 m c)).trans ((c3_arg7 (U2 m c)).trans ((c2_arg7 (U1 m c)).trans (c1_arg7 (U0 m c))))))))))
theorem rk11_arg6 : U11 m c (Proc.devRef .tc main_arg6) = U0 m c (Proc.devRef .tc main_arg6) :=
  (c11_arg6 (U10 m c)).trans ((c10_arg6 (U9 m c)).trans ((c9_arg6 (U8 m c)).trans ((c8_arg6 (U7 m c)).trans ((c7_arg6 (U6 m c)).trans ((c6_arg6 (U5 m c)).trans ((c5_arg6 (U4 m c)).trans ((c4_arg6 (U3 m c)).trans ((c3_arg6 (U2 m c)).trans ((c2_arg6 (U1 m c)).trans (c1_arg6 (U0 m c)))))))))))
theorem rk12_arg0 : U12 m c (Proc.devRef .tc main_arg0) = U0 m c (Proc.devRef .tc main_arg0) :=
  (c12_arg0 (U11 m c)).trans ((c11_arg0 (U10 m c)).trans ((c10_arg0 (U9 m c)).trans ((c9_arg0 (U8 m c)).trans ((c8_arg0 (U7 m c)).trans ((c7_arg0 (U6 m c)).trans ((c6_arg0 (U5 m c)).trans ((c5_arg0 (U4 m c)).trans ((c4_arg0 (U3 m c)).trans ((c3_arg0 (U2 m c)).trans ((c2_arg0 (U1 m c)).trans (c1_arg0 (U0 m c))))))))))))
theorem rk12_arg1 : U12 m c (Proc.devRef .tc main_arg1) = U0 m c (Proc.devRef .tc main_arg1) :=
  (c12_arg1 (U11 m c)).trans ((c11_arg1 (U10 m c)).trans ((c10_arg1 (U9 m c)).trans ((c9_arg1 (U8 m c)).trans ((c8_arg1 (U7 m c)).trans ((c7_arg1 (U6 m c)).trans ((c6_arg1 (U5 m c)).trans ((c5_arg1 (U4 m c)).trans ((c4_arg1 (U3 m c)).trans ((c3_arg1 (U2 m c)).trans ((c2_arg1 (U1 m c)).trans (c1_arg1 (U0 m c))))))))))))
theorem rk12_arg2 : U12 m c (Proc.devRef .tc main_arg2) = U0 m c (Proc.devRef .tc main_arg2) :=
  (c12_arg2 (U11 m c)).trans ((c11_arg2 (U10 m c)).trans ((c10_arg2 (U9 m c)).trans ((c9_arg2 (U8 m c)).trans ((c8_arg2 (U7 m c)).trans ((c7_arg2 (U6 m c)).trans ((c6_arg2 (U5 m c)).trans ((c5_arg2 (U4 m c)).trans ((c4_arg2 (U3 m c)).trans ((c3_arg2 (U2 m c)).trans ((c2_arg2 (U1 m c)).trans (c1_arg2 (U0 m c))))))))))))
theorem rk12_arg3 : U12 m c (Proc.devRef .tc main_arg3) = U0 m c (Proc.devRef .tc main_arg3) :=
  (c12_arg3 (U11 m c)).trans ((c11_arg3 (U10 m c)).trans ((c10_arg3 (U9 m c)).trans ((c9_arg3 (U8 m c)).trans ((c8_arg3 (U7 m c)).trans ((c7_arg3 (U6 m c)).trans ((c6_arg3 (U5 m c)).trans ((c5_arg3 (U4 m c)).trans ((c4_arg3 (U3 m c)).trans ((c3_arg3 (U2 m c)).trans ((c2_arg3 (U1 m c)).trans (c1_arg3 (U0 m c))))))))))))
theorem rk12_arg4 : U12 m c (Proc.devRef .tc main_arg4) = U0 m c (Proc.devRef .tc main_arg4) :=
  (c12_arg4 (U11 m c)).trans ((c11_arg4 (U10 m c)).trans ((c10_arg4 (U9 m c)).trans ((c9_arg4 (U8 m c)).trans ((c8_arg4 (U7 m c)).trans ((c7_arg4 (U6 m c)).trans ((c6_arg4 (U5 m c)).trans ((c5_arg4 (U4 m c)).trans ((c4_arg4 (U3 m c)).trans ((c3_arg4 (U2 m c)).trans ((c2_arg4 (U1 m c)).trans (c1_arg4 (U0 m c))))))))))))
theorem rk12_arg5 : U12 m c (Proc.devRef .tc main_arg5) = U0 m c (Proc.devRef .tc main_arg5) :=
  (c12_arg5 (U11 m c)).trans ((c11_arg5 (U10 m c)).trans ((c10_arg5 (U9 m c)).trans ((c9_arg5 (U8 m c)).trans ((c8_arg5 (U7 m c)).trans ((c7_arg5 (U6 m c)).trans ((c6_arg5 (U5 m c)).trans ((c5_arg5 (U4 m c)).trans ((c4_arg5 (U3 m c)).trans ((c3_arg5 (U2 m c)).trans ((c2_arg5 (U1 m c)).trans (c1_arg5 (U0 m c))))))))))))
theorem rk12_arg6 : U12 m c (Proc.devRef .tc main_arg6) = U0 m c (Proc.devRef .tc main_arg6) :=
  (c12_arg6 (U11 m c)).trans ((c11_arg6 (U10 m c)).trans ((c10_arg6 (U9 m c)).trans ((c9_arg6 (U8 m c)).trans ((c8_arg6 (U7 m c)).trans ((c7_arg6 (U6 m c)).trans ((c6_arg6 (U5 m c)).trans ((c5_arg6 (U4 m c)).trans ((c4_arg6 (U3 m c)).trans ((c3_arg6 (U2 m c)).trans ((c2_arg6 (U1 m c)).trans (c1_arg6 (U0 m c))))))))))))
theorem rk12_arg7 : U12 m c (Proc.devRef .tc main_arg7) = U0 m c (Proc.devRef .tc main_arg7) :=
  (c12_arg7 (U11 m c)).trans ((c11_arg7 (U10 m c)).trans ((c10_arg7 (U9 m c)).trans ((c9_arg7 (U8 m c)).trans ((c8_arg7 (U7 m c)).trans ((c7_arg7 (U6 m c)).trans ((c6_arg7 (U5 m c)).trans ((c5_arg7 (U4 m c)).trans ((c4_arg7 (U3 m c)).trans ((c3_arg7 (U2 m c)).trans ((c2_arg7 (U1 m c)).trans (c1_arg7 (U0 m c))))))))))))

end Cert.ReferenceIdeal.RKept

end
-- ==== Proof.RChain1.lean ====
/-
  The reference program's first three chunks of host operations read back as its own stage functions, from ANY buffer
  contents W: the edge rows v3 and columns v6, the degree test v12 and reciprocal square root v13, the node factor v14,
  the edge weights v29 and the first layer's product v30.
-/
import proofs.«418250_j22643067584840_1_alg».proof.Proof.RefOps
import proofs.«418250_j22643067584840_1_alg».proof.Proof.RefRead
import Idealize.ShloMosaic.Lib.StableHlo.Run

set_option maxRecDepth 16384

noncomputable section

namespace Cert.ReferenceIdeal.RChain

open Idealize.ShloMosaic Idealize.ShloMosaic.TcCoe Idealize.SL.Sem Idealize.ShloMosaic.StableHlo
open Cert.ReferenceIdeal Cert.ReferenceIdeal.Gen Cert.ReferenceIdeal.RunP Cert.ReferenceIdeal.ReadP

variable {F : FTy → Type} [FloatOps F]

variable (W : Valuation τ sig (Elt F))

theorem r1_v3 (a5 : (⟨S2x80000, .i32⟩ : BufTy).Contents (Elt F)) (h5 : W (Proc.devRef .tc main_arg5) = a5) :
    StableHlo.after rops1 W (Proc.devRef .tc main_v3) = val_main_v3 (F := F) a5 := by
  after_results; rw [h5]; rfl

theorem r1_v6 (a5 : (⟨S2x80000, .i32⟩ : BufTy).Contents (Elt F)) (h5 : W (Proc.devRef .tc main_arg5) = a5) :
    StableHlo.after rops1 W (Proc.devRef .tc main_v6) = val_main_v6 (F := F) a5 := by
  after_results; rw [h5]; rfl

theorem r1_v12 (a5 : (⟨S2x80000, .i32⟩ : BufTy).Contents (Elt F)) (h5 : W (Proc.devRef .tc main_arg5) = a5) :
    StableHlo.after rops1 W (Proc.devRef .tc main_v12) = val_main_v12 (F := F) a5 := by
  after_results; rw [h5]; rfl

theorem r1_v13 (a5 : (⟨S2x80000, .i32⟩ : BufTy).Contents (Elt F)) (h5 : W (Proc.devRef .tc main_arg5) = a5) :
    StableHlo.after rops1 W (Proc.devRef .tc main_v13) = val_main_v13 (F := F) a5 := by
  after_results; rw [h5]; rfl

theorem r1_cst2 : StableHlo.after rops1 W (Proc.devRef .tc main_cst_2) = val_main_cst_2 (F := F) := by
  after_results; rfl

theorem r2_v14 (a5 : (⟨S2x80000, .i32⟩ : BufTy).Contents (Elt F))
    (h12 : W (Proc.devRef .tc main_v12) = val_main_v12 (F := F) a5)
    (h13 : W (Proc.devRef .tc main_v13) = val_main_v13 (F := F) a5)
    (hc : W (Proc.devRef .tc main_cst_2) = val_main_cst_2 (F := F)) :
    StableHlo.after rops2 W (Proc.devRef .tc main_v14) = val_main_v14 (F := F) a5 := by
  after_results
  simp only [TRef.ofBuf, TRef.toBuf, cast_eq, TRef.of]
  rw [h12, h13, hc]
  rfl

set_option maxHeartbeats 2000000 in
theorem r3_v29 (a5 : (⟨S2x80000, .i32⟩ : BufTy).Contents (Elt F))
    (h3 : W (Proc.devRef .tc main_v3) = val_main_v3 (F := F) a5)
    (h6 : W (Proc.devRef .tc main_v6) = val_main_v6 (F := F) a5)
    (h14 : W (Proc.devRef .tc main_v14) = val_main_v14 (F := F) a5) :
    StableHlo.after rops3 W (Proc.devRef .tc main_v29) = val_main_v29 (F := F) a5 := by
  after_results; rw [h3, h6, h14]; rfl

theorem r3_v30 (a0 : (⟨S40000x5000, .f32⟩ : BufTy).Contents (Elt F)) (a1 : (⟨S5000x64, .f32⟩ : BufTy).Contents (Elt F))
    (h0 : W (Proc.devRef .tc main_arg0) = a0) (h1 : W (Proc.devRef .tc main_arg1) = a1) :
    StableHlo.after rops3 W (Proc.devRef .tc main_v30) = val_main_v30 (F := F) a0 a1 := by
  after_results; rw [h0, h1]; rfl

end Cert.ReferenceIdeal.RChain

end
-- ==== Proof.RChain2.lean ====
/-
  The reference program's chunks 4 and 5 read back as its own stage functions, from ANY buffer contents W: the first
  layer after aggregation and bias v46, and the positive part v62 of its rows joined with the root rows of x.
-/
import proofs.«418250_j22643067584840_1_alg».proof.Proof.RefOps
import proofs.«418250_j22643067584840_1_alg».proof.Proof.RefRead
import Idealize.ShloMosaic.Lib.StableHlo.Run

set_option maxRecDepth 16384

noncomputable section

namespace Cert.ReferenceIdeal.RChain

open Idealize.ShloMosaic Idealize.ShloMosaic.TcCoe Idealize.SL.Sem Idealize.ShloMosaic.StableHlo
open Cert.ReferenceIdeal Cert.ReferenceIdeal.Gen Cert.ReferenceIdeal.RunP Cert.ReferenceIdeal.ReadP

variable {F : FTy → Type} [FloatOps F]

variable (W : Valuation τ sig (Elt F))

set_option maxHeartbeats 2000000 in
theorem r4_v46 (a0 : (⟨S40000x5000, .f32⟩ : BufTy).Contents (Elt F)) (a1 : (⟨S5000x64, .f32⟩ : BufTy).Contents (Elt F)) (a2 : (⟨S64, .f32⟩ : BufTy).Contents (Elt F)) (a5 : (⟨S2x80000, .i32⟩ : BufTy).Contents (Elt F))
    (h30 : W (Proc.devRef .tc main_v30) = val_main_v30 (F := F) a0 a1)
    (h3 : W (Proc.devRef .tc main_v3) = val_main_v3 (F := F) a5)
    (h6 : W (Proc.devRef .tc main_v6) = val_main_v6 (F := F) a5)
    (h29 : W (Proc.devRef .tc main_v29) = val_main_v29 (F := F) a5)
    (h2 : W (Proc.devRef .tc main_arg2) = a2) :
    StableHlo.after rops4 W (Proc.devRef .tc main_v46) = val_main_v46 (F := F) a0 a1 a2 a5 := by
  after_results
  rw [h30, h3, h6, h29, h2]
  rfl

set_option maxHeartbeats 2000000 in
theorem r5_v62 (a0 : (⟨S40000x5000, .f32⟩ : BufTy).Contents (Elt F)) (a1 : (⟨S5000x64, .f32⟩ : BufTy).Contents (Elt F)) (a2 : (⟨S64, .f32⟩ : BufTy).Contents (Elt F))
    (a5 : (⟨S2x80000, .i32⟩ : BufTy).Contents (Elt F)) (a6 : (⟨S40000, .i32⟩ : BufTy).Contents (Elt F)) (a7 : (⟨S128, .i32⟩ : BufTy).Contents (Elt F))
    (h46 : W (Proc.devRef .tc main_v46) = val_main_v46 (F := F) a0 a1 a2 a5)
    (h0 : W (Proc.devRef .tc main_arg0) = a0) (hs : W (Proc.devRef .tc main_arg6) = a6) (hr : W (Proc.devRef .tc main_arg7) = a7) :
    StableHlo.after rops5 W (Proc.devRef .tc main_v62) = val_main_v62 (F := F) a0 a1 a2 a5 a6 a7 := by
  after_results
  simp only [TRef.ofBuf, TRef.toBuf, cast_eq, TRef.of]
  rw [h46, h0, hs, hr]
  rfl

end Cert.ReferenceIdeal.RChain

end
-- ==== Proof.RChain3.lean ====
/-
  The reference program's chunks 6, 7 and 8 (it builds the edge rows, columns and weights a second time for its second
  layer) read back as its own stage functions, from ANY buffer contents W.
-/
import proofs.«418250_j22643067584840_1_alg».proof.Proof.RefOps
import proofs.«418250_j22643067584840_1_alg».proof.Proof.RefRead
import Idealize.ShloMosaic.Lib.StableHlo.Run

set_option maxRecDepth 16384

noncomputable section

namespace Cert.ReferenceIdeal.RChain

open Idealize.ShloMosaic Idealize.ShloMosaic.TcCoe Idealize.SL.Sem Idealize.ShloMosaic.StableHlo
open Cert.ReferenceIdeal Cert.ReferenceIdeal.Gen Cert.ReferenceIdeal.RunP Cert.ReferenceIdeal.ReadP

variable {F : FTy → Type} [FloatOps F]

variable (W : Valuation τ sig (Elt F))

theorem r6_v66 (a5 : (⟨S2x80000, .i32⟩ : BufTy).Contents (Elt F)) (h5 : W (Proc.devRef .tc main_arg5) = a5) :
    StableHlo.after rops6 W (Proc.devRef .tc main_v66) = val_main_v66 (F := F) a5 := by
  after_results; rw [h5]; rfl

theorem r6_v69 (a5 : (⟨S2x80000, .i32⟩ : BufTy).Contents (Elt F)) (h5 : W (Proc.devRef .tc main_arg5) = a5) :
    StableHlo.after rops6 W (Proc.devRef .tc main_v69) = val_main_v69 (F := F) a5 := by
  after_results; rw [h5]; rfl

set_option maxHeartbeats 2000000 in
theorem r6_v75 (a5 : (⟨S2x80000, .i32⟩ : BufTy).Contents (Elt F)) (h5 : W (Proc.devRef .tc main_arg5) = a5) :
    StableHlo.after rops6 W (Proc.devRef .tc main_v75) = val_main_v75 (F := F) a5 := by
  after_results; rw [h5]; rfl

set_option maxHeartbeats 2000000 in
theorem r6_v76 (a5 : (⟨S2x80000, .i32⟩ : BufTy).Contents (Elt F)) (h5 : W (Proc.devRef .tc main_arg5) = a5) :
    StableHlo.after rops6 W (Proc.devRef .tc main_v76) = val_main_v76 (F := F) a5 := by
  after_results; rw [h5]; rfl

theorem r6_cst16 : StableHlo.after rops6 W (Proc.devRef .tc main_cst_16) = val_main_cst_16 (F := F) := by
  after_results; rfl

theorem r7_v77 (a5 : (⟨S2x80000, .i32⟩ : BufTy).Contents (Elt F))
    (h75 : W (Proc.devRef .tc main_v75) = val_main_v75 (F := F) a5)
    (h76 : W (Proc.devRef .tc main_v76) = val_main_v76 (F := F) a5)
    (hc : W (Proc.devRef .tc main_cst_16) = val_main_cst_16 (F := F)) :
    StableHlo.after rops7 W (Proc.devRef .tc main_v77) = val_main_v77 (F := F) a5 := by
  after_results
  simp only [TRef.ofBuf, TRef.toBuf, cast_eq, TRef.of]
  rw [h75, h76, hc]
  rfl

set_option maxHeartbeats 2000000 in
theorem r8_v92 (a5 : (⟨S2x80000, .i32⟩ : BufTy).Contents (Elt F))
    (h66 : W (Proc.devRef .tc main_v66) = val_main_v66 (F := F) a5)
    (h69 : W (Proc.devRef .tc main_v69) = val_main_v69 (F := F) a5)
    (h77 : W (Proc.devRef .tc main_v77) = val_main_v77 (F := F) a5) :
    StableHlo.after rops8 W (Proc.devRef .tc main_v92) = val_main_v92 (F := F) a5 := by
  after_results; rw [h66, h69, h77]; rfl

end Cert.ReferenceIdeal.RChain

end
-- ==== Proof.RChain4.lean ====
/-
  The reference program's chunks 9 and 10 read back as its own stage functions, from ANY buffer contents W: the second
  layer after aggregation and bias v109, and its positive part v110.
-/
import proofs.«418250_j22643067584840_1_alg».proof.Proof.RefOps
import proofs.«418250_j22643067584840_1_alg».proof.Proof.RefRead
import Idealize.ShloMosaic.Lib.StableHlo.Run

set_option maxRecDepth 16384

noncomputable section

namespace Cert.ReferenceIdeal.RChain

open Idealize.ShloMosaic Idealize.ShloMosaic.TcCoe Idealize.SL.Sem Idealize.ShloMosaic.StableHlo
open Cert.ReferenceIdeal Cert.ReferenceIdeal.Gen Cert.ReferenceIdeal.RunP Cert.ReferenceIdeal.ReadP

variable {F : FTy → Type} [FloatOps F]

variable (W : Valuation τ sig (Elt F))

set_option maxHeartbeats 2000000 in
theorem r9_v109 (a0 : (⟨S40000x5000, .f32⟩ : BufTy).Contents (Elt F)) (a1 : (⟨S5000x64, .f32⟩ : BufTy).Contents (Elt F)) (a2 : (⟨S64, .f32⟩ : BufTy).Contents (Elt F))
    (a3 : (⟨S5064x64, .f32⟩ : BufTy).Contents (Elt F)) (a4 : (⟨S64, .f32⟩ : BufTy).Contents (Elt F)) (a5 : (⟨S2x80000, .i32⟩ : BufTy).Contents (Elt F))
    (a6 : (⟨S40000, .i32⟩ : BufTy).Contents (Elt F)) (a7 : (⟨S128, .i32⟩ : BufTy).Contents (Elt F))
    (h62 : W (Proc.devRef .tc main_v62) = val_main_v62 (F := F) a0 a1 a2 a5 a6 a7)
    (h3 : W (Proc.devRef .tc main_arg3) = a3)
    (h66 : W (Proc.devRef .tc main_v66) = val_main_v66 (F := F) a5)
    (h69 : W (Proc.devRef .tc main_v69) = val_main_v69 (F := F) a5)
    (h92 : W (Proc.devRef .tc main_v92) = val_main_v92 (F := F) a5)
    (h4 : W (Proc.devRef .tc main_arg4) = a4) :
    StableHlo.after rops9 W (Proc.devRef .tc main_v109) = val_main_v109 (F := F) a0 a1 a2 a3 a4 a5 a6 a7 := by
  after_results; rw [h62, h3, h66, h69, h92, h4]; rfl

theorem r10_v110 (a0 : (⟨S40000x5000, .f32⟩ : BufTy).Contents (Elt F)) (a1 : (⟨S5000x64, .f32⟩ : BufTy).Contents (Elt F)) (a2 : (⟨S64, .f32⟩ : BufTy).Contents (Elt F))
    (a3 : (⟨S5064x64, .f32⟩ : BufTy).Contents (Elt F)) (a4 : (⟨S64, .f32⟩ : BufTy).Contents (Elt F)) (a5 : (⟨S2x80000, .i32⟩ : BufTy).Contents (Elt F))
    (a6 : (⟨S40000, .i32⟩ : BufTy).Contents (Elt F)) (a7 : (⟨S128, .i32⟩ : BufTy).Contents (Elt F))
    (h109 : W (Proc.devRef .tc main_v109) = val_main_v109 (F := F) a0 a1 a2 a3 a4 a5 a6 a7) :
    StableHlo.after rops10 W (Proc.devRef .tc main_v110) = val_main_v110 (F := F) a0 a1 a2 a3 a4 a5 a6 a7 := by
  after_results
  simp only [TRef.ofBuf, TRef.toBuf, cast_eq, TRef.of]
  rw [h109]
  rfl

end Cert.ReferenceIdeal.RChain

end
-- ==== Proof.RChain5.lean ====
/-
  The reference program's last two chunks read back as its own stage functions, from ANY buffer contents W: the rows
  v125 (the second layer beside the first layer's root rows) and the result v137 (their per-segment sums over the
  segment sizes).
-/
import proofs.«418250_j22643067584840_1_alg».proof.Proof.RefOps
import proofs.«418250_j22643067584840_1_alg».proof.Proof.RefRead
import Idealize.ShloMosaic.Lib.StableHlo.Run

set_option maxRecDepth 16384

noncomputable section

namespace Cert.ReferenceIdeal.RChain

open Idealize.ShloMosaic Idealize.ShloMosaic.TcCoe Idealize.SL.Sem Idealize.ShloMosaic.StableHlo
open Cert.ReferenceIdeal Cert.ReferenceIdeal.Gen Cert.ReferenceIdeal.RunP Cert.ReferenceIdeal.ReadP

variable {F : FTy → Type} [FloatOps F]

variable (W : Valuation τ sig (Elt F))

set_option maxHeartbeats 2000000 in
theorem r11_v125 (a0 : (⟨S40000x5000, .f32⟩ : BufTy).Contents (Elt F)) (a1 : (⟨S5000x64, .f32⟩ : BufTy).Contents (Elt F)) (a2 : (⟨S64, .f32⟩ : BufTy).Contents (Elt F))
    (a3 : (⟨S5064x64, .f32⟩ : BufTy).Contents (Elt F)) (a4 : (⟨S64, .f32⟩ : BufTy).Contents (Elt F)) (a5 : (⟨S2x80000, .i32⟩ : BufTy).Contents (Elt F))
    (a6 : (⟨S40000, .i32⟩ : BufTy).Contents (Elt F)) (a7 : (⟨S128, .i32⟩ : BufTy).Contents (Elt F))
    (h110 : W (Proc.devRef .tc main_v110) = val_main_v110 (F := F) a0 a1 a2 a3 a4 a5 a6 a7)
    (h46 : W (Proc.devRef .tc main_v46) = val_main_v46 (F := F) a0 a1 a2 a5)
    (hs : W (Proc.devRef .tc main_arg6) = a6) (hr : W (Proc.devRef .tc main_arg7) = a7) :
    StableHlo.after rops11 W (Proc.devRef .tc main_v125) = val_main_v125 (F := F) a0 a1 a2 a3 a4 a5 a6 a7 := by
  after_results
  rw [h110, h46, hs, hr]
  rfl

theorem r12_v137 (a0 : (⟨S40000x5000, .f32⟩ : BufTy).Contents (Elt F)) (a1 : (⟨S5000x64, .f32⟩ : BufTy).Contents (Elt F)) (a2 : (⟨S64, .f32⟩ : BufTy).Contents (Elt F))
    (a3 : (⟨S5064x64, .f32⟩ : BufTy).Contents (Elt F)) (a4 : (⟨S64, .f32⟩ : BufTy).Contents (Elt F)) (a5 : (⟨S2x80000, .i32⟩ : BufTy).Contents (Elt F))
    (a6 : (⟨S40000, .i32⟩ : BufTy).Contents (Elt F)) (a7 : (⟨S128, .i32⟩ : BufTy).Contents (Elt F))
    (h125 : W (Proc.devRef .tc main_v125) = val_main_v125 (F := F) a0 a1 a2 a3 a4 a5 a6 a7)
    (hs : W (Proc.devRef .tc main_arg6) = a6) :
    StableHlo.after rops12 W (Proc.devRef .tc main_v137) = val_main_v137 (F := F) a0 a1 a2 a3 a4 a5 a6 a7 := by
  after_results
  rw [h125, hs]
  rfl

end Cert.ReferenceIdeal.RChain

end
-- ==== Proof.RefValue.lean ====
/-
  The reference program's run, chunk by chunk.

  Its @main is 180 host operations in a row; the raw run says every buffer ends at the fold of the operations' results
  over its launch contents. The operation list is twelve consecutive chunks, so the fold passes through thirteen
  levels U0 (launch) … U12 (the end). This module walks them once: at each level the buffers read later hold the
  program's own stage functions of the arguments (the value lemmas of the chunk modules), and a buffer no operation in
  between writes keeps its contents (the table RKept). At U12 the result buffer holds the last stage of the arguments
  and the argument buffers hold what they were launched with: that is the run.
-/
import proofs.«418250_j22643067584840_1_alg».proof.Proof.RefOps
import proofs.«418250_j22643067584840_1_alg».proof.Proof.RefRead
import proofs.«418250_j22643067584840_1_alg».proof.Proof.RKept
import proofs.«418250_j22643067584840_1_alg».proof.Proof.RChain1
import proofs.«418250_j22643067584840_1_alg».proof.Proof.RChain2
import proofs.«418250_j22643067584840_1_alg».proof.Proof.RChain3
import proofs.«418250_j22643067584840_1_alg».proof.Proof.RChain4
import proofs.«418250_j22643067584840_1_alg».proof.Proof.RChain5
import Idealize.ShloMosaic.Lib.Pipeline.Frame

set_option maxRecDepth 16384
set_option maxHeartbeats 2000000

noncomputable section

namespace Cert.ReferenceIdeal.RValue

open Idealize.ShloMosaic Idealize.ShloMosaic.TcCoe Idealize.SL.Sem Idealize.ShloMosaic.StableHlo
open Cert.ReferenceIdeal Cert.ReferenceIdeal.Gen Cert.ReferenceIdeal.RunP Cert.ReferenceIdeal.ReadP
open Cert.ReferenceIdeal.RKept Cert.ReferenceIdeal.RChain

variable {F : FTy → Type} [FloatOps F]
variable (m : (ℓ : Loc nD τ sig) → Buf (Elt F) ℓ) (c : Dev nD)

/-- An argument array as launched. -/
abbrev arg (b : Ref sig .tc) : Buf (Elt F) ((c.tc : Thread nD τ).loc b) := m ((c.tc : Thread nD τ).loc b)

local notation "x₀" => arg m c main_arg0
local notation "w₁" => arg m c main_arg1
local notation "b₁" => arg m c main_arg2
local notation "w₂" => arg m c main_arg3
local notation "b₂" => arg m c main_arg4
local notation "ed" => arg m c main_arg5
local notation "sg" => arg m c main_arg6
local notation "rt" => arg m c main_arg7

/-- The fold over the whole list ends at the twelfth level. -/
theorem fold_eq : StableHlo.after ops (launchContents m c) = U12 m c := by
  rw [ops_split]
  simp only [StableHlo.after_append]

theorem u0 (b : Ref sig .tc) : U0 m c (Proc.devRef .tc b) = arg m c b := rfl

/-! ## The first layer -/

theorem u1_v3 : U1 m c (Proc.devRef .tc main_v3) = val_main_v3 (F := F) ed := r1_v3 (U0 m c) _ (u0 m c main_arg5)
theorem u1_v6 : U1 m c (Proc.devRef .tc main_v6) = val_main_v6 (F := F) ed := r1_v6 (U0 m c) _ (u0 m c main_arg5)
theorem u1_v12 : U1 m c (Proc.devRef .tc main_v12) = val_main_v12 (F := F) ed := r1_v12 (U0 m c) _ (u0 m c main_arg5)
theorem u1_v13 : U1 m c (Proc.devRef .tc main_v13) = val_main_v13 (F := F) ed := r1_v13 (U0 m c) _ (u0 m c main_arg5)
theorem u1_cst2 : U1 m c (Proc.devRef .tc main_cst_2) = val_main_cst_2 (F := F) := r1_cst2 (U0 m c)

theorem u2_v14 : U2 m c (Proc.devRef .tc main_v14) = val_main_v14 (F := F) ed :=
  r2_v14 (U1 m c) _ (u1_v12 m c) (u1_v13 m c) (u1_cst2 m c)

theorem u3_v29 : U3 m c (Proc.devRef .tc main_v29) = val_main_v29 (F := F) ed :=
  r3_v29 (U2 m c) _ ((rk2_v3 m c).trans (u1_v3 m c)) ((rk2_v6 m c).trans (u1_v6 m c)) (u2_v14 m c)

theorem u3_v30 : U3 m c (Proc.devRef .tc main_v30) = val_main_v30 (F := F) x₀ w₁ :=
  r3_v30 (U2 m c) _ _ ((rk2_arg0 m c).trans (u0 m c main_arg0)) ((rk2_arg1 m c).trans (u0 m c main_arg1))

theorem u4_v46 : U4 m c (Proc.devRef .tc main_v46) = val_main_v46 (F := F) x₀ w₁ b₁ ed :=
  r4_v46 (U3 m c) _ _ _ _ (u3_v30 m c) ((rk3_v3 m c).trans (u1_v3 m c)) ((rk3_v6 m c).trans (u1_v6 m c)) (u3_v29 m c)
    ((rk3_arg2 m c).trans (u0 m c main_arg2))

/-! ## The second layer -/

theorem u5_v62 : U5 m c (Proc.devRef .tc main_v62) = val_main_v62 (F := F) x₀ w₁ b₁ ed sg rt :=
  r5_v62 (U4 m c) _ _ _ _ _ _ (u4_v46 m c) ((rk4_arg0 m c).trans (u0 m c main_arg0))
    ((rk4_arg6 m c).trans (u0 m c main_arg6)) ((rk4_arg7 m c).trans (u0 m c main_arg7))

theorem u5_arg5 : U5 m c (Proc.devRef .tc main_arg5) = ed := (rk5_arg5 m c).trans (u0 m c main_arg5)

theorem u6_v66 : U6 m c (Proc.devRef .tc main_v66) = val_main_v66 (F := F) ed := r6_v66 (U5 m c) _ (u5_arg5 m c)
theorem u6_v69 : U6 m c (Proc.devRef .tc main_v69) = val_main_v69 (F := F) ed := r6_v69 (U5 m c) _ (u5_arg5 m c)
theorem u6_v75 : U6 m c (Proc.devRef .tc main_v75) = val_main_v75 (F := F) ed := r6_v75 (U5 m c) _ (u5_arg5 m c)
theorem u6_v76 : U6 m c (Proc.devRef .tc main_v76) = val_main_v76 (F := F) ed := r6_v76 (U5 m c) _ (u5_arg5 m c)
theorem u6_cst16 : U6 m c (Proc.devRef .tc main_cst_16) = val_main_cst_16 (F := F) := r6_cst16 (U5 m c)

theorem u7_v77 : U7 m c (Proc.devRef .tc main_v77) = val_main_v77 (F := F) ed :=
  r7_v77 (U6 m c) _ (u6_v75 m c) (u6_v76 m c) (u6_cst16 m c)

theorem u8_v92 : U8 m c (Proc.devRef .tc main_v92) = val_main_v92 (F := F) ed :=
  r8_v92 (U7 m c) _ ((rk7_v66 m c).trans (u6_v66 m c)) ((rk7_v69 m c).trans (u6_v69 m c)) (u7_v77 m c)

theorem u9_v109 : U9 m c (Proc.devRef .tc main_v109) = val_main_v109 (F := F) x₀ w₁ b₁ w₂ b₂ ed sg rt :=
  r9_v109 (U8 m c) _ _ _ _ _ _ _ _ ((rk8_v62 m c).trans (u5_v62 m c)) ((rk8_arg3 m c).trans (u0 m c main_arg3))
    ((rk8_v66 m c).trans (u6_v66 m c)) ((rk8_v69 m c).trans (u6_v69 m c)) (u8_v92 m c)
    ((rk8_arg4 m c).trans (u0 m c main_arg4))

theorem u10_v110 : U10 m c (Proc.devRef .tc main_v110) = val_main_v110 (F := F) x₀ w₁ b₁ w₂ b₂ ed sg rt :=
  r10_v110 (U9 m c) _ _ _ _ _ _ _ _ (u9_v109 m c)

/-! ## The pooled rows and the result -/

theorem u11_v125 : U11 m c (Proc.devRef .tc main_v125) = val_main_v125 (F := F) x₀ w₁ b₁ w₂ b₂ ed sg rt :=
  r11_v125 (U10 m c) _ _ _ _ _ _ _ _ (u10_v110 m c) ((rk10_v46 m c).trans (u4_v46 m c))
    ((rk10_arg6 m c).trans (u0 m c main_arg6)) ((rk10_arg7 m c).trans (u0 m c main_arg7))

theorem u12_v137 : U12 m c (Proc.devRef .tc main_v137) = val_main_v137 (F := F) x₀ w₁ b₁ w₂ b₂ ed sg rt :=
  r12_v137 (U11 m c) _ _ _ _ _ _ _ _ (u11_v125 m c) ((rk11_arg6 m c).trans (u0 m c main_arg6))

/-- On every device, for any float values, from any memory with zero counters: every weakly fair execution of the
    reference's @main terminates with the result buffer at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v137)
        = val_main_v137 (F := F) (arg m c main_arg0) (arg m c main_arg1) (arg m c main_arg2) (arg m c main_arg3)
            (arg m c main_arg4) (arg m c main_arg5) (arg m c main_arg6) (arg m c main_arg7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v137).trans ((congrFun (fold_eq m c) _).trans (u12_v137 m c)),
     (h c main_arg0).trans ((congrFun (fold_eq m c) _).trans ((rk12_arg0 m c).trans (u0 m c main_arg0))),
     (h c main_arg1).trans ((congrFun (fold_eq m c) _).trans ((rk12_arg1 m c).trans (u0 m c main_arg1))),
     (h c main_arg2).trans ((congrFun (fold_eq m c) _).trans ((rk12_arg2 m c).trans (u0 m c main_arg2))),
     (h c main_arg3).trans ((congrFun (fold_eq m c) _).trans ((rk12_arg3 m c).trans (u0 m c main_arg3))),
     (h c main_arg4).trans ((congrFun (fold_eq m c) _).trans ((rk12_arg4 m c).trans (u0 m c main_arg4))),
     (h c main_arg5).trans ((congrFun (fold_eq m c) _).trans ((rk12_arg5 m c).trans (u0 m c main_arg5))),
     (h c main_arg6).trans ((congrFun (fold_eq m c) _).trans ((rk12_arg6 m c).trans (u0 m c main_arg6))),
     (h c main_arg7).trans ((congrFun (fold_eq m c) _).trans ((rk12_arg7 m c).trans (u0 m c main_arg7)))⟩)
    (run_raw m ρ)

end Cert.ReferenceIdeal.RValue

end
-- ==== Proof.lean ====
/-
  The certificate of a two-layer graph convolution with per-graph mean pooling, kernel against reference, over the
  extended reals.

  Both programs compute, from node features x : [40000, 5000], weights W1, W2, biases b1, b2, an edge list, the nodes'
  graph numbers ("segment words") and one root node per graph:  A1 = Agg(x·W1) + b1;  A2 = relu(Agg(relu([A1 | x[root]])·W2) + b2);
  the per-graph sums of the rows [A2 | A1[root]], divided by the graph sizes (at least 1). Agg is the normalised
  aggregation along the edges with self-loops; x[root] at node n is the row of x of the root of n's graph.

  The kernel differs from the reference in four places, and at each the two agree on the extended reals:
  * x·W1 is a pallas_call over row blocks with W1 rounded to bf16: a change of float format is the identity there, and
    the blocks tile the rows;
  * relu([A1 | x[root]])·W2 is formed as relu(A1)·W2[:64] plus, gathered by graph number, the 128-row table
    relu(x[roots])·W2[64:]: a sum over 5064 = 64 + 5000 terms split at 64, relu and the row gather acting entrywise
    and rowwise (a sum on the extended reals is a sum in a commutative monoid; no finiteness is used anywhere);
  * A1[root] is gathered in two steps (a 128-row table by the root words, then by graph number) instead of one;
  * the per-graph sums are a second pallas_call adding, block of 4000 nodes by block, a one-hot matrix times the rows,
    instead of an accumulating scatter: a word out of 0 … 127 matches no column and is dropped by the scatter alike.
  Everything else is the same host operations on both sides.

  The three frames: the two kernel programs' are the generated frames; the reference's is its run (proved chunk by chunk in the module RefValue) with the
  result dropped. The idealization rewrote nothing, so `preserves` is trivial. `algebraic`: the kernel's run names its result
  buffer at the last boundary of the generated fold, which the module Value walks to the reference's last stage of the
  arguments; the reference's run ends at that same stage of arguments that agree.
-/
import proofs.«418250_j22643067584840_1_alg».proof.Defs
import proofs.«418250_j22643067584840_1_alg».proof.Proof.Gen.Kernel
import proofs.«418250_j22643067584840_1_alg».proof.Proof.Gen.Kernel.Skeleton
import proofs.«418250_j22643067584840_1_alg».proof.Proof.Gen.Kernel.Launch
import proofs.«418250_j22643067584840_1_alg».proof.Proof.Gen.Kernel.Points
import proofs.«418250_j22643067584840_1_alg».proof.Proof.Gen.Kernel.Frame
import proofs.«418250_j22643067584840_1_alg».proof.Proof.Gen.KernelIdeal
import proofs.«418250_j22643067584840_1_alg».proof.Proof.Gen.KernelIdeal.Skeleton
import proofs.«418250_j22643067584840_1_alg».proof.Proof.Gen.KernelIdeal.Launch
import proofs.«418250_j22643067584840_1_alg».proof.Proof.Gen.KernelIdeal.Points
import proofs.«418250_j22643067584840_1_alg».proof.Proof.Gen.KernelIdeal.Frame
import proofs.«418250_j22643067584840_1_alg».proof.Proof.Gen.ReferenceIdeal
import proofs.«418250_j22643067584840_1_alg».proof.Proof.Gen.Pre_finite_inputs
import proofs.«418250_j22643067584840_1_alg».proof.Proof.KRun
import proofs.«418250_j22643067584840_1_alg».proof.Proof.Value
import proofs.«418250_j22643067584840_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RValue.run (F := Ideal) m ρ)

/-- Both programs end with the reference's last stage of the (agreeing) arguments in their result buffers. -/
theorem algebraic : Cert.algebraic_KernelIdeal_ReferenceIdeal := by
  intro m ρ m' ρ' _ hagree
  refine ⟨fun c => Cert.ReferenceIdeal.ReadP.val_main_v137 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KValue.result m ρ c), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.RValue.run (F := Ideal) m' ρ')
    unfold Cert.ReferenceIdeal.RValue.arg
    rw [(hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
